-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x50257 : Shape := ⟨2, ![2048, 50257]⟩
abbrev S2048 : Shape := ⟨1, ![2048]⟩
abbrev S_ : Shape := ⟨0, ![]⟩

class Facts : Prop where
  bcast_S_S2048x50257 : S_.BroadcastsInDim S2048x50257 (![] : Fin 0 → Fin S2048x50257.rank)
  reducesTo_S2048x50257_S_d0_1 : S2048x50257.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x50257 .f32) (main_arg1 : IVec S2048 32) : IVec S_ 1 :=
  let main_v0 : FVec F S2048x50257 .f32 := Host.absf main_arg0
  let main_cst : FVec F S_ .f32 := constant S_ .f32 0x7F800000#32
  let main_v1 : FVec F S2048x50257 .f32 := broadcastInDim S2048x50257 ![] bcast_S_S2048x50257 main_cst
  let main_v2 : IVec S2048x50257 1 := cmpf .olt main_v0 main_v1
  let main_c : IVec S_ 1 := constantI S_ 1 1#1
  let main_v3 : IVec S_ 1 := (fun x v => Host.reduce IntOp.andi x v reducesTo_S2048x50257_S_d0_1 h_S_) main_v2 main_c
  let main_c_0 : IVec S_ 32 := constantI S_ 32 0#32
  let main_v4 : IVec S2048 32 := broadcastInDim S2048 ![] bcast_S_S2048 main_c_0
  let main_v5 : IVec S2048 1 := cmpi .sge main_arg1 main_v4
  let main_c_1 : IVec S_ 1 := constantI S_ 1 1#1
  let main_v6 : IVec S_ 1 := (fun x v => Host.reduce IntOp.andi x v reducesTo_S2048_S_d0 h_S_) main_v5 main_c_1
  let main_v7 : IVec S_ 1 := andi main_v3 main_v6
  let main_c_2 : IVec S_ 32 := constantI S_ 32 50257#32
  let main_v8 : IVec S2048 32 := broadcastInDim S2048 ![] bcast_S_S2048 main_c_2
  let main_v9 : IVec S2048 1 := cmpi .slt main_arg1 main_v8
  let main_c_3 : IVec S_ 1 := constantI S_ 1 1#1
  let main_v10 : IVec S_ 1 := (fun x v => Host.reduce IntOp.andi x v reducesTo_S2048_S_d0 h_S_) main_v9 main_c_3
  let main_v11 : IVec S_ 1 := andi main_v7 main_v10
  main_v11
-- ==== Kernel.lean ====
abbrev S2048x50257 : Shape := ⟨2, ![2048, 50257]⟩
abbrev S2048 : Shape := ⟨1, ![2048]⟩
abbrev S2048x1 : Shape := ⟨2, ![2048, 1]⟩
abbrev S512x2048 : Shape := ⟨2, ![512, 2048]⟩
abbrev S512x1 : Shape := ⟨2, ![512, 1]⟩
abbrev S512 : Shape := ⟨1, ![512]⟩
abbrev S_ : Shape := ⟨0, ![]⟩
abbrev S2048x2 : Shape := ⟨2, ![2048, 2]⟩

abbrev nBuf : Space → Nat
  | .hbm => 73
  | .vmem => 10
  | .smem => 0
  | _ => 0

abbrev bufTy : (tb : Table) → Fin (tcTables nBuf tb) → BufTy
  | .hbm, ⟨0, _⟩ => ⟨S2048x50257, .f32⟩
  | .hbm, ⟨1, _⟩ => ⟨S2048, .i32⟩
  | .hbm, ⟨2, _⟩ => ⟨S2048x1, .f32⟩
  | .hbm, ⟨3, _⟩ => ⟨S2048x1, .f32⟩
  | .hbm, ⟨4, _⟩ => ⟨S2048x1, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048, .f32⟩
  | .hbm, ⟨10, _⟩ => ⟨S_, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048x1, .i32⟩
  | .hbm, ⟨32, _⟩ => ⟨S2048x1, .i32⟩
  | .hbm, ⟨33, _⟩ => ⟨S2048x2, .i32⟩
  | .hbm, ⟨34, _⟩ => ⟨S2048, .f32⟩
  | .hbm, ⟨35, _⟩ => ⟨S2048, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .i1⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S2048, .f32⟩
  | .hbm, ⟨54, _⟩ => ⟨S2048, .f32⟩
  | .hbm, ⟨55, _⟩ => ⟨S2048, .f32⟩
  | .hbm, ⟨56, _⟩ => ⟨S2048, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S2048, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | _, _ => ⟨S2048x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S512x2048_S512x2048_0_0 : ∀ a, (![0, 0] : Fin 2 → Nat) a + S512x2048.size a ≤ S512x2048.size a
  h_S512x2048 : 0 < S512x2048.numel
  iota_S512x2048_d1_w32 : S512x2048.Iotas .tc 32 [1]
  reduces_S512x2048_S512 : S512x2048.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  bcast_S_S2048x1 : S_.BroadcastsInDim S2048x1 (![] : Fin 0 → Fin S2048x1.rank)
  shapeCasts_S2048x1_S2048 : S2048x1.ShapeCasts S2048
  reducesTo_S2048x1_S_d0_1 : S2048x1.ReducesTo [0, 1] S_
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  reducesTo_S2048_S_d0 : S2048.ReducesTo [0] S_
  gather_S2048x50257_S2048x2_S2048_n_01_n_n_01_1_11_wf : GatherDims.WF S2048x50257 S2048x2 S2048 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x2048.size a < S2048x50257.size a
  hwx0_0 : ∀ i : grid0.Coords, EltTy.bits .f32 = 32 ∨ (Rect.unit (s := S2048x50257) (fun a => cc0_transform_0 i a * S512x2048.size a) (fun a => (Pipeline.Clip.of (cc0_transform_0 i a) (S512x2048.size a) (S2048x50257.size a)).extent (S512x2048.size a)) fun a => Pipeline.Clip.inb (Pipeline.Clip.ok_of (hstart0_0 i a))).WholeWords (EltTy.packing .f32)
  hwxs0_0 : ∀ i : grid0.Coords, EltTy.bits .f32 = 32 ∨ (Rect.unit (s := S512x2048) (fun _ => 0) (fun a => (Pipeline.Clip.of (cc0_transform_0 i a) (S512x2048.size a) (S2048x50257.size a)).extent (S512x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S2048x1.size a
  hwx0_1 : ∀ i : grid0.Coords, EltTy.bits .f32 = 32 ∨ (Rect.block (s := S2048x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S2048x1.size a
  hwx0_2 : ∀ i : grid0.Coords, EltTy.bits .f32 = 32 ∨ (Rect.block (s := S2048x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S2048x1.size a
  hwx0_3 : ∀ i : grid0.Coords, EltTy.bits .f32 = 32 ∨ (Rect.block (s := S2048x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S2048x1.size a
  hwx0_4 : ∀ i : grid0.Coords, EltTy.bits .f32 = 32 ∨ (Rect.block (s := S2048x1) S512x1.size (cc0_transform_4 i) (hinb0_4 i)).WholeWords (EltTy.packing .f32)

variable [Facts₀]

def gather_S2048x50257_S2048x2_S2048_n_01_n_n_01_1_11 : GatherDims S2048x50257 S2048x2 S2048 where
  offsetDims := []
  collapsedSliceDims := [0, 1]
  operandBatchingDims := []
  startIndicesBatchingDims := []
  startIndexMap := [0, 1]
  indexVectorDim := 1
  sliceSizes := ![1, 1]
  wf := gather_S2048x50257_S2048x2_S2048_n_01_n_n_01_1_11_wf

abbrev win0_0 : Pipeline.Window sig grid0 :=
  Pipeline.Window.ofSpecClip (Memref.whole main_arg0) S512x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0_0) S512x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x50257 : Shape := ⟨2, ![2048, 50257]⟩
abbrev S2048 : Shape := ⟨1, ![2048]⟩
abbrev S_ : Shape := ⟨0, ![]⟩
abbrev S2048x1 : Shape := ⟨2, ![2048, 1]⟩
abbrev S2048x2 : Shape := ⟨2, ![2048, 2]⟩

abbrev nBuf : Space → Nat
  | .hbm => 110
  | .vmem => 0
  | .smem => 0
  | _ => 0

abbrev bufTy : (tb : Table) → Fin (tcTables nBuf tb) → BufTy
  | .hbm, ⟨0, _⟩ => ⟨S2048x50257, .f32⟩
  | .hbm, ⟨1, _⟩ => ⟨S2048, .i32⟩
  | .hbm, ⟨2, _⟩ => ⟨S2048, .i32⟩
  | .hbm, ⟨3, _⟩ => ⟨S_, .f32⟩
  | .hbm, ⟨4, _⟩ => ⟨S2048x50257, .f32⟩
  | .hbm, ⟨5, _⟩ => ⟨S2048x50257, .i1⟩
  | .hbm, ⟨6, _⟩ => ⟨S_, .f32⟩
  | .hbm, ⟨7, _⟩ => ⟨S2048x50257, .f32⟩
  | .hbm, ⟨8, _⟩ => ⟨S2048x50257, .f32⟩
  | .hbm, ⟨9, _⟩ => ⟨S_, .f32⟩
  | .hbm, ⟨10, _⟩ => ⟨S2048x50257, .f32⟩
  | .hbm, ⟨11, _⟩ => ⟨S2048x50257, .f32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048x1, .i32⟩
  | .hbm, ⟨28, _⟩ => ⟨S2048x2, .i32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S2048, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S_, .f32⟩
  | .hbm, ⟨42, _⟩ => ⟨S2048x50257, .f32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S_, .i32⟩
  | .hbm, ⟨47, _⟩ => ⟨S2048, .i32⟩
  | .hbm, ⟨48, _⟩ => ⟨S2048, .i32⟩
  | .hbm, ⟨49, _⟩ => ⟨S2048, .i32⟩
  | .hbm, ⟨50, _⟩ => ⟨S_, .i32⟩
  | .hbm, ⟨51, _⟩ => ⟨S2048, .i32⟩
  | .hbm, ⟨52, _⟩ => ⟨S2048, .i1⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S2048, .i32⟩
  | .hbm, ⟨57, _⟩ => ⟨S2048x1, .i32⟩
  | .hbm, ⟨58, _⟩ => ⟨S2048x1, .i32⟩
  | .hbm, ⟨59, _⟩ => ⟨S2048x2, .i32⟩
  | .hbm, ⟨60, _⟩ => ⟨S2048x50257, .f32⟩
  | .hbm, ⟨61, _⟩ => ⟨S2048x50257, .f32⟩
  | .hbm, ⟨62, _⟩ => ⟨S2048x50257, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S2048, .f32⟩
  | .hbm, ⟨69, _⟩ => ⟨S_, .f32⟩
  | .hbm, ⟨70, _⟩ => ⟨S2048, .f32⟩
  | .hbm, ⟨71, _⟩ => ⟨S2048, .f32⟩
  | .hbm, ⟨72, _⟩ => ⟨S2048x1, .f32⟩
  | .hbm, ⟨73, _⟩ => ⟨S2048x50257, .f32⟩
  | .hbm, ⟨74, _⟩ => ⟨S2048x50257, .f32⟩
  | .hbm, ⟨75, _⟩ => ⟨S2048x50257, .f32⟩
  | .hbm, ⟨76, _⟩ => ⟨S_, .f32⟩
  | .hbm, ⟨77, _⟩ => ⟨S2048, .f32⟩
  | .hbm, ⟨78, _⟩ => ⟨S2048x1, .f32⟩
  | .hbm, ⟨79, _⟩ => ⟨S2048x1, .f32⟩
  | .hbm, ⟨80, _⟩ => ⟨S2048x50257, .f32⟩
  | .hbm, ⟨81, _⟩ => ⟨S2048x50257, .f32⟩
  | .hbm, ⟨82, _⟩ => ⟨S_, .i32⟩
  | .hbm, ⟨83, _⟩ => ⟨S2048, .i32⟩
  | .hbm, ⟨84, _⟩ => ⟨S2048, .i1⟩
  | .hbm, ⟨85, _⟩ => ⟨S_, .i32⟩
  | .hbm, ⟨86, _⟩ => ⟨S2048, .i32⟩
  | .hbm, ⟨87, _⟩ => ⟨S2048, .i32⟩
  | .hbm, ⟨88, _⟩ => ⟨S2048, .i32⟩
  | .hbm, ⟨89, _⟩ => ⟨S_, .i32⟩
  | .hbm, ⟨90, _⟩ => ⟨S2048, .i32⟩
  | .hbm, ⟨91, _⟩ => ⟨S2048, .i1⟩
  | .hbm, ⟨92, _⟩ => ⟨S_, .i32⟩
  | .hbm, ⟨93, _⟩ => ⟨S2048, .i32⟩
  | .hbm, ⟨94, _⟩ => ⟨S2048, .i32⟩
  | .hbm, ⟨95, _⟩ => ⟨S2048, .i32⟩
  | .hbm, ⟨96, _⟩ => ⟨S2048x1, .i32⟩
  | .hbm, ⟨97, _⟩ => ⟨S2048x1, .i32⟩
  | .hbm, ⟨98, _⟩ => ⟨S2048x2, .i32⟩
  | .hbm, ⟨99, _⟩ => ⟨S2048, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S2048x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_c_9 : Ref sig .tc := ⟨.hbm, 43, rfl⟩
abbrev main_v30 : Ref sig .tc := ⟨.hbm, 44, rfl⟩
abbrev main_v31 : Ref sig .tc := ⟨.hbm, 45, rfl⟩
abbrev main_c_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_11 : Ref sig .tc := ⟨.hbm, 50, rfl⟩
abbrev main_v35 : Ref sig .tc := ⟨.hbm, 51, rfl⟩
abbrev main_v36 : Ref sig .tc := ⟨.hbm, 52, rfl⟩
abbrev main_c_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_13 : Ref sig .tc := ⟨.hbm, 63, rfl⟩
abbrev main_v46 : Ref sig .tc := ⟨.hbm, 64, rfl⟩
abbrev main_cst_14 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_call1_cst_0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_cst_1 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_v48 : Ref sig .tc := ⟨.hbm, 81, rfl⟩
abbrev main_c_15 : Ref sig .tc := ⟨.hbm, 82, rfl⟩
abbrev main_v49 : Ref sig .tc := ⟨.hbm, 83, rfl⟩
abbrev main_v50 : Ref sig .tc := ⟨.hbm, 84, rfl⟩
abbrev main_c_16 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_17 : Ref sig .tc := ⟨.hbm, 89, rfl⟩
abbrev main_v54 : Ref sig .tc := ⟨.hbm, 90, rfl⟩
abbrev main_v55 : Ref sig .tc := ⟨.hbm, 91, rfl⟩
abbrev main_c_18 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_19 : Ref sig .tc := ⟨.hbm, 100, rfl⟩
abbrev main_v63 : Ref sig .tc := ⟨.hbm, 101, rfl⟩
abbrev main_cst_20 : Ref sig .tc := ⟨.hbm, 102, rfl⟩
abbrev main_v64 : Ref sig .tc := ⟨.hbm, 103, rfl⟩
abbrev main_v65 : Ref sig .tc := ⟨.hbm, 104, rfl⟩
abbrev main_cst_21 : Ref sig .tc := ⟨.hbm, 105, rfl⟩
abbrev main_v66 : Ref sig .tc := ⟨.hbm, 106, rfl⟩
abbrev main_cst_22 : Ref sig .tc := ⟨.hbm, 107, rfl⟩
abbrev main_v67 : Ref sig .tc := ⟨.hbm, 108, rfl⟩
abbrev main_v68 : Ref sig .tc := ⟨.hbm, 109, rfl⟩

abbrev nD : Nat := 1
abbrev τ : Topo := Topo.v7x

variable {F : FTy → Type} [FloatOps F]

class Facts₀ : Prop where
  bcast_S_S2048x50257 : S_.BroadcastsInDim S2048x50257 (![] : Fin 0 → Fin S2048x50257.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  reducesTo_S2048x50257_S2048_d1 : S2048x50257.ReducesTo [1] S2048
  h_S_ : 0 < S_.numel
  reducesTo_S2048x50257_S_d0_1 : S2048x50257.ReducesTo [0, 1] S_
  bcast_S2048x1_S2048x50257_0_1 : S2048x1.BroadcastsInDim S2048x50257 (![0, 1] : Fin 2 → Fin S2048x50257.rank)
  reducesTo_S2048_S_d0 : S2048.ReducesTo [0] S_
  gather_S2048x50257_S2048x2_S2048_n_01_n_n_01_1_11_wf : GatherDims.WF S2048x50257 S2048x2 S2048 [] [0, 1] [] [0, 1] [] 1 ![1, 1]
  scatter_S2048x50257_S2048x2_S2048_n_01_01_1_wf : ScatterDims.WF S2048x50257 S2048x2 S2048 [] [0, 1] [0, 1] 1

variable [Facts₀]

def gather_S2048x50257_S2048x2_S2048_n_01_n_n_01_1_11 : GatherDims S2048x50257 S2048x2 S2048 where
  offsetDims := []
  collapsedSliceDims := [0, 1]
  operandBatchingDims := []
  startIndicesBatchingDims := []
  startIndexMap := [0, 1]
  indexVectorDim := 1
  sliceSizes := ![1, 1]
  wf := gather_S2048x50257_S2048x2_S2048_n_01_n_n_01_1_11_wf
def scatter_S2048x50257_S2048x2_S2048_n_01_01_1 : ScatterDims S2048x50257 S2048x2 S2048 where
  updateWindowDims := []
  insertedWindowDims := [0, 1]
  scatterDimsToOperandDims := [0, 1]
  indexVectorDim := 1
  wf := scatter_S2048x50257_S2048x2_S2048_n_01_01_1_wf

class Facts : Prop extends Facts₀ where

variable [Facts]
-- ==== Proof.KBDefs.lean ====
/-
  The one-pass kernel, point by point, as pure functions.

  The grid has 4 × 25 points; point `t` is row block `t / 25` (512 rows) and column tile `t % 25` (2048 columns, the
  last tile holding the array's final 1105 columns and 943 columns past its end).  The four results are accumulators
  of shape 512 × 1 that stay in place while the column tile advances and are written back after the row block's last
  tile.  At a tile the body reads the 512 × 2048 block `x` and what the four accumulators hold, and leaves in them
  `new3` (the row sums of the entries inside the array), `new4` (the row sums of the entries' L1 terms), `new5` (the
  running row maximum) and `new6` (the running sum of exponentials, rescaled to the new maximum); at a row block's
  first tile the previous contents are replaced by 0, 0, the bottom element and 0 before they are read.
  `outsAt` iterates these over the points, from the block of the first argument the point's window selects, the part
  of the staging block past the array's end filled with zeros (nothing depends on that filler: every use of the block
  goes through the mask of the columns inside the array).
-/
import proofs.«430646_j34110630265423_2_alg».proof.Proof.Gen.Kernel.Launch
import proofs.«430646_j34110630265423_2_alg».proof.Proof.Gen.Kernel.Skeleton
import proofs.«430646_j34110630265423_2_alg».proof.Proof.Gen.Kernel.Points
import Idealize.ShloMosaic.Lib.Pipeline.FrameBody
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

/-! ## The first tile of a row block -/

/-- The body's one branch: the column-tile coordinate is zero. -/
abbrev cond0 (i : grid0.Coords) : Prop :=
  (Scalar.cmpi .ne (Scalar.extui (Scalar.cmpi .eq (BitVec.ofNat 32 (i 1).val) 0#32)) 0#32) = 1#1

/-- It holds at the points ≡ 0 (mod 25). -/
theorem hcond0 : ∀ t : Fin cfg0.N, cond0 (grid0.coords t) ↔ t.val % 25 = 0 :=
  (by decide +kernel : ∀ t : Fin grid0.N, cond0 (grid0.coords t) ↔ t.val % 25 = 0)

/-! ## One tile -/

/-- The row sums after the tile: the previous ones (zero at a first tile) plus the tile's. -/
def new3 (i : grid0.Coords) (x : Vec F S512x2048 .f32) (p3 : Vec F S512x1 .f32) : Vec F S512x1 .f32 :=
  k0_pay13 i x (if cond0 i then k0_pay9 else p3)

/-- The row sums of the L1 terms after the tile. -/
def new4 (i : grid0.Coords) (x : Vec F S512x2048 .f32) (p4 : Vec F S512x1 .f32) : Vec F S512x1 .f32 :=
  k0_pay1 (k0_pay6 i x) (if cond0 i then k0_pay10 else p4)

/-- The running row maximum after the tile. -/
def new5 (i : grid0.Coords) (x : Vec F S512x2048 .f32) (p5 : Vec F S512x1 .f32) : Vec F S512x1 .f32 :=
  k0_pay3 (k0_pay8 i x) (if cond0 i then k0_pay11 else p5)

/-- The running sum of exponentials after the tile, rescaled from the previous maximum to the new one. -/
def new6 (i : grid0.Coords) (x : Vec F S512x2048 .f32) (p5 p6 : Vec F S512x1 .f32) : Vec F S512x1 .f32 :=
  k0_pay4 (k0_pay7 i x) (k0_pay8 i x) (if cond0 i then k0_pay11 else p5) (if cond0 i then k0_pay12 else p6)

variable (m : (ℓ : Loc nD τ sig) → Buf (Elt F) ℓ) (ρ : Dev nD → PrngReg)

/-! ## The arrays as the region finds them -/

/-- The core's buffer contents when the region is entered: the launch contents (no host line comes first). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- Window `w`'s block at point `t`, its part inside the array, read off the array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The first argument's block at point `t` as a full 512 × 2048 block: zeros past the array's end. -/
def x0 (c : Dev nD) (t : Fin cfg0.N) : Vec F S512x2048 .f32 :=
  win0_0.fill (grid0.coords t) (fun _ => Scalar.ofBits .f32 0#32) (iblk m c 0 t)

/-! ## All points -/

/-- What the four accumulators hold after the body at position `n`. -/
def outsAt (c : Dev nD) : (n : ℕ) → n < cfg0.N →
    Vec F S512x1 .f32 × Vec F S512x1 .f32 × Vec F S512x1 .f32 × Vec F S512x1 .f32
  | 0, hn =>
    (new3 (grid0.coords ⟨0, hn⟩) (x0 m c ⟨0, hn⟩) (fun _ => Scalar.ofBits .f32 0#32),
     new4 (grid0.coords ⟨0, hn⟩) (x0 m c ⟨0, hn⟩) (fun _ => Scalar.ofBits .f32 0#32),
     new5 (grid0.coords ⟨0, hn⟩) (x0 m c ⟨0, hn⟩) (fun _ => Scalar.ofBits .f32 0#32),
     new6 (grid0.coords ⟨0, hn⟩) (x0 m c ⟨0, hn⟩) (fun _ => Scalar.ofBits .f32 0#32) (fun _ => Scalar.ofBits .f32 0#32))
  | n + 1, hn =>
    (new3 (grid0.coords ⟨n + 1, hn⟩) (x0 m c ⟨n + 1, hn⟩) (outsAt c n (Nat.lt_of_succ_lt hn)).1,
     new4 (grid0.coords ⟨n + 1, hn⟩) (x0 m c ⟨n + 1, hn⟩) (outsAt c n (Nat.lt_of_succ_lt hn)).2.1,
     new5 (grid0.coords ⟨n + 1, hn⟩) (x0 m c ⟨n + 1, hn⟩) (outsAt c n (Nat.lt_of_succ_lt hn)).2.2.1,
     new6 (grid0.coords ⟨n + 1, hn⟩) (x0 m c ⟨n + 1, hn⟩) (outsAt c n (Nat.lt_of_succ_lt hn)).2.2.1
       (outsAt c n (Nat.lt_of_succ_lt hn)).2.2.2)

theorem outsAt_zero (c : Dev nD) (hn : 0 < cfg0.N) :
    outsAt m c 0 hn =
      (new3 (grid0.coords ⟨0, hn⟩) (x0 m c ⟨0, hn⟩) (fun _ => Scalar.ofBits .f32 0#32),
       new4 (grid0.coords ⟨0, hn⟩) (x0 m c ⟨0, hn⟩) (fun _ => Scalar.ofBits .f32 0#32),
       new5 (grid0.coords ⟨0, hn⟩) (x0 m c ⟨0, hn⟩) (fun _ => Scalar.ofBits .f32 0#32),
       new6 (grid0.coords ⟨0, hn⟩) (x0 m c ⟨0, hn⟩) (fun _ => Scalar.ofBits .f32 0#32) (fun _ => Scalar.ofBits .f32 0#32)) := rfl

theorem outsAt_succ (c : Dev nD) (n : ℕ) (hn : n + 1 < cfg0.N) :
    outsAt m c (n + 1) hn =
      (new3 (grid0.coords ⟨n + 1, hn⟩) (x0 m c ⟨n + 1, hn⟩) (outsAt m c n (Nat.lt_of_succ_lt hn)).1,
       new4 (grid0.coords ⟨n + 1, hn⟩) (x0 m c ⟨n + 1, hn⟩) (outsAt m c n (Nat.lt_of_succ_lt hn)).2.1,
       new5 (grid0.coords ⟨n + 1, hn⟩) (x0 m c ⟨n + 1, hn⟩) (outsAt m c n (Nat.lt_of_succ_lt hn)).2.2.1,
       new6 (grid0.coords ⟨n + 1, hn⟩) (x0 m c ⟨n + 1, hn⟩) (outsAt m c n (Nat.lt_of_succ_lt hn)).2.2.1
         (outsAt m c n (Nat.lt_of_succ_lt hn)).2.2.2) := rfl

/-! ## The pipeline's proof data -/

/-- The arrays as the region finds them; after the body at point `t` the first argument's staging buffer at its block
    and the four accumulators' at `outsAt`; the region invariant the class's (no scratch, no semaphore of the
    kernel's own); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => x0 m c t
    | ⟨1, _⟩ => (outsAt m c t.val t.isLt).1
    | ⟨2, _⟩ => (outsAt m c t.val t.isLt).2.1
    | ⟨3, _⟩ => (outsAt m c t.val t.isLt).2.2.1
    | ⟨4, _⟩ => (outsAt m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = x0 m c t := by dsimp only [dats]
theorem after0_1 (c : Dev nD) (t : Fin cfg0.N) : (dats m 0 c).after 1 t = (outsAt m c t.val t.isLt).1 := by dsimp only [dats]
theorem after0_2 (c : Dev nD) (t : Fin cfg0.N) : (dats m 0 c).after 2 t = (outsAt m c t.val t.isLt).2.1 := by dsimp only [dats]
theorem after0_3 (c : Dev nD) (t : Fin cfg0.N) : (dats m 0 c).after 3 t = (outsAt m c t.val t.isLt).2.2.1 := by dsimp only [dats]
theorem after0_4 (c : Dev nD) (t : Fin cfg0.N) : (dats m 0 c).after 4 t = (outsAt m c t.val t.isLt).2.2.2 := by dsimp only [dats]

/-- The host lines after the region, in their three stretches. -/
abbrev tailOps : List (List (HloOp τ sig (Elt F))) := [hostOps1, hostOps1_1, hostOps1_2]

end Cert.Kernel.Hand

end
-- ==== Proof.KBBody.lean ====
/-
  The kernel body on any five whole staging buffers: it leaves the input block as it found it and the four
  accumulators at the tile's step functions of the block and of what they held.
-/
import proofs.«430646_j34110630265423_2_alg».proof.Proof.KBDefs
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Offsets written as the literal pair of zeros are the zero offsets. -/
theorem body_hz : (![0, 0] : Fin 2 → Nat) = fun _ => 0 := by
  funext a; fin_cases a <;> rfl

/-- A store of the whole buffer, last, leaves its payload whatever the buffer held and the earlier stores were. -/
theorem body_read_last {s : Shape} {e : EltTy} (v : View sig .tc .vmem s e) (f : v.ty.Contents (Elt F))
    {off : Fin s.rank → Nat} (hz : off = fun _ => 0) (inb : ∀ a, off a + s.size a ≤ s.size a)
    (w : s.Idx → Elt F e) (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero hz inb y⟩),
    View.canon_cons_unit_zero hz]

/-- A load of the whole of a whole buffer reads its contents. -/
theorem body_readAt_whole {s : Shape} {e : EltTy} (m : Memref sig .tc .vmem s e) (h : m.IsWhole)
    {off : Fin s.rank → Nat} (hz : off = fun _ => 0) (inb : ∀ a, off a + s.size a ≤ s.size a)
    (X : s.Idx → Elt F e) :
    m.view.readAt (Elt F) (Rect.unit off s.size inb).toLoadRect (h.unread X) = X := by
  rw [View.readAt_eq_ld, h.read_unread, View.ld_unit_zero hz]

/-- The last accumulator's step function respects equality of its four arguments. -/
theorem body_pay4_congr {a a' : Vec F S512x2048 .f32} {b b' : FVec F S512x1 .f32} {p p' q q' : Vec F S512x1 .f32}
    (ha : a = a') (hb : b = b') (hp : p = p') (hq : q = q') : k0_pay4 a b p q = k0_pay4 a' b' p' q' := by
  subst ha hb hp hq; rfl

set_option maxHeartbeats 1000000 in
/-- The body at grid coordinates `i`: from the input buffer at `X0` and the accumulators at `X3 … X6` it runs to the
    continuation holding the input buffer unchanged and the accumulators at `new3 … new6`. -/
theorem sound_kernel (c : Dev nD) (E : Set ℕ) (i : grid0.Coords)
    (arg2 : Memref sig .tc .vmem S512x2048 .f32) (harg2 : arg2.IsWhole)
    (arg3 : Memref sig .tc .vmem S512x1 .f32) (harg3 : arg3.IsWhole)
    (arg4 : Memref sig .tc .vmem S512x1 .f32) (harg4 : arg4.IsWhole)
    (arg5 : Memref sig .tc .vmem S512x1 .f32) (harg5 : arg5.IsWhole)
    (arg6 : Memref sig .tc .vmem S512x1 .f32) (harg6 : arg6.IsWhole)
    (X0 : Vec F S512x2048 .f32) (X3 X4 X5 X6 : Vec F S512x1 .f32) (K : PUnit → sProp 𝕄) :
    iprop((owns (c : Thread nD τ) arg2 fullShare X0 ∗ owns (c : Thread nD τ) arg3 fullShare X3
            ∗ owns (c : Thread nD τ) arg4 fullShare X4 ∗ owns (c : Thread nD τ) arg5 fullShare X5
            ∗ owns (c : Thread nD τ) arg6 fullShare X6)
          ∗ (iprop(owns (c : Thread nD τ) arg2 fullShare X0 ∗ owns (c : Thread nD τ) arg3 fullShare (new3 i X0 X3)
                  ∗ owns (c : Thread nD τ) arg4 fullShare (new4 i X0 X4) ∗ owns (c : Thread nD τ) arg5 fullShare (new5 i X0 X5)
                  ∗ owns (c : Thread nD τ) arg6 fullShare (new6 i X0 X5 X6)) -∗ K ⟨⟩))
      ⊢ wp frame (wpE (defs₀ (F := F)) Variants.none c none) E
          (cc0__loss_kernel i arg2 harg2 arg3 harg3 arg4 harg4 arg5 harg5 arg6 harg6) K := by
  by_cases hc : cond0 i
  · simp only [cc0__loss_kernel_eq_skeleton]; unfold cc0__loss_kernel_skel
    simp only [k0_part1_eq_skeleton]; unfold k0_part1_skel
    unfold owns
    iintro ⟨⟨⟨%f0, %hf0, H0⟩, ⟨%f3, %hf3, H3⟩, ⟨%f4, %hf4, H4⟩, ⟨%f5, %hf5, H5⟩, ⟨%f6, %hf6, H6⟩⟩, Hk⟩
    obtain rfl := harg2.eq_unread hf0; obtain rfl := harg3.eq_unread hf3; obtain rfl := harg4.eq_unread hf4
    obtain rfl := harg5.eq_unread hf5; obtain rfl := harg6.eq_unread hf6
    sl_exec (disch := first | exact hc)
    sl_step
    iapply Hk
    isplitl [H0]
    · iexists _; isplitr; · ipureintro; exact harg2.read_unread _
      iexact H0
    isplitl [H3]
    · iexists _; isplitr
      pick_goal 2
      · iexact H3
      · ipureintro
        refine (body_read_last _ _ body_hz _ _ _).trans ?_
        sl_unfold_words
        dsimp only
        unfold new3; rw [if_pos hc]
        exact congrArg₂ (k0_pay13 i) (body_readAt_whole arg2 harg2 body_hz _ X0) (View.readCov_unit_zero _ body_hz _ _)
    isplitl [H4]
    · iexists _; isplitr
      pick_goal 2
      · iexact H4
      · ipureintro
        refine (body_read_last _ _ body_hz _ _ _).trans ?_
        sl_unfold_words
        dsimp only
        unfold new4; rw [if_pos hc]
        exact congrArg₂ k0_pay1 (congrArg (k0_pay6 i) (body_readAt_whole arg2 harg2 body_hz _ X0)) (View.readCov_unit_zero _ body_hz _ _)
    isplitl [H5]
    · iexists _; isplitr
      pick_goal 2
      · iexact H5
      · ipureintro
        refine (body_read_last _ _ body_hz _ _ _).trans ?_
        sl_unfold_words
        dsimp only
        unfold new5; rw [if_pos hc]
        exact congrArg₂ k0_pay3 (congrArg (k0_pay8 i) (body_readAt_whole arg2 harg2 body_hz _ X0)) (View.readCov_unit_zero _ body_hz _ _)
    · iexists _; isplitr
      pick_goal 2
      · iexact H6
      · ipureintro
        refine (body_read_last _ _ body_hz _ _ _).trans ?_
        sl_unfold_words
        dsimp only
        unfold new6; rw [if_pos hc, if_pos hc]
        exact body_pay4_congr (congrArg (k0_pay7 i) (body_readAt_whole arg2 harg2 body_hz _ X0))
          (congrArg (k0_pay8 i) (body_readAt_whole arg2 harg2 body_hz _ X0)) (View.readCov_unit_zero _ body_hz _ _)
          (View.readCov_unit_zero _ body_hz _ _)
  · simp only [cc0__loss_kernel_eq_skeleton]; unfold cc0__loss_kernel_skel
    simp only [k0_part1_eq_skeleton]; unfold k0_part1_skel
    unfold owns
    iintro ⟨⟨⟨%f0, %hf0, H0⟩, ⟨%f3, %hf3, H3⟩, ⟨%f4, %hf4, H4⟩, ⟨%f5, %hf5, H5⟩, ⟨%f6, %hf6, H6⟩⟩, Hk⟩
    obtain rfl := harg2.eq_unread hf0; obtain rfl := harg3.eq_unread hf3; obtain rfl := harg4.eq_unread hf4
    obtain rfl := harg5.eq_unread hf5; obtain rfl := harg6.eq_unread hf6
    sl_exec (disch := first | exact hc)
    sl_step
    iapply Hk
    isplitl [H0]
    · iexists _; isplitr; · ipureintro; exact harg2.read_unread _
      iexact H0
    isplitl [H3]
    · iexists _; isplitr
      pick_goal 2
      · iexact H3
      · ipureintro
        refine (body_read_last _ _ body_hz _ _ _).trans ?_
        sl_unfold_words
        dsimp only
        unfold new3; rw [if_neg hc]
        exact congrArg₂ (k0_pay13 i) (body_readAt_whole arg2 harg2 body_hz _ X0) (body_readAt_whole arg3 harg3 body_hz _ X3)
    isplitl [H4]
    · iexists _; isplitr
      pick_goal 2
      · iexact H4
      · ipureintro
        refine (body_read_last _ _ body_hz _ _ _).trans ?_
        sl_unfold_words
        dsimp only
        unfold new4; rw [if_neg hc]
        exact congrArg₂ k0_pay1 (congrArg (k0_pay6 i) (body_readAt_whole arg2 harg2 body_hz _ X0)) (body_readAt_whole arg4 harg4 body_hz _ X4)
    isplitl [H5]
    · iexists _; isplitr
      pick_goal 2
      · iexact H5
      · ipureintro
        refine (body_read_last _ _ body_hz _ _ _).trans ?_
        sl_unfold_words
        dsimp only
        unfold new5; rw [if_neg hc]
        exact congrArg₂ k0_pay3 (congrArg (k0_pay8 i) (body_readAt_whole arg2 harg2 body_hz _ X0)) (body_readAt_whole arg5 harg5 body_hz _ X5)
    · iexists _; isplitr
      pick_goal 2
      · iexact H6
      · ipureintro
        refine (body_read_last _ _ body_hz _ _ _).trans ?_
        sl_unfold_words
        dsimp only
        unfold new6; rw [if_neg hc, if_neg hc]
        exact body_pay4_congr (congrArg (k0_pay7 i) (body_readAt_whole arg2 harg2 body_hz _ X0))
          (congrArg (k0_pay8 i) (body_readAt_whole arg2 harg2 body_hz _ X0)) (body_readAt_whole arg5 harg5 body_hz _ X5)
          (body_readAt_whole arg6 harg6 body_hz _ X6)

end Cert.Kernel.Hand

end
-- ==== Proof.KBKit.lean ====
/-
  @main around the region: the region comes first, then three stretches of host lines that read the four results,
  the two arguments and one another, and write buffers of their own.
-/
import proofs.«430646_j34110630265423_2_alg».proof.Proof.KBDefs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main reduces to the region continued by the later lines. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- No line of the first stretch allocates. -/
theorem hostOps1_fresh : (hostOps1 : List (HloOp τ sig (Elt F))).Forall fun op => op.fresh = ∅ := by
  simp only [List.Forall]; repeat' constructor

/-- Nor the one line of the second stretch. -/
theorem hostOps1_1_fresh : (hostOps1_1 : List (HloOp τ sig (Elt F))).Forall fun op => op.fresh = ∅ := by
  simp only [List.Forall]; rfl

/-- Nor any line of the third stretch. -/
theorem hostOps1_2_fresh : (hostOps1_2 : List (HloOp τ sig (Elt F))).Forall fun op => op.fresh = ∅ := by
  simp only [List.Forall]; repeat' constructor

/-- The later lines touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- The buffers the later lines only read: the two arguments and the region's four results. -/
abbrev readOnly : List (Ref sig .tc) := [main_arg0, main_arg1, main_v0_0, main_v0_1, main_v0_2, main_v0_3]

/-- Every array of the pipeline is one of them. -/
theorem arr_readOnly : ∀ w, Pipeline.arrRef spec0 w ∈ readOnly := by decide

/-- Each line of the first stretch writes its own result buffer, none of these. -/
theorem hostOps1_keeps : (hostOps1 : List (HloOp τ sig (Elt F))).Forall fun op =>
    ∀ b ∈ readOnly, Proc.devRef (τ := τ) .tc b ∉ op.writes := by
  simp only [List.Forall]
  repeat' constructor
  all_goals
    intro b hb
    simp only [readOnly, List.mem_cons, List.mem_nil_iff, or_false] at hb
    rcases hb with rfl | rfl | rfl | rfl | rfl | rfl <;>
      simp only [StableHlo.nullary_writes, StableHlo.unary_writes, StableHlo.binary_writes, StableHlo.ternary_writes, StableHlo.reshape_writes, StableHlo.binaryIndexed_writes, Finset.mem_singleton] <;>
      exact StableHlo.devRef_ne_of_ne (by decide)

/-- So does the one line of the second stretch. -/
theorem hostOps1_1_keeps : (hostOps1_1 : List (HloOp τ sig (Elt F))).Forall fun op =>
    ∀ b ∈ readOnly, Proc.devRef (τ := τ) .tc b ∉ op.writes := by
  simp only [List.Forall]
  intro b hb
  simp only [readOnly, List.mem_cons, List.mem_nil_iff, or_false] at hb
  rcases hb with rfl | rfl | rfl | rfl | rfl | rfl <;>
    simp only [StableHlo.nullary_writes, StableHlo.unary_writes, StableHlo.binary_writes, StableHlo.ternary_writes, StableHlo.reshape_writes, StableHlo.binaryIndexed_writes, Finset.mem_singleton] <;>
    exact StableHlo.devRef_ne_of_ne (by decide)

/-- And each line of the third stretch. -/
theorem hostOps1_2_keeps : (hostOps1_2 : List (HloOp τ sig (Elt F))).Forall fun op =>
    ∀ b ∈ readOnly, Proc.devRef (τ := τ) .tc b ∉ op.writes := by
  simp only [List.Forall]
  repeat' constructor
  all_goals
    intro b hb
    simp only [readOnly, List.mem_cons, List.mem_nil_iff, or_false] at hb
    rcases hb with rfl | rfl | rfl | rfl | rfl | rfl <;>
      simp only [StableHlo.nullary_writes, StableHlo.unary_writes, StableHlo.binary_writes, StableHlo.ternary_writes, StableHlo.reshape_writes, StableHlo.binaryIndexed_writes, Finset.mem_singleton] <;>
      exact StableHlo.devRef_ne_of_ne (by decide)

/-- No later line writes a read-only buffer. -/
theorem tail_keeps : ∀ ops ∈ (tailOps : List (List (HloOp τ sig (Elt F)))), ∀ op ∈ ops,
    ∀ b ∈ readOnly, Proc.devRef (τ := τ) .tc b ∉ op.writes := by
  intro ops hops op hop
  simp only [List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-- They write no array of the pipeline: each writes its own result buffer. -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps ops hops op hop _ (arr_readOnly w)

theorem V_main_arg0 (c : Dev nD) : V m c main_arg0 = m ((c : Thread nD τ).loc main_arg0) := rfl
theorem V_main_arg1 (c : Dev nD) : V m c main_arg1 = m ((c : Thread nD τ).loc main_arg1) := rfl

/-- The frame claim's post from a frame run's: the first argument is the input window's array, unchanged by the
    region and by the later lines; the second is staged by no window and written by no later line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ)
      (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 rfl (by decide))).trans
      ((StableHlo.after_of_forall_not_mem _ _ (fun op hop => by
          obtain ⟨ops, hops, hop'⟩ := List.mem_flatten.mp hop
          exact tail_keeps ops hops op hop' main_arg1 (by decide))).trans
        ((Pipeline.withArrays_of_ne _ c (V0 m c) _ main_arg1 (by decide)).trans (V_main_arg1 m c)))⟩) h

end Cert.Kernel.Hand

end
-- ==== Proof.KBMask.lean ====
/-
  The step functions read the input block only through the mask of the columns inside the array: two blocks that
  agree on the part the fetch moves give the same four results.
-/
import proofs.«430646_j34110630265423_2_alg».proof.Proof.KBDefs
import Idealize.ShloMosaic.Lib.StableHlo.Predicate
import Idealize.ShloMosaic.Lib.ValueIdx
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The mask, lane by lane -/

/-- The mask at a lane: the lane's column, counted in the whole array, lies inside it. -/
theorem mask_iff (i : grid0.Coords) (j : S512x2048.Idx) :
    k0_pay5 i j = 1#1 ↔ 2048 * (i 1).val + (j 1).val < 50257 := by
  have hi : (i 1).val < 25 := (i 1).isLt
  have hj : (j 1).val < 2048 := (j 1).isLt
  have hm : k0_pay5 i j = IntOp.cmpi .slt (BitVec.ofNat 32 (i 1).val * 2048#32
      + iota .tc S512x2048 32 [1] iota_S512x2048_d1_w32 j) 50257#32 := rfl
  rw [hm, iota_single_apply]
  have hv : (BitVec.ofNat 32 (i 1).val * 2048#32 + BitVec.ofNat 32 (j 1).val).toNat = 2048 * (i 1).val + (j 1).val := by
    simp only [BitVec.toNat_add, BitVec.toNat_mul, BitVec.toNat_ofNat]
    omega
  rw [StableHlo.Predicate.slt_iff_toNat (by rw [hv]; omega) (by decide), hv]
  rfl

/-- A selection under a mask reads its first operand only where the mask is set. -/
theorem select_congr_mask {α : Type} (c : IVec S512x2048 1) (x x' b : S512x2048.Idx → α)
    (h : ∀ j, c j = 1#1 → x j = x' j) : select c x b = select c x' b := by
  funext j
  unfold select Scalar.select
  split
  · next hc => exact h j hc
  · rfl

/-! ## The payloads read the block through the mask -/

theorem pay13_congr (i : grid0.Coords) (x x' : Vec F S512x2048 .f32) (p : Vec F S512x1 .f32)
    (h : ∀ j, k0_pay5 i j = 1#1 → x j = x' j) : k0_pay13 i x p = k0_pay13 i x' p := by
  unfold k0_pay13
  dsimp only
  rw [select_congr_mask (k0_pay5 i) x x' _ h]

theorem pay7_congr (i : grid0.Coords) (x x' : Vec F S512x2048 .f32)
    (h : ∀ j, k0_pay5 i j = 1#1 → x j = x' j) : k0_pay7 i x = k0_pay7 i x' := by
  unfold k0_pay7
  dsimp only
  rw [select_congr_mask (k0_pay5 i) x x' _ h]

theorem pay8_congr (i : grid0.Coords) (x x' : Vec F S512x2048 .f32)
    (h : ∀ j, k0_pay5 i j = 1#1 → x j = x' j) : k0_pay8 i x = k0_pay8 i x' := by
  unfold k0_pay8
  rw [pay7_congr i x x' h]

theorem pay6_congr (i : grid0.Coords) (x x' : Vec F S512x2048 .f32)
    (h : ∀ j, k0_pay5 i j = 1#1 → x j = x' j) : k0_pay6 i x = k0_pay6 i x' := by
  unfold k0_pay6
  dsimp only
  rw [select_congr_mask (k0_pay5 i) _ _ _ (fun j hj => ?_)]
  unfold mulf select Scalar.select cmpf absf subf
  rw [h j hj]

/-! ## The fetched part covers the mask -/

/-- The part of the block the fetch moves, at every point: all 512 rows, and the columns up to the array's end. -/
theorem xsize_pts : ∀ t : Fin cfg0.N,
    win0_0.xsize (grid0.coords t) 0 = 512 ∧
    win0_0.xsize (grid0.coords t) 1 = min 2048 (50257 - 2048 * ((grid0.coords t) 1).val) :=
  (by decide +kernel : ∀ t : Fin grid0.N,
    win0_0.xsize (grid0.coords t) 0 = 512 ∧
    win0_0.xsize (grid0.coords t) 1 = min 2048 (50257 - 2048 * ((grid0.coords t) 1).val))

/-- Where the mask of the columns inside the array is set, the block's entry is one the fetch moves. -/
theorem moved_of_mask (t : Fin cfg0.N) (j : S512x2048.Idx) (h : k0_pay5 (grid0.coords t) j = 1#1) :
    win0_0.moved (grid0.coords t) j = true := by
  rw [Window.moved_iff]
  obtain ⟨h0, h1⟩ := xsize_pts t
  have hm := (mask_iff _ j).mp h
  have hj0 : (j 0).val < 512 := (j 0).isLt
  have hj1 : (j 1).val < 2048 := (j 1).isLt
  show ∀ a : Fin 2, _
  refine Fin.forall_fin_two.mpr ⟨?_, ?_⟩
  · rw [h0]; exact hj0
  · rw [h1]; omega

/-- Two fills of one fetched part agree wherever the mask is set. -/
theorem fill_agree (t : Fin cfg0.N) (d d' : S512x2048.Idx → Elt F .f32)
    (g : (win0_0.xblock (grid0.coords t)).Idx → Elt F .f32) (j : S512x2048.Idx)
    (h : k0_pay5 (grid0.coords t) j = 1#1) :
    win0_0.fill (grid0.coords t) d g j = win0_0.fill (grid0.coords t) d' g j := by
  have hm := moved_of_mask t j h
  unfold Window.fill
  rw [dif_pos hm, dif_pos hm]

/-! ## The four results -/

theorem new3_fill (t : Fin cfg0.N) (d d' : S512x2048.Idx → Elt F .f32)
    (g : (win0_0.xblock (grid0.coords t)).Idx → Elt F .f32) (p3 : Vec F S512x1 .f32) :
    new3 (grid0.coords t) (win0_0.fill (grid0.coords t) d g) p3 = new3 (grid0.coords t) (win0_0.fill (grid0.coords t) d' g) p3 := by
  unfold new3
  exact pay13_congr _ _ _ _ (fill_agree t d d' g)

theorem new4_fill (t : Fin cfg0.N) (d d' : S512x2048.Idx → Elt F .f32)
    (g : (win0_0.xblock (grid0.coords t)).Idx → Elt F .f32) (p4 : Vec F S512x1 .f32) :
    new4 (grid0.coords t) (win0_0.fill (grid0.coords t) d g) p4 = new4 (grid0.coords t) (win0_0.fill (grid0.coords t) d' g) p4 := by
  unfold new4
  rw [pay6_congr _ _ _ (fill_agree t d d' g)]

theorem new5_fill (t : Fin cfg0.N) (d d' : S512x2048.Idx → Elt F .f32)
    (g : (win0_0.xblock (grid0.coords t)).Idx → Elt F .f32) (p5 : Vec F S512x1 .f32) :
    new5 (grid0.coords t) (win0_0.fill (grid0.coords t) d g) p5 = new5 (grid0.coords t) (win0_0.fill (grid0.coords t) d' g) p5 := by
  unfold new5
  rw [pay8_congr _ _ _ (fill_agree t d d' g)]

theorem new6_fill (t : Fin cfg0.N) (d d' : S512x2048.Idx → Elt F .f32)
    (g : (win0_0.xblock (grid0.coords t)).Idx → Elt F .f32) (p5 p6 : Vec F S512x1 .f32) :
    new6 (grid0.coords t) (win0_0.fill (grid0.coords t) d g) p5 p6 = new6 (grid0.coords t) (win0_0.fill (grid0.coords t) d' g) p5 p6 := by
  unfold new6
  rw [pay7_congr _ _ _ (fill_agree t d d' g), pay8_congr _ _ _ (fill_agree t d d' g)]

end Cert.Kernel.Hand

end
-- ==== Proof.KBFrame.lean ====
/-
  The frame run: at every point the body finds the input block just fetched and the accumulators as the previous
  tile left them (anything at a row block's first tile, where the body overwrites them before reading), so the
  pipeline runs to the end, and the host lines after it run over the arrays it leaves.
-/
import proofs.«430646_j34110630265423_2_alg».proof.Proof.KBDefs
import proofs.«430646_j34110630265423_2_alg».proof.Proof.KBBody
import proofs.«430646_j34110630265423_2_alg».proof.Proof.KBKit
import proofs.«430646_j34110630265423_2_alg».proof.Proof.KBMask

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in the staging buffers -/

/-- The input window's buffer, fetched at every point: the array's block on the part the fetch moves, the previous
    contents elsewhere. -/
theorem before0_0 (c : Dev nD) (t : Fin cfg0.N) (d) :
    (dats m 0 c).before 0 t d = win0_0.fill (grid0.coords t) d (iblk m c 0 t) := by
  unfold Dat.before; rw [if_pos (fetch0_0 t)]; rfl

/-- At a row block's first tile the point before (if any) wrote the accumulators back. -/
theorem reset_of (t : Fin cfg0.N) (h : t.val % 25 = 0) :
    t.val - 1 < cfg0.N ∧ (t.val ≠ 0 → (t.val - 1) % 25 = 24) :=
  ⟨Nat.lt_of_le_of_lt (Nat.sub_le _ _) t.isLt, fun h0 => by omega⟩

/-- At a row block's first tile an accumulator's buffer holds anything. -/
theorem before0_1_first (c : Dev nD) (t : Fin cfg0.N) (h : t.val % 25 = 0) (d) : (dats m 0 c).before 1 t d = d :=
  (dats m 0 c).before_out_reset 1 rfl t
    (by by_cases h0 : t.val = 0
        · exact .inl h0
        · exact .inr ⟨h0, (flush0_1 _).mpr ((reset_of t h).2 h0)⟩) d
theorem before0_2_first (c : Dev nD) (t : Fin cfg0.N) (h : t.val % 25 = 0) (d) : (dats m 0 c).before 2 t d = d :=
  (dats m 0 c).before_out_reset 2 rfl t
    (by by_cases h0 : t.val = 0
        · exact .inl h0
        · exact .inr ⟨h0, (flush0_2 _).mpr ((reset_of t h).2 h0)⟩) d
theorem before0_3_first (c : Dev nD) (t : Fin cfg0.N) (h : t.val % 25 = 0) (d) : (dats m 0 c).before 3 t d = d :=
  (dats m 0 c).before_out_reset 3 rfl t
    (by by_cases h0 : t.val = 0
        · exact .inl h0
        · exact .inr ⟨h0, (flush0_3 _).mpr ((reset_of t h).2 h0)⟩) d
theorem before0_4_first (c : Dev nD) (t : Fin cfg0.N) (h : t.val % 25 = 0) (d) : (dats m 0 c).before 4 t d = d :=
  (dats m 0 c).before_out_reset 4 rfl t
    (by by_cases h0 : t.val = 0
        · exact .inl h0
        · exact .inr ⟨h0, (flush0_4 _).mpr ((reset_of t h).2 h0)⟩) d

/-- At a later tile the point before did not write back. -/
theorem acc_of (t : Fin cfg0.N) (h : ¬t.val % 25 = 0) : t.val ≠ 0 ∧ ¬(t.val - 1) % 25 = 24 :=
  ⟨fun h0 => h (by rw [h0]), fun h24 => by omega⟩

/-- At a later tile of a row block an accumulator's buffer holds what the tile before left. -/
theorem before0_1_later (c : Dev nD) (t : Fin cfg0.N) (h : ¬t.val % 25 = 0) (d) :
    (dats m 0 c).before 1 t d = (outsAt m c (t.val - 1) (Nat.lt_of_le_of_lt (Nat.sub_le _ _) t.isLt)).1 :=
  ((dats m 0 c).before_out_kept 1 rfl t (acc_of t h).1
    (Bool.eq_false_iff.mpr fun hf => (acc_of t h).2 ((flush0_1 _).mp hf)) (fun _ => rfl) (fun _ _ => rfl) d).trans
    (after0_1 m c _)
theorem before0_2_later (c : Dev nD) (t : Fin cfg0.N) (h : ¬t.val % 25 = 0) (d) :
    (dats m 0 c).before 2 t d = (outsAt m c (t.val - 1) (Nat.lt_of_le_of_lt (Nat.sub_le _ _) t.isLt)).2.1 :=
  ((dats m 0 c).before_out_kept 2 rfl t (acc_of t h).1
    (Bool.eq_false_iff.mpr fun hf => (acc_of t h).2 ((flush0_2 _).mp hf)) (fun _ => rfl) (fun _ _ => rfl) d).trans
    (after0_2 m c _)
theorem before0_3_later (c : Dev nD) (t : Fin cfg0.N) (h : ¬t.val % 25 = 0) (d) :
    (dats m 0 c).before 3 t d = (outsAt m c (t.val - 1) (Nat.lt_of_le_of_lt (Nat.sub_le _ _) t.isLt)).2.2.1 :=
  ((dats m 0 c).before_out_kept 3 rfl t (acc_of t h).1
    (Bool.eq_false_iff.mpr fun hf => (acc_of t h).2 ((flush0_3 _).mp hf)) (fun _ => rfl) (fun _ _ => rfl) d).trans
    (after0_3 m c _)
theorem before0_4_later (c : Dev nD) (t : Fin cfg0.N) (h : ¬t.val % 25 = 0) (d) :
    (dats m 0 c).before 4 t d = (outsAt m c (t.val - 1) (Nat.lt_of_le_of_lt (Nat.sub_le _ _) t.isLt)).2.2.2 :=
  ((dats m 0 c).before_out_kept 4 rfl t (acc_of t h).1
    (Bool.eq_false_iff.mpr fun hf => (acc_of t h).2 ((flush0_4 _).mp hf)) (fun _ => rfl) (fun _ _ => rfl) d).trans
    (after0_4 m c _)

/-! ## The accumulators after a point, from what the body found -/

/-- At a row block's first tile the step functions ignore what the accumulators held. -/
theorem new3_first (i : grid0.Coords) (hc : cond0 i) (x : Vec F S512x2048 .f32) (p p' : Vec F S512x1 .f32) :
    new3 i x p = new3 i x p' := by
  unfold new3; rw [if_pos hc, if_pos hc]
theorem new4_first (i : grid0.Coords) (hc : cond0 i) (x : Vec F S512x2048 .f32) (p p' : Vec F S512x1 .f32) :
    new4 i x p = new4 i x p' := by
  unfold new4; rw [if_pos hc, if_pos hc]
theorem new5_first (i : grid0.Coords) (hc : cond0 i) (x : Vec F S512x2048 .f32) (p p' : Vec F S512x1 .f32) :
    new5 i x p = new5 i x p' := by
  unfold new5; rw [if_pos hc, if_pos hc]
theorem new6_first (i : grid0.Coords) (hc : cond0 i) (x : Vec F S512x2048 .f32) (p q p' q' : Vec F S512x1 .f32) :
    new6 i x p q = new6 i x p' q' := by
  unfold new6; rw [if_pos hc, if_pos hc, if_pos hc, if_pos hc]

/-- The moved part of the input block as the proof data names it is the array's block. -/
theorem cut_x0 (c : Dev nD) (t : Fin cfg0.N) : win0_0.cut (grid0.coords t) (x0 m c t) = iblk m c 0 t :=
  win0_0.cut_fill _ _ _

/-- The accumulators after a row block's first tile: the step functions of the block as fetched, whatever fills the
    part past the array's end, and of anything. -/
theorem outsAt_first (c : Dev nD) (t : Fin cfg0.N) (h : t.val % 25 = 0) (d0 : S512x2048.Idx → Elt F .f32)
    (p3 p4 p5 p6 : Vec F S512x1 .f32) :
    outsAt m c t.val t.isLt =
      (new3 (grid0.coords t) (win0_0.fill (grid0.coords t) d0 (iblk m c 0 t)) p3,
       new4 (grid0.coords t) (win0_0.fill (grid0.coords t) d0 (iblk m c 0 t)) p4,
       new5 (grid0.coords t) (win0_0.fill (grid0.coords t) d0 (iblk m c 0 t)) p5,
       new6 (grid0.coords t) (win0_0.fill (grid0.coords t) d0 (iblk m c 0 t)) p5 p6) := by
  have hc : cond0 (grid0.coords t) := (hcond0 t).mpr h
  obtain ⟨n, hn⟩ := t
  cases n with
  | zero =>
    rw [outsAt_zero]
    exact Prod.ext ((new3_fill _ _ d0 _ _).trans (new3_first _ hc _ _ _))
      (Prod.ext ((new4_fill _ _ d0 _ _).trans (new4_first _ hc _ _ _))
        (Prod.ext ((new5_fill _ _ d0 _ _).trans (new5_first _ hc _ _ _))
          ((new6_fill _ _ d0 _ _ _).trans (new6_first _ hc _ _ _ _ _))))
  | succ n =>
    rw [outsAt_succ]
    exact Prod.ext ((new3_fill _ _ d0 _ _).trans (new3_first _ hc _ _ _))
      (Prod.ext ((new4_fill _ _ d0 _ _).trans (new4_first _ hc _ _ _))
        (Prod.ext ((new5_fill _ _ d0 _ _).trans (new5_first _ hc _ _ _))
          ((new6_fill _ _ d0 _ _ _).trans (new6_first _ hc _ _ _ _ _))))

/-- The accumulators after a later tile: the step functions of the block as fetched and of what the tile before left. -/
theorem outsAt_later (c : Dev nD) (t : Fin cfg0.N) (h : ¬t.val % 25 = 0) (d0 : S512x2048.Idx → Elt F .f32) :
    outsAt m c t.val t.isLt =
      (new3 (grid0.coords t) (win0_0.fill (grid0.coords t) d0 (iblk m c 0 t))
         (outsAt m c (t.val - 1) (Nat.lt_of_le_of_lt (Nat.sub_le _ _) t.isLt)).1,
       new4 (grid0.coords t) (win0_0.fill (grid0.coords t) d0 (iblk m c 0 t))
         (outsAt m c (t.val - 1) (Nat.lt_of_le_of_lt (Nat.sub_le _ _) t.isLt)).2.1,
       new5 (grid0.coords t) (win0_0.fill (grid0.coords t) d0 (iblk m c 0 t))
         (outsAt m c (t.val - 1) (Nat.lt_of_le_of_lt (Nat.sub_le _ _) t.isLt)).2.2.1,
       new6 (grid0.coords t) (win0_0.fill (grid0.coords t) d0 (iblk m c 0 t))
         (outsAt m c (t.val - 1) (Nat.lt_of_le_of_lt (Nat.sub_le _ _) t.isLt)).2.2.1
         (outsAt m c (t.val - 1) (Nat.lt_of_le_of_lt (Nat.sub_le _ _) t.isLt)).2.2.2) := by
  obtain ⟨n, hn⟩ := t
  cases n with
  | zero => exact absurd (Nat.zero_mod _) h
  | succ n =>
    rw [outsAt_succ]
    exact Prod.ext (new3_fill _ _ d0 _ _)
      (Prod.ext (new4_fill _ _ d0 _ _) (Prod.ext (new5_fill _ _ d0 _ _) (new6_fill _ _ d0 _ _ _)))

/-! ## The body obligation, at a generic point -/

/-- What the body is called with at point `t`: the invariant, what the core owes, and the five current staging
    buffers at what they then hold, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the input buffer stated on the part its fetch moves, the accumulators exactly. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffer holds the block just fetched, filled out with what it held; at a row
    block's first tile the accumulators hold anything, which the body replaces before reading; at a later tile what
    the tile before left; so the body leaves the accumulators at the point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = (dats m 0 c).Φ t.castSucc from rfl]
  rw [after0_0, after0_1, after0_2, after0_3, after0_4, cut_x0]
  iintro ⟨HΦ, Ho, ⟨%d0, H0⟩, ⟨%d1, H1⟩, ⟨%d2, H2⟩, ⟨%d3, H3⟩, ⟨%d4, H4⟩⟩
  rw [before0_0 m c t d0]
  by_cases h : t.val % 25 = 0
  · rw [before0_1_first m c t h d1, before0_2_first m c t h d2, before0_3_first m c t h d3, before0_4_first m c t h d4,
      outsAt_first m c t h d0 d1 d2 d3 d4]
    iapply (sound_kernel (F := F) c Set.univ (grid0.coords t) _ _ _ _ _ _ _ _ _ _
      (win0_0.fill (grid0.coords t) d0 (iblk m c 0 t)) d1 d2 d3 d4 _)
    isplitl [H0 H1 H2 H3 H4]
    · isplitl [H0]; · iexact H0
      isplitl [H1]; · iexact H1
      isplitl [H2]; · iexact H2
      isplitl [H3]; · iexact H3
      iexact H4
    iintro ⟨H0, H1, H2, H3, H4⟩
    isplitl [HΦ]; · iexact HΦ
    isplitl [Ho]; · iexact Ho
    isplitl [H0]; · iexists d0; iexact H0
    isplitl [H1]; · iexact H1
    isplitl [H2]; · iexact H2
    isplitl [H3]; · iexact H3
    iexact H4
  · rw [before0_1_later m c t h d1, before0_2_later m c t h d2, before0_3_later m c t h d3, before0_4_later m c t h d4,
      outsAt_later m c t h d0]
    iapply (sound_kernel (F := F) c Set.univ (grid0.coords t) _ _ _ _ _ _ _ _ _ _
      (win0_0.fill (grid0.coords t) d0 (iblk m c 0 t)) _ _ _ _ _)
    isplitl [H0 H1 H2 H3 H4]
    · isplitl [H0]; · iexact H0
      isplitl [H1]; · iexact H1
      isplitl [H2]; · iexact H2
      isplitl [H3]; · iexact H3
      iexact H4
    iintro ⟨H0, H1, H2, H3, H4⟩
    isplitl [HΦ]; · iexact HΦ
    isplitl [Ho]; · iexact Ho
    isplitl [H0]; · iexists d0; iexact H0
    isplitl [H1]; · iexact H1
    isplitl [H2]; · iexact H2
    isplitl [H3]; · iexact H3
    iexact H4

/-- The library's body obligation, at every point. -/
theorem body_obligation (c : Dev nD) :
    BodyObligationLoose (dats (F := F) m 0 c) (defs₀ (F := F)) Variants.none () Set.univ := fun t => by
  rw [bigSep_W0, bigSep_W0]
  exact sound_body m c t

-- the frame run's implicit arguments are recovered from its conclusion: the unifier has to unfold definitions
-- inside the types of the unknowns to match the two
set_option backward.isDefEq.respectTransparency.types false in
/-- Every weakly fair execution of @main terminates; every array of the pipeline ends at what the library computes
    from the proof data, every other unscoped buffer as the lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The two arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KIDefs.lean ====
/-
  The one-pass kernel, point by point, as pure functions.

  The grid has 4 × 25 points; point `t` is row block `t / 25` (512 rows) and column tile `t % 25` (2048 columns, the
  last tile holding the array's final 1105 columns and 943 columns past its end).  The four results are accumulators
  of shape 512 × 1 that stay in place while the column tile advances and are written back after the row block's last
  tile.  At a tile the body reads the 512 × 2048 block `x` and what the four accumulators hold, and leaves in them
  `new3` (the row sums of the entries inside the array), `new4` (the row sums of the entries' L1 terms), `new5` (the
  running row maximum) and `new6` (the running sum of exponentials, rescaled to the new maximum); at a row block's
  first tile the previous contents are replaced by 0, 0, the bottom element and 0 before they are read.
  `outsAt` iterates these over the points, from the block of the first argument the point's window selects, the part
  of the staging block past the array's end filled with zeros (nothing depends on that filler: every use of the block
  goes through the mask of the columns inside the array).
-/
import proofs.«430646_j34110630265423_2_alg».proof.Proof.Gen.KernelIdeal.Launch
import proofs.«430646_j34110630265423_2_alg».proof.Proof.Gen.KernelIdeal.Skeleton
import proofs.«430646_j34110630265423_2_alg».proof.Proof.Gen.KernelIdeal.Points
import Idealize.ShloMosaic.Lib.Pipeline.FrameBody
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F] [Named F]

/-! ## The first tile of a row block -/

/-- The body's one branch: the column-tile coordinate is zero. -/
abbrev cond0 (i : grid0.Coords) : Prop :=
  (Scalar.cmpi .ne (Scalar.extui (Scalar.cmpi .eq (BitVec.ofNat 32 (i 1).val) 0#32)) 0#32) = 1#1

/-- It holds at the points ≡ 0 (mod 25). -/
theorem hcond0 : ∀ t : Fin cfg0.N, cond0 (grid0.coords t) ↔ t.val % 25 = 0 :=
  (by decide +kernel : ∀ t : Fin grid0.N, cond0 (grid0.coords t) ↔ t.val % 25 = 0)

/-! ## One tile -/

/-- The row sums after the tile: the previous ones (zero at a first tile) plus the tile's. -/
def new3 (i : grid0.Coords) (x : Vec F S512x2048 .f32) (p3 : Vec F S512x1 .f32) : Vec F S512x1 .f32 :=
  k0_pay13 i x (if cond0 i then k0_pay9 else p3)

/-- The row sums of the L1 terms after the tile. -/
def new4 (i : grid0.Coords) (x : Vec F S512x2048 .f32) (p4 : Vec F S512x1 .f32) : Vec F S512x1 .f32 :=
  k0_pay1 (k0_pay6 i x) (if cond0 i then k0_pay10 else p4)

/-- The running row maximum after the tile. -/
def new5 (i : grid0.Coords) (x : Vec F S512x2048 .f32) (p5 : Vec F S512x1 .f32) : Vec F S512x1 .f32 :=
  k0_pay3 (k0_pay8 i x) (if cond0 i then k0_pay11 else p5)

/-- The running sum of exponentials after the tile, rescaled from the previous maximum to the new one. -/
def new6 (i : grid0.Coords) (x : Vec F S512x2048 .f32) (p5 p6 : Vec F S512x1 .f32) : Vec F S512x1 .f32 :=
  k0_pay4 (k0_pay7 i x) (k0_pay8 i x) (if cond0 i then k0_pay11 else p5) (if cond0 i then k0_pay12 else p6)

variable (m : (ℓ : Loc nD τ sig) → Buf (Elt F) ℓ) (ρ : Dev nD → PrngReg)

/-! ## The arrays as the region finds them -/

/-- The core's buffer contents when the region is entered: the launch contents (no host line comes first). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- Window `w`'s block at point `t`, its part inside the array, read off the array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The first argument's block at point `t` as a full 512 × 2048 block: zeros past the array's end. -/
def x0 (c : Dev nD) (t : Fin cfg0.N) : Vec F S512x2048 .f32 :=
  win0_0.fill (grid0.coords t) (fun _ => Scalar.ofBits .f32 0#32) (iblk m c 0 t)

/-! ## All points -/

/-- What the four accumulators hold after the body at position `n`. -/
def outsAt (c : Dev nD) : (n : ℕ) → n < cfg0.N →
    Vec F S512x1 .f32 × Vec F S512x1 .f32 × Vec F S512x1 .f32 × Vec F S512x1 .f32
  | 0, hn =>
    (new3 (grid0.coords ⟨0, hn⟩) (x0 m c ⟨0, hn⟩) (fun _ => Scalar.ofBits .f32 0#32),
     new4 (grid0.coords ⟨0, hn⟩) (x0 m c ⟨0, hn⟩) (fun _ => Scalar.ofBits .f32 0#32),
     new5 (grid0.coords ⟨0, hn⟩) (x0 m c ⟨0, hn⟩) (fun _ => Scalar.ofBits .f32 0#32),
     new6 (grid0.coords ⟨0, hn⟩) (x0 m c ⟨0, hn⟩) (fun _ => Scalar.ofBits .f32 0#32) (fun _ => Scalar.ofBits .f32 0#32))
  | n + 1, hn =>
    (new3 (grid0.coords ⟨n + 1, hn⟩) (x0 m c ⟨n + 1, hn⟩) (outsAt c n (Nat.lt_of_succ_lt hn)).1,
     new4 (grid0.coords ⟨n + 1, hn⟩) (x0 m c ⟨n + 1, hn⟩) (outsAt c n (Nat.lt_of_succ_lt hn)).2.1,
     new5 (grid0.coords ⟨n + 1, hn⟩) (x0 m c ⟨n + 1, hn⟩) (outsAt c n (Nat.lt_of_succ_lt hn)).2.2.1,
     new6 (grid0.coords ⟨n + 1, hn⟩) (x0 m c ⟨n + 1, hn⟩) (outsAt c n (Nat.lt_of_succ_lt hn)).2.2.1
       (outsAt c n (Nat.lt_of_succ_lt hn)).2.2.2)

theorem outsAt_zero (c : Dev nD) (hn : 0 < cfg0.N) :
    outsAt m c 0 hn =
      (new3 (grid0.coords ⟨0, hn⟩) (x0 m c ⟨0, hn⟩) (fun _ => Scalar.ofBits .f32 0#32),
       new4 (grid0.coords ⟨0, hn⟩) (x0 m c ⟨0, hn⟩) (fun _ => Scalar.ofBits .f32 0#32),
       new5 (grid0.coords ⟨0, hn⟩) (x0 m c ⟨0, hn⟩) (fun _ => Scalar.ofBits .f32 0#32),
       new6 (grid0.coords ⟨0, hn⟩) (x0 m c ⟨0, hn⟩) (fun _ => Scalar.ofBits .f32 0#32) (fun _ => Scalar.ofBits .f32 0#32)) := rfl

theorem outsAt_succ (c : Dev nD) (n : ℕ) (hn : n + 1 < cfg0.N) :
    outsAt m c (n + 1) hn =
      (new3 (grid0.coords ⟨n + 1, hn⟩) (x0 m c ⟨n + 1, hn⟩) (outsAt m c n (Nat.lt_of_succ_lt hn)).1,
       new4 (grid0.coords ⟨n + 1, hn⟩) (x0 m c ⟨n + 1, hn⟩) (outsAt m c n (Nat.lt_of_succ_lt hn)).2.1,
       new5 (grid0.coords ⟨n + 1, hn⟩) (x0 m c ⟨n + 1, hn⟩) (outsAt m c n (Nat.lt_of_succ_lt hn)).2.2.1,
       new6 (grid0.coords ⟨n + 1, hn⟩) (x0 m c ⟨n + 1, hn⟩) (outsAt m c n (Nat.lt_of_succ_lt hn)).2.2.1
         (outsAt m c n (Nat.lt_of_succ_lt hn)).2.2.2) := rfl

/-! ## The pipeline's proof data -/

/-- The arrays as the region finds them; after the body at point `t` the first argument's staging buffer at its block
    and the four accumulators' at `outsAt`; the region invariant the class's (no scratch, no semaphore of the
    kernel's own); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => x0 m c t
    | ⟨1, _⟩ => (outsAt m c t.val t.isLt).1
    | ⟨2, _⟩ => (outsAt m c t.val t.isLt).2.1
    | ⟨3, _⟩ => (outsAt m c t.val t.isLt).2.2.1
    | ⟨4, _⟩ => (outsAt m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = x0 m c t := by dsimp only [dats]
theorem after0_1 (c : Dev nD) (t : Fin cfg0.N) : (dats m 0 c).after 1 t = (outsAt m c t.val t.isLt).1 := by dsimp only [dats]
theorem after0_2 (c : Dev nD) (t : Fin cfg0.N) : (dats m 0 c).after 2 t = (outsAt m c t.val t.isLt).2.1 := by dsimp only [dats]
theorem after0_3 (c : Dev nD) (t : Fin cfg0.N) : (dats m 0 c).after 3 t = (outsAt m c t.val t.isLt).2.2.1 := by dsimp only [dats]
theorem after0_4 (c : Dev nD) (t : Fin cfg0.N) : (dats m 0 c).after 4 t = (outsAt m c t.val t.isLt).2.2.2 := by dsimp only [dats]

/-- The host lines after the region, in their three stretches. -/
abbrev tailOps : List (List (HloOp τ sig (Elt F))) := [hostOps1, hostOps1_1, hostOps1_2]

end Cert.KernelIdeal.Hand

end
-- ==== Proof.KIBody.lean ====
/-
  The kernel body on any five whole staging buffers: it leaves the input block as it found it and the four
  accumulators at the tile's step functions of the block and of what they held.
-/
import proofs.«430646_j34110630265423_2_alg».proof.Proof.KIDefs
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- Offsets written as the literal pair of zeros are the zero offsets. -/
theorem body_hz : (![0, 0] : Fin 2 → Nat) = fun _ => 0 := by
  funext a; fin_cases a <;> rfl

/-- A store of the whole buffer, last, leaves its payload whatever the buffer held and the earlier stores were. -/
theorem body_read_last {s : Shape} {e : EltTy} (v : View sig .tc .vmem s e) (f : v.ty.Contents (Elt F))
    {off : Fin s.rank → Nat} (hz : off = fun _ => 0) (inb : ∀ a, off a + s.size a ≤ s.size a)
    (w : s.Idx → Elt F e) (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero hz inb y⟩),
    View.canon_cons_unit_zero hz]

/-- A load of the whole of a whole buffer reads its contents. -/
theorem body_readAt_whole {s : Shape} {e : EltTy} (m : Memref sig .tc .vmem s e) (h : m.IsWhole)
    {off : Fin s.rank → Nat} (hz : off = fun _ => 0) (inb : ∀ a, off a + s.size a ≤ s.size a)
    (X : s.Idx → Elt F e) :
    m.view.readAt (Elt F) (Rect.unit off s.size inb).toLoadRect (h.unread X) = X := by
  rw [View.readAt_eq_ld, h.read_unread, View.ld_unit_zero hz]

/-- The last accumulator's step function respects equality of its four arguments. -/
theorem body_pay4_congr {a a' : Vec F S512x2048 .f32} {b b' : FVec F S512x1 .f32} {p p' q q' : Vec F S512x1 .f32}
    (ha : a = a') (hb : b = b') (hp : p = p') (hq : q = q') : k0_pay4 a b p q = k0_pay4 a' b' p' q' := by
  subst ha hb hp hq; rfl

set_option maxHeartbeats 1000000 in
/-- The body at grid coordinates `i`: from the input buffer at `X0` and the accumulators at `X3 … X6` it runs to the
    continuation holding the input buffer unchanged and the accumulators at `new3 … new6`. -/
theorem sound_kernel (c : Dev nD) (E : Set ℕ) (i : grid0.Coords)
    (arg2 : Memref sig .tc .vmem S512x2048 .f32) (harg2 : arg2.IsWhole)
    (arg3 : Memref sig .tc .vmem S512x1 .f32) (harg3 : arg3.IsWhole)
    (arg4 : Memref sig .tc .vmem S512x1 .f32) (harg4 : arg4.IsWhole)
    (arg5 : Memref sig .tc .vmem S512x1 .f32) (harg5 : arg5.IsWhole)
    (arg6 : Memref sig .tc .vmem S512x1 .f32) (harg6 : arg6.IsWhole)
    (X0 : Vec F S512x2048 .f32) (X3 X4 X5 X6 : Vec F S512x1 .f32) (K : PUnit → sProp 𝕄) :
    iprop((owns (c : Thread nD τ) arg2 fullShare X0 ∗ owns (c : Thread nD τ) arg3 fullShare X3
            ∗ owns (c : Thread nD τ) arg4 fullShare X4 ∗ owns (c : Thread nD τ) arg5 fullShare X5
            ∗ owns (c : Thread nD τ) arg6 fullShare X6)
          ∗ (iprop(owns (c : Thread nD τ) arg2 fullShare X0 ∗ owns (c : Thread nD τ) arg3 fullShare (new3 i X0 X3)
                  ∗ owns (c : Thread nD τ) arg4 fullShare (new4 i X0 X4) ∗ owns (c : Thread nD τ) arg5 fullShare (new5 i X0 X5)
                  ∗ owns (c : Thread nD τ) arg6 fullShare (new6 i X0 X5 X6)) -∗ K ⟨⟩))
      ⊢ wp frame (wpE (defs₀ (F := F)) Variants.none c none) E
          (cc0__loss_kernel i arg2 harg2 arg3 harg3 arg4 harg4 arg5 harg5 arg6 harg6) K := by
  by_cases hc : cond0 i
  · simp only [cc0__loss_kernel_eq_skeleton]; unfold cc0__loss_kernel_skel
    simp only [k0_part1_eq_skeleton]; unfold k0_part1_skel
    unfold owns
    iintro ⟨⟨⟨%f0, %hf0, H0⟩, ⟨%f3, %hf3, H3⟩, ⟨%f4, %hf4, H4⟩, ⟨%f5, %hf5, H5⟩, ⟨%f6, %hf6, H6⟩⟩, Hk⟩
    obtain rfl := harg2.eq_unread hf0; obtain rfl := harg3.eq_unread hf3; obtain rfl := harg4.eq_unread hf4
    obtain rfl := harg5.eq_unread hf5; obtain rfl := harg6.eq_unread hf6
    sl_exec (disch := first | exact hc)
    sl_step
    iapply Hk
    isplitl [H0]
    · iexists _; isplitr; · ipureintro; exact harg2.read_unread _
      iexact H0
    isplitl [H3]
    · iexists _; isplitr
      pick_goal 2
      · iexact H3
      · ipureintro
        refine (body_read_last _ _ body_hz _ _ _).trans ?_
        sl_unfold_words
        dsimp only
        unfold new3; rw [if_pos hc]
        exact congrArg₂ (k0_pay13 i) (body_readAt_whole arg2 harg2 body_hz _ X0) (View.readCov_unit_zero _ body_hz _ _)
    isplitl [H4]
    · iexists _; isplitr
      pick_goal 2
      · iexact H4
      · ipureintro
        refine (body_read_last _ _ body_hz _ _ _).trans ?_
        sl_unfold_words
        dsimp only
        unfold new4; rw [if_pos hc]
        exact congrArg₂ k0_pay1 (congrArg (k0_pay6 i) (body_readAt_whole arg2 harg2 body_hz _ X0)) (View.readCov_unit_zero _ body_hz _ _)
    isplitl [H5]
    · iexists _; isplitr
      pick_goal 2
      · iexact H5
      · ipureintro
        refine (body_read_last _ _ body_hz _ _ _).trans ?_
        sl_unfold_words
        dsimp only
        unfold new5; rw [if_pos hc]
        exact congrArg₂ k0_pay3 (congrArg (k0_pay8 i) (body_readAt_whole arg2 harg2 body_hz _ X0)) (View.readCov_unit_zero _ body_hz _ _)
    · iexists _; isplitr
      pick_goal 2
      · iexact H6
      · ipureintro
        refine (body_read_last _ _ body_hz _ _ _).trans ?_
        sl_unfold_words
        dsimp only
        unfold new6; rw [if_pos hc, if_pos hc]
        exact body_pay4_congr (congrArg (k0_pay7 i) (body_readAt_whole arg2 harg2 body_hz _ X0))
          (congrArg (k0_pay8 i) (body_readAt_whole arg2 harg2 body_hz _ X0)) (View.readCov_unit_zero _ body_hz _ _)
          (View.readCov_unit_zero _ body_hz _ _)
  · simp only [cc0__loss_kernel_eq_skeleton]; unfold cc0__loss_kernel_skel
    simp only [k0_part1_eq_skeleton]; unfold k0_part1_skel
    unfold owns
    iintro ⟨⟨⟨%f0, %hf0, H0⟩, ⟨%f3, %hf3, H3⟩, ⟨%f4, %hf4, H4⟩, ⟨%f5, %hf5, H5⟩, ⟨%f6, %hf6, H6⟩⟩, Hk⟩
    obtain rfl := harg2.eq_unread hf0; obtain rfl := harg3.eq_unread hf3; obtain rfl := harg4.eq_unread hf4
    obtain rfl := harg5.eq_unread hf5; obtain rfl := harg6.eq_unread hf6
    sl_exec (disch := first | exact hc)
    sl_step
    iapply Hk
    isplitl [H0]
    · iexists _; isplitr; · ipureintro; exact harg2.read_unread _
      iexact H0
    isplitl [H3]
    · iexists _; isplitr
      pick_goal 2
      · iexact H3
      · ipureintro
        refine (body_read_last _ _ body_hz _ _ _).trans ?_
        sl_unfold_words
        dsimp only
        unfold new3; rw [if_neg hc]
        exact congrArg₂ (k0_pay13 i) (body_readAt_whole arg2 harg2 body_hz _ X0) (body_readAt_whole arg3 harg3 body_hz _ X3)
    isplitl [H4]
    · iexists _; isplitr
      pick_goal 2
      · iexact H4
      · ipureintro
        refine (body_read_last _ _ body_hz _ _ _).trans ?_
        sl_unfold_words
        dsimp only
        unfold new4; rw [if_neg hc]
        exact congrArg₂ k0_pay1 (congrArg (k0_pay6 i) (body_readAt_whole arg2 harg2 body_hz _ X0)) (body_readAt_whole arg4 harg4 body_hz _ X4)
    isplitl [H5]
    · iexists _; isplitr
      pick_goal 2
      · iexact H5
      · ipureintro
        refine (body_read_last _ _ body_hz _ _ _).trans ?_
        sl_unfold_words
        dsimp only
        unfold new5; rw [if_neg hc]
        exact congrArg₂ k0_pay3 (congrArg (k0_pay8 i) (body_readAt_whole arg2 harg2 body_hz _ X0)) (body_readAt_whole arg5 harg5 body_hz _ X5)
    · iexists _; isplitr
      pick_goal 2
      · iexact H6
      · ipureintro
        refine (body_read_last _ _ body_hz _ _ _).trans ?_
        sl_unfold_words
        dsimp only
        unfold new6; rw [if_neg hc, if_neg hc]
        exact body_pay4_congr (congrArg (k0_pay7 i) (body_readAt_whole arg2 harg2 body_hz _ X0))
          (congrArg (k0_pay8 i) (body_readAt_whole arg2 harg2 body_hz _ X0)) (body_readAt_whole arg5 harg5 body_hz _ X5)
          (body_readAt_whole arg6 harg6 body_hz _ X6)

end Cert.KernelIdeal.Hand

end
-- ==== Proof.KIKit.lean ====
/-
  @main around the region: the region comes first, then three stretches of host lines that read the four results,
  the two arguments and one another, and write buffers of their own.
-/
import proofs.«430646_j34110630265423_2_alg».proof.Proof.KIDefs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main reduces to the region continued by the later lines. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- No line of the first stretch allocates. -/
theorem hostOps1_fresh : (hostOps1 : List (HloOp τ sig (Elt F))).Forall fun op => op.fresh = ∅ := by
  simp only [List.Forall]; repeat' constructor

/-- Nor the one line of the second stretch. -/
theorem hostOps1_1_fresh : (hostOps1_1 : List (HloOp τ sig (Elt F))).Forall fun op => op.fresh = ∅ := by
  simp only [List.Forall]; rfl

/-- Nor any line of the third stretch. -/
theorem hostOps1_2_fresh : (hostOps1_2 : List (HloOp τ sig (Elt F))).Forall fun op => op.fresh = ∅ := by
  simp only [List.Forall]; repeat' constructor

/-- The later lines touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- The buffers the later lines only read: the two arguments and the region's four results. -/
abbrev readOnly : List (Ref sig .tc) := [main_arg0, main_arg1, main_v0_0, main_v0_1, main_v0_2, main_v0_3]

/-- Every array of the pipeline is one of them. -/
theorem arr_readOnly : ∀ w, Pipeline.arrRef spec0 w ∈ readOnly := by decide

/-- Each line of the first stretch writes its own result buffer, none of these. -/
theorem hostOps1_keeps : (hostOps1 : List (HloOp τ sig (Elt F))).Forall fun op =>
    ∀ b ∈ readOnly, Proc.devRef (τ := τ) .tc b ∉ op.writes := by
  simp only [List.Forall]
  repeat' constructor
  all_goals
    intro b hb
    simp only [readOnly, List.mem_cons, List.mem_nil_iff, or_false] at hb
    rcases hb with rfl | rfl | rfl | rfl | rfl | rfl <;>
      simp only [StableHlo.nullary_writes, StableHlo.unary_writes, StableHlo.binary_writes, StableHlo.ternary_writes, StableHlo.reshape_writes, StableHlo.binaryIndexed_writes, Finset.mem_singleton] <;>
      exact StableHlo.devRef_ne_of_ne (by decide)

/-- So does the one line of the second stretch. -/
theorem hostOps1_1_keeps : (hostOps1_1 : List (HloOp τ sig (Elt F))).Forall fun op =>
    ∀ b ∈ readOnly, Proc.devRef (τ := τ) .tc b ∉ op.writes := by
  simp only [List.Forall]
  intro b hb
  simp only [readOnly, List.mem_cons, List.mem_nil_iff, or_false] at hb
  rcases hb with rfl | rfl | rfl | rfl | rfl | rfl <;>
    simp only [StableHlo.nullary_writes, StableHlo.unary_writes, StableHlo.binary_writes, StableHlo.ternary_writes, StableHlo.reshape_writes, StableHlo.binaryIndexed_writes, Finset.mem_singleton] <;>
    exact StableHlo.devRef_ne_of_ne (by decide)

/-- And each line of the third stretch. -/
theorem hostOps1_2_keeps : (hostOps1_2 : List (HloOp τ sig (Elt F))).Forall fun op =>
    ∀ b ∈ readOnly, Proc.devRef (τ := τ) .tc b ∉ op.writes := by
  simp only [List.Forall]
  repeat' constructor
  all_goals
    intro b hb
    simp only [readOnly, List.mem_cons, List.mem_nil_iff, or_false] at hb
    rcases hb with rfl | rfl | rfl | rfl | rfl | rfl <;>
      simp only [StableHlo.nullary_writes, StableHlo.unary_writes, StableHlo.binary_writes, StableHlo.ternary_writes, StableHlo.reshape_writes, StableHlo.binaryIndexed_writes, Finset.mem_singleton] <;>
      exact StableHlo.devRef_ne_of_ne (by decide)

/-- No later line writes a read-only buffer. -/
theorem tail_keeps : ∀ ops ∈ (tailOps : List (List (HloOp τ sig (Elt F)))), ∀ op ∈ ops,
    ∀ b ∈ readOnly, Proc.devRef (τ := τ) .tc b ∉ op.writes := by
  intro ops hops op hop
  simp only [List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-- They write no array of the pipeline: each writes its own result buffer. -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps ops hops op hop _ (arr_readOnly w)

theorem V_main_arg0 (c : Dev nD) : V m c main_arg0 = m ((c : Thread nD τ).loc main_arg0) := rfl
theorem V_main_arg1 (c : Dev nD) : V m c main_arg1 = m ((c : Thread nD τ).loc main_arg1) := rfl

/-- The frame claim's post from a frame run's: the first argument is the input window's array, unchanged by the
    region and by the later lines; the second is staged by no window and written by no later line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ)
      (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 rfl (by decide))).trans
      ((StableHlo.after_of_forall_not_mem _ _ (fun op hop => by
          obtain ⟨ops, hops, hop'⟩ := List.mem_flatten.mp hop
          exact tail_keeps ops hops op hop' main_arg1 (by decide))).trans
        ((Pipeline.withArrays_of_ne _ c (V0 m c) _ main_arg1 (by decide)).trans (V_main_arg1 m c)))⟩) h

end Cert.KernelIdeal.Hand

end
-- ==== Proof.KIMask.lean ====
/-
  The step functions read the input block only through the mask of the columns inside the array: two blocks that
  agree on the part the fetch moves give the same four results.
-/
import proofs.«430646_j34110630265423_2_alg».proof.Proof.KIDefs
import Idealize.ShloMosaic.Lib.StableHlo.Predicate
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The mask, lane by lane -/

/-- The mask at a lane: the lane's column, counted in the whole array, lies inside it. -/
theorem mask_iff (i : grid0.Coords) (j : S512x2048.Idx) :
    k0_pay5 i j = 1#1 ↔ 2048 * (i 1).val + (j 1).val < 50257 := by
  have hi : (i 1).val < 25 := (i 1).isLt
  have hj : (j 1).val < 2048 := (j 1).isLt
  have hm : k0_pay5 i j = IntOp.cmpi .slt (BitVec.ofNat 32 (i 1).val * 2048#32
      + iota .tc S512x2048 32 [1] iota_S512x2048_d1_w32 j) 50257#32 := rfl
  rw [hm, iota_single_apply]
  have hv : (BitVec.ofNat 32 (i 1).val * 2048#32 + BitVec.ofNat 32 (j 1).val).toNat = 2048 * (i 1).val + (j 1).val := by
    simp only [BitVec.toNat_add, BitVec.toNat_mul, BitVec.toNat_ofNat]
    omega
  rw [StableHlo.Predicate.slt_iff_toNat (by rw [hv]; omega) (by decide), hv]
  rfl

/-- A selection under a mask reads its first operand only where the mask is set. -/
theorem select_congr_mask {α : Type} (c : IVec S512x2048 1) (x x' b : S512x2048.Idx → α)
    (h : ∀ j, c j = 1#1 → x j = x' j) : select c x b = select c x' b := by
  funext j
  unfold select Scalar.select
  split
  · next hc => exact h j hc
  · rfl

/-! ## The payloads read the block through the mask -/

theorem pay13_congr (i : grid0.Coords) (x x' : Vec F S512x2048 .f32) (p : Vec F S512x1 .f32)
    (h : ∀ j, k0_pay5 i j = 1#1 → x j = x' j) : k0_pay13 i x p = k0_pay13 i x' p := by
  unfold k0_pay13
  dsimp only
  rw [select_congr_mask (k0_pay5 i) x x' _ h]

theorem pay7_congr (i : grid0.Coords) (x x' : Vec F S512x2048 .f32)
    (h : ∀ j, k0_pay5 i j = 1#1 → x j = x' j) : k0_pay7 i x = k0_pay7 i x' := by
  unfold k0_pay7
  dsimp only
  rw [select_congr_mask (k0_pay5 i) x x' _ h]

theorem pay8_congr (i : grid0.Coords) (x x' : Vec F S512x2048 .f32)
    (h : ∀ j, k0_pay5 i j = 1#1 → x j = x' j) : k0_pay8 i x = k0_pay8 i x' := by
  unfold k0_pay8
  rw [pay7_congr i x x' h]

theorem pay6_congr (i : grid0.Coords) (x x' : Vec F S512x2048 .f32)
    (h : ∀ j, k0_pay5 i j = 1#1 → x j = x' j) : k0_pay6 i x = k0_pay6 i x' := by
  unfold k0_pay6
  dsimp only
  rw [select_congr_mask (k0_pay5 i) _ _ _ (fun j hj => ?_)]
  unfold mulf select Scalar.select cmpf absf subf
  rw [h j hj]

/-! ## The fetched part covers the mask -/

/-- The part of the block the fetch moves, at every point: all 512 rows, and the columns up to the array's end. -/
theorem xsize_pts : ∀ t : Fin cfg0.N,
    win0_0.xsize (grid0.coords t) 0 = 512 ∧
    win0_0.xsize (grid0.coords t) 1 = min 2048 (50257 - 2048 * ((grid0.coords t) 1).val) :=
  (by decide +kernel : ∀ t : Fin grid0.N,
    win0_0.xsize (grid0.coords t) 0 = 512 ∧
    win0_0.xsize (grid0.coords t) 1 = min 2048 (50257 - 2048 * ((grid0.coords t) 1).val))

/-- Where the mask of the columns inside the array is set, the block's entry is one the fetch moves. -/
theorem moved_of_mask (t : Fin cfg0.N) (j : S512x2048.Idx) (h : k0_pay5 (grid0.coords t) j = 1#1) :
    win0_0.moved (grid0.coords t) j = true := by
  rw [Window.moved_iff]
  obtain ⟨h0, h1⟩ := xsize_pts t
  have hm := (mask_iff _ j).mp h
  have hj0 : (j 0).val < 512 := (j 0).isLt
  have hj1 : (j 1).val < 2048 := (j 1).isLt
  show ∀ a : Fin 2, _
  refine Fin.forall_fin_two.mpr ⟨?_, ?_⟩
  · rw [h0]; exact hj0
  · rw [h1]; omega

/-- Two fills of one fetched part agree wherever the mask is set. -/
theorem fill_agree (t : Fin cfg0.N) (d d' : S512x2048.Idx → Elt F .f32)
    (g : (win0_0.xblock (grid0.coords t)).Idx → Elt F .f32) (j : S512x2048.Idx)
    (h : k0_pay5 (grid0.coords t) j = 1#1) :
    win0_0.fill (grid0.coords t) d g j = win0_0.fill (grid0.coords t) d' g j := by
  have hm := moved_of_mask t j h
  unfold Window.fill
  rw [dif_pos hm, dif_pos hm]

/-! ## The four results -/

theorem new3_fill (t : Fin cfg0.N) (d d' : S512x2048.Idx → Elt F .f32)
    (g : (win0_0.xblock (grid0.coords t)).Idx → Elt F .f32) (p3 : Vec F S512x1 .f32) :
    new3 (grid0.coords t) (win0_0.fill (grid0.coords t) d g) p3 = new3 (grid0.coords t) (win0_0.fill (grid0.coords t) d' g) p3 := by
  unfold new3
  exact pay13_congr _ _ _ _ (fill_agree t d d' g)

theorem new4_fill (t : Fin cfg0.N) (d d' : S512x2048.Idx → Elt F .f32)
    (g : (win0_0.xblock (grid0.coords t)).Idx → Elt F .f32) (p4 : Vec F S512x1 .f32) :
    new4 (grid0.coords t) (win0_0.fill (grid0.coords t) d g) p4 = new4 (grid0.coords t) (win0_0.fill (grid0.coords t) d' g) p4 := by
  unfold new4
  rw [pay6_congr _ _ _ (fill_agree t d d' g)]

theorem new5_fill (t : Fin cfg0.N) (d d' : S512x2048.Idx → Elt F .f32)
    (g : (win0_0.xblock (grid0.coords t)).Idx → Elt F .f32) (p5 : Vec F S512x1 .f32) :
    new5 (grid0.coords t) (win0_0.fill (grid0.coords t) d g) p5 = new5 (grid0.coords t) (win0_0.fill (grid0.coords t) d' g) p5 := by
  unfold new5
  rw [pay8_congr _ _ _ (fill_agree t d d' g)]

theorem new6_fill (t : Fin cfg0.N) (d d' : S512x2048.Idx → Elt F .f32)
    (g : (win0_0.xblock (grid0.coords t)).Idx → Elt F .f32) (p5 p6 : Vec F S512x1 .f32) :
    new6 (grid0.coords t) (win0_0.fill (grid0.coords t) d g) p5 p6 = new6 (grid0.coords t) (win0_0.fill (grid0.coords t) d' g) p5 p6 := by
  unfold new6
  rw [pay7_congr _ _ _ (fill_agree t d d' g), pay8_congr _ _ _ (fill_agree t d d' g)]

end Cert.KernelIdeal.Hand

end
-- ==== Proof.KIFrame.lean ====
/-
  The frame run: at every point the body finds the input block just fetched and the accumulators as the previous
  tile left them (anything at a row block's first tile, where the body overwrites them before reading), so the
  pipeline runs to the end, and the host lines after it run over the arrays it leaves.
-/
import proofs.«430646_j34110630265423_2_alg».proof.Proof.KIDefs
import proofs.«430646_j34110630265423_2_alg».proof.Proof.KIBody
import proofs.«430646_j34110630265423_2_alg».proof.Proof.KIKit
import proofs.«430646_j34110630265423_2_alg».proof.Proof.KIMask

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the body finds in the staging buffers -/

/-- The input window's buffer, fetched at every point: the array's block on the part the fetch moves, the previous
    contents elsewhere. -/
theorem before0_0 (c : Dev nD) (t : Fin cfg0.N) (d) :
    (dats m 0 c).before 0 t d = win0_0.fill (grid0.coords t) d (iblk m c 0 t) := by
  unfold Dat.before; rw [if_pos (fetch0_0 t)]; rfl

/-- At a row block's first tile the point before (if any) wrote the accumulators back. -/
theorem reset_of (t : Fin cfg0.N) (h : t.val % 25 = 0) :
    t.val - 1 < cfg0.N ∧ (t.val ≠ 0 → (t.val - 1) % 25 = 24) :=
  ⟨Nat.lt_of_le_of_lt (Nat.sub_le _ _) t.isLt, fun h0 => by omega⟩

/-- At a row block's first tile an accumulator's buffer holds anything. -/
theorem before0_1_first (c : Dev nD) (t : Fin cfg0.N) (h : t.val % 25 = 0) (d) : (dats m 0 c).before 1 t d = d :=
  (dats m 0 c).before_out_reset 1 rfl t
    (by by_cases h0 : t.val = 0
        · exact .inl h0
        · exact .inr ⟨h0, (flush0_1 _).mpr ((reset_of t h).2 h0)⟩) d
theorem before0_2_first (c : Dev nD) (t : Fin cfg0.N) (h : t.val % 25 = 0) (d) : (dats m 0 c).before 2 t d = d :=
  (dats m 0 c).before_out_reset 2 rfl t
    (by by_cases h0 : t.val = 0
        · exact .inl h0
        · exact .inr ⟨h0, (flush0_2 _).mpr ((reset_of t h).2 h0)⟩) d
theorem before0_3_first (c : Dev nD) (t : Fin cfg0.N) (h : t.val % 25 = 0) (d) : (dats m 0 c).before 3 t d = d :=
  (dats m 0 c).before_out_reset 3 rfl t
    (by by_cases h0 : t.val = 0
        · exact .inl h0
        · exact .inr ⟨h0, (flush0_3 _).mpr ((reset_of t h).2 h0)⟩) d
theorem before0_4_first (c : Dev nD) (t : Fin cfg0.N) (h : t.val % 25 = 0) (d) : (dats m 0 c).before 4 t d = d :=
  (dats m 0 c).before_out_reset 4 rfl t
    (by by_cases h0 : t.val = 0
        · exact .inl h0
        · exact .inr ⟨h0, (flush0_4 _).mpr ((reset_of t h).2 h0)⟩) d

/-- At a later tile the point before did not write back. -/
theorem acc_of (t : Fin cfg0.N) (h : ¬t.val % 25 = 0) : t.val ≠ 0 ∧ ¬(t.val - 1) % 25 = 24 :=
  ⟨fun h0 => h (by rw [h0]), fun h24 => by omega⟩

/-- At a later tile of a row block an accumulator's buffer holds what the tile before left. -/
theorem before0_1_later (c : Dev nD) (t : Fin cfg0.N) (h : ¬t.val % 25 = 0) (d) :
    (dats m 0 c).before 1 t d = (outsAt m c (t.val - 1) (Nat.lt_of_le_of_lt (Nat.sub_le _ _) t.isLt)).1 :=
  ((dats m 0 c).before_out_kept 1 rfl t (acc_of t h).1
    (Bool.eq_false_iff.mpr fun hf => (acc_of t h).2 ((flush0_1 _).mp hf)) (fun _ => rfl) (fun _ _ => rfl) d).trans
    (after0_1 m c _)
theorem before0_2_later (c : Dev nD) (t : Fin cfg0.N) (h : ¬t.val % 25 = 0) (d) :
    (dats m 0 c).before 2 t d = (outsAt m c (t.val - 1) (Nat.lt_of_le_of_lt (Nat.sub_le _ _) t.isLt)).2.1 :=
  ((dats m 0 c).before_out_kept 2 rfl t (acc_of t h).1
    (Bool.eq_false_iff.mpr fun hf => (acc_of t h).2 ((flush0_2 _).mp hf)) (fun _ => rfl) (fun _ _ => rfl) d).trans
    (after0_2 m c _)
theorem before0_3_later (c : Dev nD) (t : Fin cfg0.N) (h : ¬t.val % 25 = 0) (d) :
    (dats m 0 c).before 3 t d = (outsAt m c (t.val - 1) (Nat.lt_of_le_of_lt (Nat.sub_le _ _) t.isLt)).2.2.1 :=
  ((dats m 0 c).before_out_kept 3 rfl t (acc_of t h).1
    (Bool.eq_false_iff.mpr fun hf => (acc_of t h).2 ((flush0_3 _).mp hf)) (fun _ => rfl) (fun _ _ => rfl) d).trans
    (after0_3 m c _)
theorem before0_4_later (c : Dev nD) (t : Fin cfg0.N) (h : ¬t.val % 25 = 0) (d) :
    (dats m 0 c).before 4 t d = (outsAt m c (t.val - 1) (Nat.lt_of_le_of_lt (Nat.sub_le _ _) t.isLt)).2.2.2 :=
  ((dats m 0 c).before_out_kept 4 rfl t (acc_of t h).1
    (Bool.eq_false_iff.mpr fun hf => (acc_of t h).2 ((flush0_4 _).mp hf)) (fun _ => rfl) (fun _ _ => rfl) d).trans
    (after0_4 m c _)

/-! ## The accumulators after a point, from what the body found -/

/-- At a row block's first tile the step functions ignore what the accumulators held. -/
theorem new3_first (i : grid0.Coords) (hc : cond0 i) (x : Vec F S512x2048 .f32) (p p' : Vec F S512x1 .f32) :
    new3 i x p = new3 i x p' := by
  unfold new3; rw [if_pos hc, if_pos hc]
theorem new4_first (i : grid0.Coords) (hc : cond0 i) (x : Vec F S512x2048 .f32) (p p' : Vec F S512x1 .f32) :
    new4 i x p = new4 i x p' := by
  unfold new4; rw [if_pos hc, if_pos hc]
theorem new5_first (i : grid0.Coords) (hc : cond0 i) (x : Vec F S512x2048 .f32) (p p' : Vec F S512x1 .f32) :
    new5 i x p = new5 i x p' := by
  unfold new5; rw [if_pos hc, if_pos hc]
theorem new6_first (i : grid0.Coords) (hc : cond0 i) (x : Vec F S512x2048 .f32) (p q p' q' : Vec F S512x1 .f32) :
    new6 i x p q = new6 i x p' q' := by
  unfold new6; rw [if_pos hc, if_pos hc, if_pos hc, if_pos hc]

/-- The moved part of the input block as the proof data names it is the array's block. -/
theorem cut_x0 (c : Dev nD) (t : Fin cfg0.N) : win0_0.cut (grid0.coords t) (x0 m c t) = iblk m c 0 t :=
  win0_0.cut_fill _ _ _

/-- The accumulators after a row block's first tile: the step functions of the block as fetched, whatever fills the
    part past the array's end, and of anything. -/
theorem outsAt_first (c : Dev nD) (t : Fin cfg0.N) (h : t.val % 25 = 0) (d0 : S512x2048.Idx → Elt F .f32)
    (p3 p4 p5 p6 : Vec F S512x1 .f32) :
    outsAt m c t.val t.isLt =
      (new3 (grid0.coords t) (win0_0.fill (grid0.coords t) d0 (iblk m c 0 t)) p3,
       new4 (grid0.coords t) (win0_0.fill (grid0.coords t) d0 (iblk m c 0 t)) p4,
       new5 (grid0.coords t) (win0_0.fill (grid0.coords t) d0 (iblk m c 0 t)) p5,
       new6 (grid0.coords t) (win0_0.fill (grid0.coords t) d0 (iblk m c 0 t)) p5 p6) := by
  have hc : cond0 (grid0.coords t) := (hcond0 t).mpr h
  obtain ⟨n, hn⟩ := t
  cases n with
  | zero =>
    rw [outsAt_zero]
    exact Prod.ext ((new3_fill _ _ d0 _ _).trans (new3_first _ hc _ _ _))
      (Prod.ext ((new4_fill _ _ d0 _ _).trans (new4_first _ hc _ _ _))
        (Prod.ext ((new5_fill _ _ d0 _ _).trans (new5_first _ hc _ _ _))
          ((new6_fill _ _ d0 _ _ _).trans (new6_first _ hc _ _ _ _ _))))
  | succ n =>
    rw [outsAt_succ]
    exact Prod.ext ((new3_fill _ _ d0 _ _).trans (new3_first _ hc _ _ _))
      (Prod.ext ((new4_fill _ _ d0 _ _).trans (new4_first _ hc _ _ _))
        (Prod.ext ((new5_fill _ _ d0 _ _).trans (new5_first _ hc _ _ _))
          ((new6_fill _ _ d0 _ _ _).trans (new6_first _ hc _ _ _ _ _))))

/-- The accumulators after a later tile: the step functions of the block as fetched and of what the tile before left. -/
theorem outsAt_later (c : Dev nD) (t : Fin cfg0.N) (h : ¬t.val % 25 = 0) (d0 : S512x2048.Idx → Elt F .f32) :
    outsAt m c t.val t.isLt =
      (new3 (grid0.coords t) (win0_0.fill (grid0.coords t) d0 (iblk m c 0 t))
         (outsAt m c (t.val - 1) (Nat.lt_of_le_of_lt (Nat.sub_le _ _) t.isLt)).1,
       new4 (grid0.coords t) (win0_0.fill (grid0.coords t) d0 (iblk m c 0 t))
         (outsAt m c (t.val - 1) (Nat.lt_of_le_of_lt (Nat.sub_le _ _) t.isLt)).2.1,
       new5 (grid0.coords t) (win0_0.fill (grid0.coords t) d0 (iblk m c 0 t))
         (outsAt m c (t.val - 1) (Nat.lt_of_le_of_lt (Nat.sub_le _ _) t.isLt)).2.2.1,
       new6 (grid0.coords t) (win0_0.fill (grid0.coords t) d0 (iblk m c 0 t))
         (outsAt m c (t.val - 1) (Nat.lt_of_le_of_lt (Nat.sub_le _ _) t.isLt)).2.2.1
         (outsAt m c (t.val - 1) (Nat.lt_of_le_of_lt (Nat.sub_le _ _) t.isLt)).2.2.2) := by
  obtain ⟨n, hn⟩ := t
  cases n with
  | zero => exact absurd (Nat.zero_mod _) h
  | succ n =>
    rw [outsAt_succ]
    exact Prod.ext (new3_fill _ _ d0 _ _)
      (Prod.ext (new4_fill _ _ d0 _ _) (Prod.ext (new5_fill _ _ d0 _ _) (new6_fill _ _ d0 _ _ _)))

/-! ## The body obligation, at a generic point -/

/-- What the body is called with at point `t`: the invariant, what the core owes, and the five current staging
    buffers at what they then hold, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the input buffer stated on the part its fetch moves, the accumulators exactly. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffer holds the block just fetched, filled out with what it held; at a row
    block's first tile the accumulators hold anything, which the body replaces before reading; at a later tile what
    the tile before left; so the body leaves the accumulators at the point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = (dats m 0 c).Φ t.castSucc from rfl]
  rw [after0_0, after0_1, after0_2, after0_3, after0_4, cut_x0]
  iintro ⟨HΦ, Ho, ⟨%d0, H0⟩, ⟨%d1, H1⟩, ⟨%d2, H2⟩, ⟨%d3, H3⟩, ⟨%d4, H4⟩⟩
  rw [before0_0 m c t d0]
  by_cases h : t.val % 25 = 0
  · rw [before0_1_first m c t h d1, before0_2_first m c t h d2, before0_3_first m c t h d3, before0_4_first m c t h d4,
      outsAt_first m c t h d0 d1 d2 d3 d4]
    iapply (sound_kernel (F := F) c Set.univ (grid0.coords t) _ _ _ _ _ _ _ _ _ _
      (win0_0.fill (grid0.coords t) d0 (iblk m c 0 t)) d1 d2 d3 d4 _)
    isplitl [H0 H1 H2 H3 H4]
    · isplitl [H0]; · iexact H0
      isplitl [H1]; · iexact H1
      isplitl [H2]; · iexact H2
      isplitl [H3]; · iexact H3
      iexact H4
    iintro ⟨H0, H1, H2, H3, H4⟩
    isplitl [HΦ]; · iexact HΦ
    isplitl [Ho]; · iexact Ho
    isplitl [H0]; · iexists d0; iexact H0
    isplitl [H1]; · iexact H1
    isplitl [H2]; · iexact H2
    isplitl [H3]; · iexact H3
    iexact H4
  · rw [before0_1_later m c t h d1, before0_2_later m c t h d2, before0_3_later m c t h d3, before0_4_later m c t h d4,
      outsAt_later m c t h d0]
    iapply (sound_kernel (F := F) c Set.univ (grid0.coords t) _ _ _ _ _ _ _ _ _ _
      (win0_0.fill (grid0.coords t) d0 (iblk m c 0 t)) _ _ _ _ _)
    isplitl [H0 H1 H2 H3 H4]
    · isplitl [H0]; · iexact H0
      isplitl [H1]; · iexact H1
      isplitl [H2]; · iexact H2
      isplitl [H3]; · iexact H3
      iexact H4
    iintro ⟨H0, H1, H2, H3, H4⟩
    isplitl [HΦ]; · iexact HΦ
    isplitl [Ho]; · iexact Ho
    isplitl [H0]; · iexists d0; iexact H0
    isplitl [H1]; · iexact H1
    isplitl [H2]; · iexact H2
    isplitl [H3]; · iexact H3
    iexact H4

/-- The library's body obligation, at every point. -/
theorem body_obligation (c : Dev nD) :
    BodyObligationLoose (dats (F := F) m 0 c) (defs₀ (F := F)) Variants.none () Set.univ := fun t => by
  rw [bigSep_W0, bigSep_W0]
  exact sound_body m c t

-- the frame run's implicit arguments are recovered from its conclusion: the unifier has to unfold definitions
-- inside the types of the unknowns to match the two
set_option backward.isDefEq.respectTransparency.types false in
/-- Every weakly fair execution of @main terminates; every array of the pipeline ends at what the library computes
    from the proof data, every other unscoped buffer as the lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The two arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/-
  The loss both programs compute, written over the REAL numbers, in the two arrangements the programs use.

  For a matrix of logits `x` (2048 rows, 50257 columns) and one label per row:
  * the L1 part compares `fneg (x r c)` (a positive logit scaled by −10, else 0) with a target that is −10 everywhere
    except at the row's label, where it is `rowVal r = 10 · max(|mean of row r|, |x r (lab r)|)`, and averages the
    absolute differences over all entries;
  * the cross-entropy part averages, over the rows, the log-softmax of the row at its label, and negates.
  `lossR` is that definition read literally.  `lossK` is the arrangement that needs one pass over the matrix: against
  the constant target −10 the entry's term is `|fneg y + 10| = 10 · (if 0 < y then |y − 1| else 1)` (`wrongK`), summed
  over ALL entries, and each row's label entry is corrected afterwards by `|fneg g − rowVal| − |fneg g + 10|`; the
  log-softmax at the label is `g − (M + log Σ exp (x − M))` with `M` the row's maximum.
-/
import Mathlib.Analysis.SpecialFunctions.Log.Basic
import Mathlib.Algebra.BigOperators.Fin
import Mathlib.Order.Interval.Finset.Fin

noncomputable section

namespace Cert.LossSpec

open scoped BigOperators

variable (x : Fin 2048 → Fin 50257 → ℝ) (lab : Fin 2048 → Fin 50257)

/-- A positive logit scaled by −10; zero otherwise. -/
def fneg (y : ℝ) : ℝ := if 0 < y then y * (-10) else 0

/-- The entry's L1 term against the constant target −10, simplified: `|fneg y + 10|`. -/
def wrongK (y : ℝ) : ℝ := 10 * (if 0 < y then |y - 1| else 1)

/-- The sum of row `r`. -/
def rowSum (r : Fin 2048) : ℝ := ∑ c, x r c

/-- The sum over row `r` of the entries' terms against the constant target. -/
def rowWrong (r : Fin 2048) : ℝ := ∑ c, wrongK (x r c)

/-- The maximum of row `r`. -/
def rowMax (r : Fin 2048) : ℝ := Finset.univ.sup' Finset.univ_nonempty (fun c => x r c)

/-- The sum over row `r` of the exponentials of the entries less the row's maximum. -/
def rowExp (r : Fin 2048) : ℝ := ∑ c, Real.exp (x r c - rowMax x r)

/-- The entry of row `r` at its label. -/
def gath (r : Fin 2048) : ℝ := x r (lab r)

/-- The target at the row's label: ten times the larger of |the row's mean| and |the label's entry|. -/
def rowVal (r : Fin 2048) : ℝ := max |rowSum x r / 50257| |gath x lab r| * 10

/-- The one-pass arrangement. -/
def lossK : ℝ :=
  (1 / 2) * (((∑ r, rowWrong x r)
      + ∑ r, (|fneg (gath x lab r) - rowVal x lab r| - |fneg (gath x lab r) - (-10)|)) / 102926336)
    + (1 / 2) * (-((∑ r, (gath x lab r - (rowMax x r + Real.log (rowExp x r)))) / 2048))

/-- The target matrix: −10, and `rowVal r` at the row's label. -/
def tgt (r : Fin 2048) (c : Fin 50257) : ℝ := if c = lab r then rowVal x lab r else -10

/-- The definition read literally. -/
def lossR : ℝ :=
  (1 / 2) * ((∑ r, ∑ c, |fneg (x r c) - tgt x lab r c|) / 102926336)
    + (1 / 2) * (-((∑ r, ((x r (lab r) - rowMax x r) - Real.log (rowExp x r))) / 2048))

/-- Against the constant target −10 the entry's term is `wrongK`. -/
theorem abs_fneg_sub_neg_ten (y : ℝ) : |fneg y - (-10)| = wrongK y := by
  unfold fneg wrongK
  by_cases h : 0 < y
  · rw [if_pos h, if_pos h]
    have e : y * (-10) - (-10) = -(10 * (y - 1)) := by ring
    rw [e, abs_neg, abs_mul, abs_of_pos (by norm_num : (0 : ℝ) < 10)]
  · rw [if_neg h, if_neg h]
    have e : (0 : ℝ) - (-10) = 10 := by ring
    rw [e, abs_of_pos (by norm_num : (0 : ℝ) < 10), mul_one]

/-- One entry's term against the target: the term against −10, corrected at the row's label. -/
theorem abs_fneg_sub_tgt (r : Fin 2048) (c : Fin 50257) :
    |fneg (x r c) - tgt x lab r c| =
      wrongK (x r c) + (if c = lab r then
        (|fneg (gath x lab r) - rowVal x lab r| - |fneg (gath x lab r) - (-10)|) else 0) := by
  unfold tgt
  by_cases hc : c = lab r
  · rw [if_pos hc, if_pos hc, ← abs_fneg_sub_neg_ten (x r c)]
    unfold gath
    rw [hc]
    ring
  · rw [if_neg hc, if_neg hc, add_zero, abs_fneg_sub_neg_ten]

/-- A row's sum of terms against the target: the sum against −10 plus the correction at the label. -/
theorem row_split (r : Fin 2048) :
    ∑ c, |fneg (x r c) - tgt x lab r c| =
      rowWrong x r
        + (|fneg (gath x lab r) - rowVal x lab r| - |fneg (gath x lab r) - (-10)|) := by
  rw [Finset.sum_congr rfl (fun c _ => abs_fneg_sub_tgt x lab r c), Finset.sum_add_distrib,
    Finset.sum_ite_eq' Finset.univ (lab r), if_pos (Finset.mem_univ _)]
  rfl

/-- The two arrangements agree. -/
theorem lossK_eq_lossR : lossK x lab = lossR x lab := by
  unfold lossK lossR
  rw [Finset.sum_congr rfl (fun r _ => row_split x lab r), Finset.sum_add_distrib]
  have hce : ∑ r, (gath x lab r - (rowMax x r + Real.log (rowExp x r))) =
      ∑ r, ((x r (lab r) - rowMax x r) - Real.log (rowExp x r)) := by
    refine Finset.sum_congr rfl (fun r _ => ?_)
    unfold gath
    ring
  rw [hce]

end Cert.LossSpec

end
-- ==== Proof.LibIdealReal.lean ====
/-
  Extended-real terms built from REAL arguments by the operations of the ideal float values
  (`Ideal φ = EReal`) are coercions of real expressions. The lemmas below push the coercion
  `ℝ → EReal` outward through each operation as it stands after the instance's `*_def` lemmas
  have fired (`x + y`, `x - y`, `x * y`, `-x`, `max x y`, `max x (-x)`, `Ideal.exp`, `Ideal.log`,
  `Ideal.div`, `Ideal.cmp`), through finite sums and through maxima taken as a fold of `max`
  from `⊥`; and they read the f32 words of a few constants as the reals (or infinities) they denote.
-/
import Idealize.ShloMosaic.PureOps.Ideal
import Idealize.ShloMosaic.PureOps.Ideal.Laws
import Mathlib.Data.EReal.Inv
import Mathlib.Data.EReal.Operations
import Mathlib.Data.Finset.Lattice.Fold
import Mathlib.Data.Finset.Fold
import Mathlib.Algebra.BigOperators.Group.Finset.Basic
import Mathlib.Analysis.SpecialFunctions.Log.Basic

noncomputable section

namespace Cert.LibIdealReal

open Idealize.ShloMosaic
open scoped BigOperators

/-! ## Constants: f32 words as extended reals -/

/-- `+0.0` denotes the real `0` (as a coercion; `Ideal.ofBits_zero_f32` states it as `0 : EReal`). -/
theorem ofBits_zero_f32_coe : Ideal.ofBits .f32 0x00000000#32 = ((0 : ℝ) : EReal) := by
  rw [Ideal.ofBits_zero_f32, EReal.coe_zero]

/-- `1.0` denotes the real `1`. -/
theorem ofBits_one_f32 : Ideal.ofBits .f32 0x3F800000#32 = ((1 : ℝ) : EReal) := by
  simp [Ideal.ofBits, Ideal.ieee, -EReal.coe_mul]; norm_num

/-- `10.0` denotes the real `10`. -/
theorem ofBits_ten_f32 : Ideal.ofBits .f32 0x41200000#32 = ((10 : ℝ) : EReal) := by
  simp [Ideal.ofBits, Ideal.ieee, -EReal.coe_mul]; norm_num

/-- `-10.0` denotes the real `-10`. -/
theorem ofBits_neg_ten_f32 : Ideal.ofBits .f32 0xC1200000#32 = ((-10 : ℝ) : EReal) := by
  simp [Ideal.ofBits, Ideal.ieee, -EReal.coe_mul]; norm_num

/-- `0.5` denotes the real `1/2`. -/
theorem ofBits_half_f32 : Ideal.ofBits .f32 0x3F000000#32 = ((1 / 2 : ℝ) : EReal) := by
  simp [Ideal.ofBits, Ideal.ieee, -EReal.coe_mul]; norm_num

/-- `2048.0` denotes the real `2048`. -/
theorem ofBits_2048_f32 : Ideal.ofBits .f32 0x45000000#32 = ((2048 : ℝ) : EReal) := by
  simp [Ideal.ofBits, Ideal.ieee, -EReal.coe_mul]; norm_num

/-- `50257.0` denotes the real `50257`. -/
theorem ofBits_50257_f32 : Ideal.ofBits .f32 0x47445100#32 = ((50257 : ℝ) : EReal) := by
  simp [Ideal.ofBits, Ideal.ieee, -EReal.coe_mul]; norm_num

/-- `102926336.0` (`= 2048 · 50257`) denotes the real `102926336`. -/
theorem ofBits_102926336_f32 : Ideal.ofBits .f32 0x4CC45100#32 = ((102926336 : ℝ) : EReal) := by
  simp [Ideal.ofBits, Ideal.ieee, -EReal.coe_mul]; norm_num

/-- The pattern of `-∞` denotes `⊥`. -/
theorem ofBits_neg_inf_f32 : Ideal.ofBits .f32 0xFF800000#32 = (⊥ : EReal) := by
  simp [Ideal.ofBits, Ideal.ieee]

/-- The pattern of `+∞` denotes `⊤`. -/
theorem ofBits_inf_f32 : Ideal.ofBits .f32 0x7F800000#32 = (⊤ : EReal) := by
  simp [Ideal.ofBits, Ideal.ieee]

/-! ## Scalar operations on coerced reals

  Sums, differences, products and negations are Mathlib's `EReal.coe_add`, `EReal.coe_sub`, `EReal.coe_mul`,
  `EReal.coe_neg` read right to left; they are restated here left to right so that `rw` / `simp only` can
  use them without an arrow. -/

/-- A sum of two reals' coercions is the coercion of their sum. -/
theorem coe_add_coe (a b : ℝ) : (a : EReal) + (b : EReal) = ((a + b : ℝ) : EReal) := (EReal.coe_add a b).symm

/-- A difference of two reals' coercions is the coercion of their difference. -/
theorem coe_sub_coe (a b : ℝ) : (a : EReal) - (b : EReal) = ((a - b : ℝ) : EReal) := (EReal.coe_sub a b).symm

/-- A product of two reals' coercions is the coercion of their product. -/
theorem coe_mul_coe (a b : ℝ) : (a : EReal) * (b : EReal) = ((a * b : ℝ) : EReal) := (EReal.coe_mul a b).symm

/-- The negation of a real's coercion is the coercion of its negation. -/
theorem neg_coe (a : ℝ) : -(a : EReal) = ((-a : ℝ) : EReal) := (EReal.coe_neg a).symm

/-- The maximum of two reals' coercions is the coercion of their maximum. -/
theorem max_coe_coe (a b : ℝ) : max (a : EReal) (b : EReal) = ((max a b : ℝ) : EReal) :=
  (EReal.coe_strictMono.monotone.map_max (a := a) (b := b)).symm

/-- The minimum of two reals' coercions is the coercion of their minimum. -/
theorem min_coe_coe (a b : ℝ) : min (a : EReal) (b : EReal) = ((min a b : ℝ) : EReal) :=
  (EReal.coe_strictMono.monotone.map_min (a := a) (b := b)).symm

/-- The instance's absolute value, `max x (-x)`, of a real's coercion is the coercion of `|a|`. -/
theorem max_neg_coe (a : ℝ) : max (a : EReal) (-(a : EReal)) = ((|a| : ℝ) : EReal) := by
  rw [neg_coe, max_coe_coe]; rfl

/-- The same, stated on the instance's field `absf` (`Ideal.absf_def` unfolds it to `max x (-x)`). -/
theorem absf_coe {φ : FTy} (a : ℝ) : FloatOps.absf (F := Ideal) (φ := φ) (a : EReal) = ((|a| : ℝ) : EReal) :=
  max_neg_coe a

/-- The instance's logarithm of a POSITIVE real's coercion is the coercion of its real logarithm. -/
theorem log_coe_of_pos {a : ℝ} (h : 0 < a) : Ideal.log (a : EReal) = ((Real.log a : ℝ) : EReal) := by
  rw [Ideal.log_coe, if_neg (not_le.mpr h)]

/-- The instance's division (`divf`, `hostDivf` and the scalar `divf` all unfold to `Ideal.div`) of a real's
    coercion by a NONZERO real's is the coercion of the quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The reciprocal `Ideal.div 1 x` (the instance's `reciprocal`) of a nonzero real's coercion. -/
theorem div_one_coe {b : ℝ} (hb : b ≠ 0) : Ideal.div 1 (b : EReal) = ((1 / b : ℝ) : EReal) := by
  rw [← EReal.coe_one, div_coe_coe 1 hb]

/-! ### Comparisons and the select on them -/

/-- `cmpf ogt` on two reals' coercions is the bit of `b < a`. -/
theorem cmp_ogt_coe (a b : ℝ) : Ideal.cmp .ogt (a : EReal) (b : EReal) = BitVec.ofBool (decide (b < a)) := by
  simp only [Ideal.cmp, EReal.coe_lt_coe_iff]

/-- `cmpf olt` on two reals' coercions is the bit of `a < b`. -/
theorem cmp_olt_coe (a b : ℝ) : Ideal.cmp .olt (a : EReal) (b : EReal) = BitVec.ofBool (decide (a < b)) := by
  simp only [Ideal.cmp, EReal.coe_lt_coe_iff]

/-- `cmpf oge` on two reals' coercions is the bit of `b ≤ a`. -/
theorem cmp_oge_coe (a b : ℝ) : Ideal.cmp .oge (a : EReal) (b : EReal) = BitVec.ofBool (decide (b ≤ a)) := by
  simp only [Ideal.cmp, EReal.coe_le_coe_iff]

/-- `cmpf ole` on two reals' coercions is the bit of `a ≤ b`. -/
theorem cmp_ole_coe (a b : ℝ) : Ideal.cmp .ole (a : EReal) (b : EReal) = BitVec.ofBool (decide (a ≤ b)) := by
  simp only [Ideal.cmp, EReal.coe_le_coe_iff]

/-- `cmpf ogt` on two reals' coercions answers `1` exactly when `a > b`. -/
theorem cmp_ogt_coe_eq_one_iff (a b : ℝ) : Ideal.cmp .ogt (a : EReal) (b : EReal) = 1#1 ↔ b < a := by
  rw [cmp_ogt_coe]; by_cases h : b < a <;> simp [h]

/-- A select on a proposition's bit is the `if` on the proposition. -/
theorem select_ofBool_decide {α : Type} (p : Prop) [Decidable p] (x y : α) :
    Scalar.select (BitVec.ofBool (decide p)) x y = if p then x else y := by
  by_cases h : p <;> simp [Scalar.select, h]

/-- The select on `cmpf ogt` of two reals' coercions: the first branch exactly when `a > b`. -/
theorem select_cmp_ogt_coe {α : Type} (a b : ℝ) (x y : α) :
    Scalar.select (Ideal.cmp .ogt (a : EReal) (b : EReal)) x y = if b < a then x else y := by
  rw [cmp_ogt_coe, select_ofBool_decide]

/-- The select on `cmpf olt` of two reals' coercions: the first branch exactly when `a < b`. -/
theorem select_cmp_olt_coe {α : Type} (a b : ℝ) (x y : α) :
    Scalar.select (Ideal.cmp .olt (a : EReal) (b : EReal)) x y = if a < b then x else y := by
  rw [cmp_olt_coe, select_ofBool_decide]

/-- The select on `cmpf oge` of two reals' coercions: the first branch exactly when `a ≥ b`. -/
theorem select_cmp_oge_coe {α : Type} (a b : ℝ) (x y : α) :
    Scalar.select (Ideal.cmp .oge (a : EReal) (b : EReal)) x y = if b ≤ a then x else y := by
  rw [cmp_oge_coe, select_ofBool_decide]

/-- The select on `cmpf ole` of two reals' coercions: the first branch exactly when `a ≤ b`. -/
theorem select_cmp_ole_coe {α : Type} (a b : ℝ) (x y : α) :
    Scalar.select (Ideal.cmp .ole (a : EReal) (b : EReal)) x y = if a ≤ b then x else y := by
  rw [cmp_ole_coe, select_ofBool_decide]

/-- An `if` between two reals' coercions is the coercion of the `if`. -/
theorem ite_coe (p : Prop) [Decidable p] (a b : ℝ) :
    (if p then (a : EReal) else (b : EReal)) = ((if p then a else b : ℝ) : EReal) := by
  split <;> rfl

/-! ### The bottom element -/

/-- `⊥` minus a real's coercion is `⊥` (Mathlib's `EReal.bot_sub` at a coercion). -/
theorem bot_sub_coe (a : ℝ) : (⊥ : EReal) - (a : EReal) = ⊥ := EReal.bot_sub _

/-- `max ⊥ x = x` on the extended reals. -/
theorem max_bot_left' (x : EReal) : max ⊥ x = x := max_bot_left x

/-- `max x ⊥ = x` on the extended reals. -/
theorem max_bot_right' (x : EReal) : max x ⊥ = x := max_bot_right x

/-! ## Finite sums and maxima of coerced reals -/

section Big
variable {ι : Type*}

/-- A finite sum of reals' coercions is the coercion of the sum (over a `Finset`; a `Fintype`'s
    `∑ i, _` is the case `s = Finset.univ`). -/
theorem sum_coe (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The same for a sum whose terms are KNOWN to be coercions: whatever `F i` is, if each equals
    the coercion of `f i` then the sum is the coercion of `∑ f`. -/
theorem sum_eq_coe_of_eq (s : Finset ι) (F : ι → EReal) (f : ι → ℝ) (h : ∀ i ∈ s, F i = ((f i : ℝ) : EReal)) :
    ∑ i ∈ s, F i = ((∑ i ∈ s, f i : ℝ) : EReal) := by
  rw [Finset.sum_congr rfl h, sum_coe]

/-- The supremum over a nonempty finite set of reals' coercions is the coercion of their
    greatest (`Finset.sup'` on the reals). -/
theorem sup_coe (s : Finset ι) (hs : s.Nonempty) (f : ι → ℝ) :
    s.sup (fun i => ((f i : ℝ) : EReal)) = ((s.sup' hs f : ℝ) : EReal) := by
  rw [← Finset.sup'_eq_sup hs]
  exact (Finset.comp_sup'_eq_sup'_comp hs (fun r : ℝ => (r : EReal)) (fun a b => (max_coe_coe a b).symm)).symm

/-- A fold of `max` from `⊥` is the finite supremum. -/
theorem fold_max_bot_eq_sup (s : Finset ι) (F : ι → EReal) : s.fold max (⊥ : EReal) F = s.sup F := rfl

/-- A fold of the instance's `maximumf` is a fold of `max` (what `Host.reduce_eq_fold_single FloatOps.maximumf`
    and `multiReduction_maximumf_eq_fold` leave). -/
theorem fold_maximumf_eq_fold_max {φ : FTy} (s : Finset ι) (b : Ideal φ) (F : ι → Ideal φ) :
    s.fold (FloatOps.maximumf (F := Ideal) (φ := φ)) b F = s.fold (max : EReal → EReal → EReal) b F := rfl

/-- A maximum-reduction of reals' coercions from the initial value `⊥` — the fold of `max` from `⊥` over a
    nonempty finite set, as `multiReduction_maximumf_single` leaves it — is the coercion of their greatest. -/
theorem fold_max_bot_coe (s : Finset ι) (hs : s.Nonempty) (f : ι → ℝ) :
    s.fold max (⊥ : EReal) (fun i => ((f i : ℝ) : EReal)) = ((s.sup' hs f : ℝ) : EReal) := by
  rw [fold_max_bot_eq_sup, sup_coe s hs]

/-- The same for a fold whose terms are KNOWN to be coercions. -/
theorem fold_max_bot_eq_coe_of_eq (s : Finset ι) (hs : s.Nonempty) (F : ι → EReal) (f : ι → ℝ)
    (h : ∀ i ∈ s, F i = ((f i : ℝ) : EReal)) :
    s.fold max (⊥ : EReal) F = ((s.sup' hs f : ℝ) : EReal) := by
  rw [Finset.fold_congr (g := fun i => ((f i : ℝ) : EReal)) h, fold_max_bot_coe s hs]

/-- A fold of `max` from a REAL initial value over reals' coercions is the coercion of the real fold
    (no nonemptiness needed). -/
theorem fold_max_coe (s : Finset ι) (b : ℝ) (f : ι → ℝ) :
    s.fold max ((b : ℝ) : EReal) (fun i => ((f i : ℝ) : EReal)) = ((s.fold max b f : ℝ) : EReal) :=
  Finset.fold_hom (op := (max : ℝ → ℝ → ℝ)) (op' := (max : EReal → EReal → EReal)) (m := fun r : ℝ => (r : EReal))
    (fun a b => (max_coe_coe a b).symm)

end Big

end Cert.LibIdealReal

end
-- ==== Proof.KIPay.lean ====
/-
  One tile at the ideal instance, read at a row: the four step functions as sums and a maximum over the tile's 2048
  columns, the columns past the array's end left out.
-/
import proofs.«430646_j34110630265423_2_alg».proof.Proof.KIDefs
import proofs.«430646_j34110630265423_2_alg».proof.Proof.KIMask
import proofs.«430646_j34110630265423_2_alg».proof.Proof.Spec
import proofs.«430646_j34110630265423_2_alg».proof.Proof.LibIdealReal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open scoped BigOperators

/-- Column `k` of the tile at coordinates `i` lies inside the array. -/
def valid (i : grid0.Coords) (k : Fin 2048) : Prop := (i 1).val * 2048 + k.val < 50257

instance (i : grid0.Coords) (k : Fin 2048) : Decidable (valid i k) := by unfold valid; infer_instance

/-! ## Layout: the column cast, the reduced axis, the mask -/

/-- An `[a]` vector cast to the column `[a, 1]` reads, at `(r, u)`, the vector at `r`. -/
theorem shapeCast_a_a1_apply {α : Type} {a : ℕ} (v : (⟨1, ![a]⟩ : Shape).Idx → α)
    (h : (⟨1, ![a]⟩ : Shape).ShapeCasts ⟨2, ![a, 1]⟩) (r : Fin a) (u : Fin 1) :
    shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- The index over row `r` with lane `k` inserted is `(r, k)`. -/
theorem lift_row (r : Fin 512) (k : Fin 2048) :
    reduces_S512x2048_S512.lift (ix1 r) k = ix2 r k := by
  funext a
  match a with
  | ⟨0, _⟩ => exact Fin.ext rfl
  | ⟨1, _⟩ => exact Fin.ext rfl

/-- The mask at `(r, k)` is set exactly on the columns inside the array. -/
theorem mask_ix2 (i : grid0.Coords) (r : Fin 512) (k : Fin 2048) :
    k0_pay5 i (ix2 r k) = 1#1 ↔ valid i k := by
  rw [mask_iff]
  unfold valid
  show 2048 * (i 1).val + k.val < 50257 ↔ (i 1).val * 2048 + k.val < 50257
  rw [Nat.mul_comm]

/-- A selection under the mask at `(r, k)`. -/
theorem select_mask_ix2 {α : Type} (i : grid0.Coords) (a b : S512x2048.Idx → α) (r : Fin 512) (k : Fin 2048) :
    select (k0_pay5 i) a b (ix2 r k) = if valid i k then a (ix2 r k) else b (ix2 r k) := by
  rw [select_apply]
  unfold Scalar.select
  by_cases hv : valid i k
  · exact (if_pos ((mask_ix2 i r k).2 hv)).trans (if_pos hv).symm
  · exact (if_neg (fun h => hv ((mask_ix2 i r k).1 h))).trans (if_neg hv).symm

/-- The entry's L1 term on a real entry: ten times `|y - 1|` for a positive entry, ten otherwise. -/
theorem wrongK_coe (a : Ideal .f32) (y : ℝ) (h : a = ((y : ℝ) : EReal)) :
    FloatOps.mulf (F := Ideal) (φ := .f32) (Scalar.ofBits .f32 0x41200000#32)
      (Scalar.select (FloatOps.cmpf .ogt a (Scalar.ofBits .f32 0x00000000#32))
        (FloatOps.absf (FloatOps.subf a (Scalar.ofBits .f32 0x3F800000#32)))
        (Scalar.ofBits .f32 0x3F800000#32))
      = ((Cert.LossSpec.wrongK y : ℝ) : EReal) := by
  subst h
  rw [Ideal.cmpf_def, Ideal.absf_def]
  simp only [Ideal.mulf_def, Ideal.subf_def, Ideal.ofBits_def]
  rw [Cert.LibIdealReal.ofBits_ten_f32, Cert.LibIdealReal.ofBits_one_f32, Cert.LibIdealReal.ofBits_zero_f32_coe,
    Cert.LibIdealReal.coe_sub_coe, Cert.LibIdealReal.max_neg_coe, Cert.LibIdealReal.select_cmp_ogt_coe,
    Cert.LibIdealReal.ite_coe, Cert.LibIdealReal.coe_mul_coe]
  rfl

/-- The named constant denotes the bottom element. -/
theorem neg_big_bot : Named.named (F := Ideal) κ "neg_big" (φ := .f32) 0xF149F2CA#32 = (⊥ : EReal) :=
  IdealRules.named_const.ideal_named_scalar _ _ _ _ rfl

/-- The masked block at `(r, k)`: the entry on a column inside the array, the bottom element past its end. -/
theorem pay7_ix2 (i : grid0.Coords) (x : Vec Ideal S512x2048 .f32) (r : Fin 512) (k : Fin 2048) :
    k0_pay7 (F := Ideal) i x (ix2 r k) = if valid i k then x (ix2 r k) else (⊥ : EReal) := by
  unfold k0_pay7
  rw [select_mask_ix2]
  by_cases hv : valid i k
  · rw [if_pos hv, if_pos hv]
  · rw [if_neg hv, if_neg hv]
    exact neg_big_bot

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) (u : Fin 1) :
    broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]
    omega

variable (i : grid0.Coords) (x : Vec Ideal S512x2048 .f32) (xr : Fin 512 → Fin 2048 → ℝ)
  (hx : ∀ (r : Fin 512) (k : Fin 2048), valid i k → x (ix2 r k) = ((xr r k : ℝ) : EReal))
include hx

/-- The row sums: the previous ones (zero at a first tile) plus the sum of the row's entries inside the array. -/
theorem new3_apply (p3 : Vec Ideal S512x1 .f32) (r : Fin 512) (q : Fin 1) :
    new3 (F := Ideal) i x p3 (ix2 r q)
      = (if cond0 i then (0 : EReal) else p3 (ix2 r q))
        + ((∑ k : Fin 2048, (if valid i k then xr r k else 0) : ℝ) : EReal) := by
  unfold new3 k0_pay13
  dsimp only
  rw [addf_apply, shapeCast_self, shapeCast_a_a1_apply]
  refine congrArg₂ (· + ·) ?_ ?_
  · split
    · exact Ideal.ofBits_zero_f32
    · rfl
  · refine (Ideal.multiReduction_add_single _ 0x00000000#32 reduces_S512x2048_S512 _ _ (ix1 r)).trans ?_
    show ∑ k : Fin 2048, _ = _
    refine Cert.LibIdealReal.sum_eq_coe_of_eq _ _ _ (fun k _ => ?_)
    rw [lift_row, select_mask_ix2]
    by_cases hv : valid i k
    · rw [if_pos hv, if_pos hv, hx r k hv]
    · rw [if_neg hv, if_neg hv]
      exact Cert.LibIdealReal.ofBits_zero_f32_coe

/-- The row sums of the L1 terms. -/
theorem new4_apply (p4 : Vec Ideal S512x1 .f32) (r : Fin 512) (q : Fin 1) :
    new4 (F := Ideal) i x p4 (ix2 r q)
      = (if cond0 i then (0 : EReal) else p4 (ix2 r q))
        + ((∑ k : Fin 2048, (if valid i k then Cert.LossSpec.wrongK (xr r k) else 0) : ℝ) : EReal) := by
  unfold new4 k0_pay1 k0_pay6
  dsimp only
  rw [addf_apply, shapeCast_self, shapeCast_a_a1_apply]
  refine congrArg₂ (· + ·) ?_ ?_
  · split
    · exact Ideal.ofBits_zero_f32
    · rfl
  · refine (Ideal.multiReduction_add_single _ 0x00000000#32 reduces_S512x2048_S512 _ _ (ix1 r)).trans ?_
    show ∑ k : Fin 2048, _ = _
    refine Cert.LibIdealReal.sum_eq_coe_of_eq _ _ _ (fun k _ => ?_)
    rw [lift_row, select_mask_ix2]
    by_cases hv : valid i k
    · rw [if_pos hv, if_pos hv]
      exact wrongK_coe _ _ (hx r k hv)
    · rw [if_neg hv, if_neg hv]
      exact Cert.LibIdealReal.ofBits_zero_f32_coe

/-- The masked block on real entries. -/
theorem pay7_real (r : Fin 512) (k : Fin 2048) :
    k0_pay7 (F := Ideal) i x (ix2 r k) = if valid i k then ((xr r k : ℝ) : EReal) else (⊥ : EReal) := by
  rw [pay7_ix2]
  by_cases hv : valid i k
  · rw [if_pos hv, if_pos hv, hx r k hv]
  · rw [if_neg hv, if_neg hv]

/-- The tile's row maximum. -/
theorem pay8_apply (r : Fin 512) (q : Fin 1) :
    k0_pay8 (F := Ideal) i x (ix2 r q)
      = Finset.univ.sup fun k : Fin 2048 => if valid i k then ((xr r k : ℝ) : EReal) else ⊥ := by
  unfold k0_pay8
  rw [shapeCast_a_a1_apply]
  have h := Ideal.multiReduction_maximumf_single (k0_pay7 (F := Ideal) i x) 0xFF800000#32 reduces_S512x2048_S512
    (.inl rfl) rfl (ix1 r)
  refine h.trans ?_
  have e : Ideal.ofBits .f32 0xFF800000#32 = (⊥ : EReal) := Cert.LibIdealReal.ofBits_neg_inf_f32
  show (Finset.univ : Finset (Fin 2048)).fold (max : EReal → EReal → EReal) (Ideal.ofBits .f32 0xFF800000#32)
      (fun k : Fin 2048 => k0_pay7 (F := Ideal) i x (reduces_S512x2048_S512.lift (ix1 r) k)) = _
  rw [e]
  refine (Cert.LibIdealReal.fold_max_bot_eq_sup (Finset.univ : Finset (Fin 2048))
    (fun k : Fin 2048 => k0_pay7 (F := Ideal) i x (reduces_S512x2048_S512.lift (ix1 r) k))).trans ?_
  refine Finset.sup_congr rfl (fun k _ => ?_)
  show k0_pay7 (F := Ideal) i x (reduces_S512x2048_S512.lift (ix1 r) k) = _
  rw [lift_row]
  exact pay7_real i x xr hx r k

/-- The running maximum: the previous one (the bottom element at a first tile) against the tile's, the columns past
    the array's end at the bottom element. -/
theorem new5_apply (p5 : Vec Ideal S512x1 .f32) (r : Fin 512) (q : Fin 1) :
    new5 (F := Ideal) i x p5 (ix2 r q)
      = max (if cond0 i then (⊥ : EReal) else p5 (ix2 r q))
          (Finset.univ.sup fun k : Fin 2048 => if valid i k then ((xr r k : ℝ) : EReal) else ⊥) := by
  unfold new5 k0_pay3 k0_pay2
  rw [maximumf_apply, shapeCast_self, pay8_apply i x xr hx r q]
  refine congrArg₂ max ?_ rfl
  split
  · exact neg_big_bot
  · rfl

/-- The running sum of exponentials: the previous one (zero at a first tile) rescaled from the previous maximum to the
    new one, plus the tile's exponentials against the new maximum, a column past the array's end contributing
    the exponential of the bottom element. -/
theorem new6_apply (p5 p6 : Vec Ideal S512x1 .f32) (r : Fin 512) (q : Fin 1) :
    new6 (F := Ideal) i x p5 p6 (ix2 r q)
      = Ideal.exp ((if cond0 i then (⊥ : EReal) else p5 (ix2 r q)) - new5 (F := Ideal) i x p5 (ix2 r q))
          * (if cond0 i then (0 : EReal) else p6 (ix2 r q))
        + ∑ k : Fin 2048, Ideal.exp ((if valid i k then ((xr r k : ℝ) : EReal) else ⊥) - new5 (F := Ideal) i x p5 (ix2 r q)) := by
  have h5 : (if cond0 i then (k0_pay11 (F := Ideal)) else p5) (ix2 r q)
      = if cond0 i then (⊥ : EReal) else p5 (ix2 r q) := by
    split
    · exact neg_big_bot
    · rfl
  have h6 : (if cond0 i then (k0_pay12 (F := Ideal)) else p6) (ix2 r q)
      = if cond0 i then (0 : EReal) else p6 (ix2 r q) := by
    split
    · exact Ideal.ofBits_zero_f32
    · rfl
  unfold new6 k0_pay4
  rw [addf_apply, mulf_apply, shapeCast_self, shapeCast_a_a1_apply]
  refine congrArg₂ (· + ·) (congrArg₂ (· * ·) ?_ h6) ?_
  · show Ideal.exp (k0_pay2 (if cond0 i then (k0_pay11 (F := Ideal)) else p5) (ix2 r q)
        - new5 (F := Ideal) i x p5 (ix2 r q)) = _
    unfold k0_pay2
    rw [shapeCast_self, h5]
  · refine (Ideal.multiReduction_add_single _ 0x00000000#32 reduces_S512x2048_S512 _ _ (ix1 r)).trans ?_
    show ∑ k : Fin 2048, _ = _
    refine Finset.sum_congr rfl (fun k _ => ?_)
    rw [lift_row]
    show Ideal.exp (k0_pay7 (F := Ideal) i x (ix2 r k)
        - broadcastTo S512x2048 (new5 (F := Ideal) i x p5) broadcasts_S512x1_S512x2048 (ix2 r k)) = _
    rw [pay7_real i x xr hx r k, broadcastTo_a1_ab_apply _ _ r k q]

end Cert.KernelIdeal.Hand

end
-- ==== Proof.KIRows.lean ====
/-
  The accumulators after a row block's last column tile, from real entries: the row's sum, its sum of L1 terms, its
  maximum, and its sum of exponentials against that maximum, each over all 50257 columns.

  The columns are counted in ℕ: the 25 tiles of a row block cover the columns 0 … 51199, of which the first 50257 are
  the row's.  Past the row's end a column reads zero in the sums and the bottom element in the maximum, so that the
  sum over the columns below n splits, tile by tile, as a sum over a range of ℕ splits.  The invariant after the tile
  j of a row block: the four accumulators hold the row's sum, sum of L1 terms, maximum M and sum of exponentials
  against M over the columns below 2048 (j + 1).  A tile adds its own sums, takes the maximum with its own, and
  rescales the old exponentials by exp (M_old − M_new) before it adds its own against M_new.
-/
import proofs.«430646_j34110630265423_2_alg».proof.Proof.KIDefs
import proofs.«430646_j34110630265423_2_alg».proof.Proof.KIPay
import proofs.«430646_j34110630265423_2_alg».proof.Proof.Spec
import proofs.«430646_j34110630265423_2_alg».proof.Proof.LibIdealReal
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open scoped BigOperators

/-! # The real side: sums and maxima over columns counted in ℕ -/

namespace Rows

open Finset

/-! ## A row read at a column counted in ℕ -/

/-- A row's entry at a column counted in ℕ; zero past the row's end. -/
def ext0 (f : Fin 50257 → ℝ) (i : ℕ) : ℝ := if h : i < 50257 then f ⟨i, h⟩ else 0

/-- The same as an extended real; the bottom element past the row's end. -/
def extB (f : Fin 50257 → ℝ) (i : ℕ) : EReal := if h : i < 50257 then ((f ⟨i, h⟩ : ℝ) : EReal) else ⊥

theorem ite_ext0 (f : Fin 50257 → ℝ) (i : ℕ) (P : Prop) [Decidable P] (hP : P ↔ i < 50257) :
    (if P then ext0 f i else 0) = ext0 f i := by
  by_cases h : P
  · rw [if_pos h]
  · rw [if_neg h]; unfold ext0; rw [dif_neg (fun h' => h (hP.2 h'))]

theorem ite_map_ext0 (g : ℝ → ℝ) (f : Fin 50257 → ℝ) (i : ℕ) (P : Prop) [Decidable P] (hP : P ↔ i < 50257) :
    (if P then g (ext0 f i) else 0) = ext0 (fun c => g (f c)) i := by
  by_cases h : P
  · rw [if_pos h]; unfold ext0; rw [dif_pos (hP.1 h), dif_pos (hP.1 h)]
  · rw [if_neg h]; unfold ext0; rw [dif_neg (fun h' => h (hP.2 h'))]

theorem ite_extB (f : Fin 50257 → ℝ) (i : ℕ) (P : Prop) [Decidable P] (hP : P ↔ i < 50257) :
    (if P then ((ext0 f i : ℝ) : EReal) else ⊥) = extB f i := by
  by_cases h : P
  · rw [if_pos h]; unfold ext0 extB; rw [dif_pos (hP.1 h), dif_pos (hP.1 h)]
  · rw [if_neg h]; unfold extB; rw [dif_neg (fun h' => h (hP.2 h'))]

/-! ## Splitting the columns below n + m into those below n and the next m -/

theorem sum_range_split (g : ℕ → ℝ) (n m : ℕ) :
    ∑ i ∈ range (n + m), g i = ∑ i ∈ range n, g i + ∑ k : Fin m, g (n + k.val) := by
  rw [Finset.sum_range_add, Finset.sum_range (fun x => g (n + x))]

theorem sup_range_split (g : ℕ → EReal) (n m : ℕ) :
    (range (n + m)).sup g = max ((range n).sup g) (Finset.univ.sup fun k : Fin m => g (n + k.val)) := by
  apply le_antisymm
  · refine Finset.sup_le fun i hi => ?_
    rw [Finset.mem_range] at hi
    by_cases h : i < n
    · exact le_max_of_le_left (Finset.le_sup (f := g) (Finset.mem_range.2 h))
    · have hk : i - n < m := by omega
      have e : g i = (fun k : Fin m => g (n + k.val)) ⟨i - n, hk⟩ := by
        show g i = g (n + (i - n)); congr 1; omega
      rw [e]
      exact le_max_of_le_right (Finset.le_sup (f := fun k : Fin m => g (n + k.val)) (Finset.mem_univ _))
  · refine max_le (Finset.sup_mono (Finset.range_mono (Nat.le_add_right n m))) (Finset.sup_le fun k _ => ?_)
    exact Finset.le_sup (f := g) (Finset.mem_range.2 (by have := k.isLt; omega))

/-! ## All 51200 columns of the 25 tiles are the row's 50257 -/

theorem sum_range_all (f : Fin 50257 → ℝ) : ∑ i ∈ range (50257 + 943), ext0 f i = ∑ c, f c := by
  rw [Finset.sum_range_add, Finset.sum_range (fun x => ext0 f x)]
  have h2 : ∑ x ∈ range 943, ext0 f (50257 + x) = 0 :=
    Finset.sum_eq_zero fun x _ => by unfold ext0; rw [dif_neg (by omega)]
  rw [h2, add_zero]
  exact Finset.sum_congr rfl fun c _ => by unfold ext0; rw [dif_pos c.isLt]

theorem sup_range_all (f : Fin 50257 → ℝ) :
    (range (50257 + 943)).sup (extB f) = ((Finset.univ.sup' Finset.univ_nonempty f : ℝ) : EReal) := by
  rw [← Cert.LibIdealReal.sup_coe Finset.univ Finset.univ_nonempty f]
  apply le_antisymm
  · refine Finset.sup_le fun i _ => ?_
    unfold extB; split
    · next h => exact Finset.le_sup (f := fun c => ((f c : ℝ) : EReal)) (Finset.mem_univ (⟨i, h⟩ : Fin 50257))
    · exact bot_le
  · refine Finset.sup_le fun c _ => ?_
    have e : ((f c : ℝ) : EReal) = extB f c.val := by unfold extB; rw [dif_pos c.isLt]
    rw [e]; exact Finset.le_sup (f := extB f) (Finset.mem_range.2 (by have := c.isLt; omega))

/-! ## The exponentials -/

/-- Rescaling a sum of exponentials from one reference to another. -/
theorem exp_rescale (f : Fin 50257 → ℝ) (Mo Mn : ℝ) (n : ℕ) :
    Real.exp (Mo - Mn) * ∑ i ∈ range n, ext0 (fun c => Real.exp (f c - Mo)) i
      = ∑ i ∈ range n, ext0 (fun c => Real.exp (f c - Mn)) i := by
  rw [Finset.mul_sum]
  refine Finset.sum_congr rfl fun i _ => ?_
  unfold ext0; split
  · rw [← Real.exp_add]; congr 1; ring
  · exact mul_zero _

/-- One lane's exponential against a real reference: a column past the row's end contributes zero. -/
theorem exp_extB (f : Fin 50257 → ℝ) (M : ℝ) (i : ℕ) :
    Ideal.exp (extB f i - (M : EReal)) = ((ext0 (fun c => Real.exp (f c - M)) i : ℝ) : EReal) := by
  unfold extB ext0; split
  · rw [Cert.LibIdealReal.coe_sub_coe]; rfl
  · rw [EReal.bot_sub]; rfl

theorem tile_exp (f : Fin 50257 → ℝ) (M : ℝ) (n : ℕ) :
    ∑ k : Fin 2048, Ideal.exp (extB f (n + k.val) - (M : EReal))
      = ((∑ k : Fin 2048, ext0 (fun c => Real.exp (f c - M)) (n + k.val) : ℝ) : EReal) :=
  Cert.LibIdealReal.sum_eq_coe_of_eq Finset.univ _ _ fun k _ => exp_extB f M (n + k.val)

/-- A tile that starts inside the row has a real maximum. -/
theorem tile_sup_real (f : Fin 50257 → ℝ) (n : ℕ) (hn : n < 50257) :
    ∃ T : ℝ, (T : EReal) = Finset.univ.sup fun k : Fin 2048 => extB f (n + k.val) := by
  have htop : (Finset.univ.sup fun k : Fin 2048 => extB f (n + k.val)) ≠ ⊤ := by
    refine ne_of_lt ((Finset.sup_lt_iff (bot_lt_top)).2 fun k _ => ?_)
    unfold extB; split
    · exact EReal.coe_lt_top _
    · exact bot_lt_top
  have hbot : (Finset.univ.sup fun k : Fin 2048 => extB f (n + k.val)) ≠ ⊥ := by
    refine ne_of_gt (lt_of_lt_of_le ?_ (Finset.le_sup (f := fun k : Fin 2048 => extB f (n + k.val)) (Finset.mem_univ ⟨0, by norm_num⟩)))
    show ⊥ < extB f (n + 0)
    unfold extB; rw [dif_pos (by omega)]; exact EReal.bot_lt_coe _
  exact ⟨_, EReal.coe_toReal htop hbot⟩

/-! ## The four accumulators of a row once the columns below n have been seen -/

/-- The row's sum, its sum of L1 terms, its maximum M and its sum of exponentials against M, over the columns
    below n. -/
def Seen (f : Fin 50257 → ℝ) (n : ℕ) (a1 a2 a3 a4 : EReal) : Prop :=
  a1 = ((∑ i ∈ range n, ext0 f i : ℝ) : EReal)
  ∧ a2 = ((∑ i ∈ range n, ext0 (fun c => Cert.LossSpec.wrongK (f c)) i : ℝ) : EReal)
  ∧ ∃ M : ℝ, (M : EReal) = (range n).sup (extB f) ∧ a3 = (M : EReal)
      ∧ a4 = ((∑ i ∈ range n, ext0 (fun c => Real.exp (f c - M)) i : ℝ) : EReal)

/-- The first tile: nothing was seen before it. -/
theorem seen_first (f : Fin 50257 → ℝ) (n : ℕ) (hn : n = 0) (b1 b2 b3 b4 : EReal)
    (h1 : b1 = (0 : EReal) + ((∑ k : Fin 2048, ext0 f (n + k.val) : ℝ) : EReal))
    (h2 : b2 = (0 : EReal) + ((∑ k : Fin 2048, ext0 (fun c => Cert.LossSpec.wrongK (f c)) (n + k.val) : ℝ) : EReal))
    (h3 : b3 = max (⊥ : EReal) (Finset.univ.sup fun k : Fin 2048 => extB f (n + k.val)))
    (h4 : b4 = Ideal.exp ((⊥ : EReal) - b3) * (0 : EReal) + ∑ k : Fin 2048, Ideal.exp (extB f (n + k.val) - b3)) :
    Seen f (n + 2048) b1 b2 b3 b4 := by
  subst hn
  obtain ⟨T, hT⟩ := tile_sup_real f 0 (by norm_num)
  have e3 : b3 = (T : EReal) := by rw [h3, ← hT]; exact max_bot_left _
  refine ⟨?_, ?_, T, ?_, e3, ?_⟩
  · rw [h1, zero_add, sum_range_split, Finset.sum_range_zero, zero_add]
  · rw [h2, zero_add, sum_range_split, Finset.sum_range_zero, zero_add]
  · rw [sup_range_split, Finset.range_zero, Finset.sup_empty, ← hT]; exact (max_bot_left _).symm
  · rw [h4, e3, tile_exp, mul_zero, zero_add, sum_range_split, Finset.sum_range_zero, zero_add]

/-- A later tile. -/
theorem seen_step (f : Fin 50257 → ℝ) (n : ℕ) (hn : n < 50257) (a1 a2 a3 a4 : EReal) (h : Seen f n a1 a2 a3 a4)
    (b1 b2 b3 b4 : EReal)
    (h1 : b1 = a1 + ((∑ k : Fin 2048, ext0 f (n + k.val) : ℝ) : EReal))
    (h2 : b2 = a2 + ((∑ k : Fin 2048, ext0 (fun c => Cert.LossSpec.wrongK (f c)) (n + k.val) : ℝ) : EReal))
    (h3 : b3 = max a3 (Finset.univ.sup fun k : Fin 2048 => extB f (n + k.val)))
    (h4 : b4 = Ideal.exp (a3 - b3) * a4 + ∑ k : Fin 2048, Ideal.exp (extB f (n + k.val) - b3)) :
    Seen f (n + 2048) b1 b2 b3 b4 := by
  obtain ⟨g1, g2, Mo, hMo, g3, g4⟩ := h
  obtain ⟨T, hT⟩ := tile_sup_real f n hn
  have e3 : b3 = ((max Mo T : ℝ) : EReal) := by rw [h3, g3, ← hT]; exact Cert.LibIdealReal.max_coe_coe Mo T
  refine ⟨?_, ?_, max Mo T, ?_, e3, ?_⟩
  · rw [h1, g1, Cert.LibIdealReal.coe_add_coe, sum_range_split]
  · rw [h2, g2, Cert.LibIdealReal.coe_add_coe, sum_range_split]
  · rw [sup_range_split, ← hMo, ← hT]; exact (Cert.LibIdealReal.max_coe_coe Mo T).symm
  · rw [h4, e3, g3, g4, tile_exp, Cert.LibIdealReal.coe_sub_coe, Ideal.exp_coe, Cert.LibIdealReal.coe_mul_coe,
      Cert.LibIdealReal.coe_add_coe, exp_rescale, sum_range_split]

/-- After the last tile every column has been seen. -/
theorem seen_all (xr : Fin 2048 → Fin 50257 → ℝ) (R : Fin 2048)
    (a1 a2 a3 a4 : EReal) (h : Seen (xr R) (50257 + 943) a1 a2 a3 a4) :
    a1 = ((Cert.LossSpec.rowSum xr R : ℝ) : EReal) ∧ a2 = ((Cert.LossSpec.rowWrong xr R : ℝ) : EReal)
      ∧ a3 = ((Cert.LossSpec.rowMax xr R : ℝ) : EReal) ∧ a4 = ((Cert.LossSpec.rowExp xr R : ℝ) : EReal) := by
  obtain ⟨g1, g2, M, hM, g3, g4⟩ := h
  rw [sup_range_all] at hM
  have eM : M = Cert.LossSpec.rowMax xr R := EReal.coe_eq_coe_iff.1 hM
  refine ⟨?_, ?_, ?_, ?_⟩
  · rw [g1, sum_range_all]; rfl
  · rw [g2, sum_range_all]; rfl
  · rw [g3, eM]
  · rw [g4, sum_range_all, eM]; rfl

end Rows

/-! ## From the tile's block to the array -/

/-- The first window's index map and cut sizes over the grid: point t is row block t / 25 and column tile t % 25; the
    block keeps its 512 rows, and its 2048 columns but in a row block's last tile, which keeps 1105. -/
theorem tile_facts : ∀ t : Fin cfg0.N,
    win0_0.index t (0 : Fin 2) = t.val / 25 ∧ win0_0.index t (1 : Fin 2) = t.val % 25
    ∧ win0_0.xsize (grid0.coords t) (0 : Fin 2) = 512
    ∧ win0_0.xsize (grid0.coords t) (1 : Fin 2) = (if t.val % 25 = 24 then 1105 else 2048)
    ∧ ((grid0.coords t) 1).val = t.val % 25 :=
  (by decide +kernel : ∀ t : Fin grid0.N, _)

/-- A lane of the tile j of row block a that lies inside the array holds the array's entry at the tile's offset. -/
theorem x0_inside (m : (ℓ : Loc nD τ sig) → Buf (Elt Ideal) ℓ) (c : Dev nD)
    (a : Fin 4) (j : ℕ) (hj : j ≤ 24) (hN : 25 * a.val + j < cfg0.N) (r : Fin 512) (k : Fin 2048)
    (hp : 512 * a.val + r.val < 2048) (hq : 2048 * j + k.val < 50257) :
    x0 (F := Ideal) m c ⟨25 * a.val + j, hN⟩ (ix2 r k)
      = V m c main_arg0 (ix2 ⟨512 * a.val + r.val, hp⟩ ⟨2048 * j + k.val, hq⟩) := by
  obtain ⟨e0, e1, s0, s1, c1⟩ := tile_facts ⟨25 * a.val + j, hN⟩
  have e0' : win0_0.index ⟨25 * a.val + j, hN⟩ (0 : Fin 2) = (25 * a.val + j) / 25 := e0
  have e1' : win0_0.index ⟨25 * a.val + j, hN⟩ (1 : Fin 2) = (25 * a.val + j) % 25 := e1
  have s1' : win0_0.xsize (grid0.coords ⟨25 * a.val + j, hN⟩) (1 : Fin 2)
      = (if (25 * a.val + j) % 25 = 24 then 1105 else 2048) := s1
  have hmv : win0_0.moved (grid0.coords ⟨25 * a.val + j, hN⟩) (ix2 r k) = true := by
    rw [Window.moved_iff]; intro d
    match d with
    | ⟨0, _⟩ => show r.val < win0_0.xsize (grid0.coords ⟨25 * a.val + j, hN⟩) (0 : Fin 2); rw [s0]; exact r.isLt
    | ⟨1, _⟩ =>
      show k.val < win0_0.xsize (grid0.coords ⟨25 * a.val + j, hN⟩) (1 : Fin 2)
      rw [s1']; have := k.isLt; split <;> omega
  unfold x0 Window.fill
  rw [dif_pos hmv]
  show V m c main_arg0 (((cfg0.win 0).blk ⟨25 * a.val + j, hN⟩).view.emb _) = _
  refine congrArg _ ?_
  funext d; apply Fin.ext
  match d with
  | ⟨0, _⟩ =>
    show win0_0.index ⟨25 * a.val + j, hN⟩ (0 : Fin 2) * 512 + 1 * r.val = 512 * a.val + r.val
    rw [e0']; omega
  | ⟨1, _⟩ =>
    show win0_0.index ⟨25 * a.val + j, hN⟩ (1 : Fin 2) * 2048 + 1 * k.val = 2048 * j + k.val
    rw [e1']; omega

/-- A lane of the tile j lies inside the array iff its column, counted from the row's start, is below 50257. -/
theorem valid_iff (a : Fin 4) (j : ℕ) (hj : j ≤ 24) (hN : 25 * a.val + j < cfg0.N) (k : Fin 2048) :
    valid (grid0.coords ⟨25 * a.val + j, hN⟩) k ↔ 2048 * j + k.val < 50257 := by
  have c1 : ((grid0.coords ⟨25 * a.val + j, hN⟩) 1).val = (25 * a.val + j) % 25 :=
    (tile_facts ⟨25 * a.val + j, hN⟩).2.2.2.2
  unfold valid; rw [c1]; omega

/-- The tile j of a row block is its first iff j = 0. -/
theorem cond0_iff (a : Fin 4) (j : ℕ) (hj : j ≤ 24) (hN : 25 * a.val + j < cfg0.N) :
    cond0 (grid0.coords ⟨25 * a.val + j, hN⟩) ↔ j = 0 := by
  have h : cond0 (grid0.coords ⟨25 * a.val + j, hN⟩) ↔ (25 * a.val + j) % 25 = 0 := hcond0 ⟨25 * a.val + j, hN⟩
  rw [h]; omega

/-- The tile's entries as reals: row 512 a + r of the array at the tile's columns, zero past the row's end. -/
def tileR (xr : Fin 2048 → Fin 50257 → ℝ) (a : Fin 4) (j : ℕ) : Fin 512 → Fin 2048 → ℝ :=
  fun r k => Rows.ext0 (xr ⟨512 * a.val + r.val, by have := a.isLt; have := r.isLt; omega⟩) (2048 * j + k.val)

/-! ## One tile, on a row counted in ℕ -/

/-- The four step functions at a row of the tile j whose entries are the row f at the columns from 2048 j on. -/
theorem tile_at (i : grid0.Coords) (x : Vec Ideal S512x2048 .f32) (g : Fin 512 → Fin 2048 → ℝ)
    (hxg : ∀ (r : Fin 512) (k : Fin 2048), valid i k → x (ix2 r k) = ((g r k : ℝ) : EReal))
    (j : ℕ) (hc : cond0 i ↔ j = 0) (hv : ∀ k : Fin 2048, valid i k ↔ 2048 * j + k.val < 50257)
    (f : Fin 50257 → ℝ) (r : Fin 512) (hg : ∀ k : Fin 2048, g r k = Rows.ext0 f (2048 * j + k.val))
    (q : Fin 1) (p3 p4 p5 p6 : Vec Ideal S512x1 .f32) :
    new3 (F := Ideal) i x p3 (ix2 r q)
        = (if j = 0 then (0 : EReal) else p3 (ix2 r q))
          + ((∑ k : Fin 2048, Rows.ext0 f (2048 * j + k.val) : ℝ) : EReal)
    ∧ new4 (F := Ideal) i x p4 (ix2 r q)
        = (if j = 0 then (0 : EReal) else p4 (ix2 r q))
          + ((∑ k : Fin 2048, Rows.ext0 (fun c => Cert.LossSpec.wrongK (f c)) (2048 * j + k.val) : ℝ) : EReal)
    ∧ new5 (F := Ideal) i x p5 (ix2 r q)
        = max (if j = 0 then (⊥ : EReal) else p5 (ix2 r q))
            (Finset.univ.sup fun k : Fin 2048 => Rows.extB f (2048 * j + k.val))
    ∧ new6 (F := Ideal) i x p5 p6 (ix2 r q)
        = Ideal.exp ((if j = 0 then (⊥ : EReal) else p5 (ix2 r q)) - new5 (F := Ideal) i x p5 (ix2 r q))
            * (if j = 0 then (0 : EReal) else p6 (ix2 r q))
          + ∑ k : Fin 2048, Ideal.exp (Rows.extB f (2048 * j + k.val) - new5 (F := Ideal) i x p5 (ix2 r q)) := by
  have e3 : (∑ k : Fin 2048, (if valid i k then g r k else 0) : ℝ)
      = ∑ k : Fin 2048, Rows.ext0 f (2048 * j + k.val) :=
    Finset.sum_congr rfl fun k _ => by rw [hg k]; exact Rows.ite_ext0 f _ _ (hv k)
  have e4 : (∑ k : Fin 2048, (if valid i k then Cert.LossSpec.wrongK (g r k) else 0) : ℝ)
      = ∑ k : Fin 2048, Rows.ext0 (fun c => Cert.LossSpec.wrongK (f c)) (2048 * j + k.val) :=
    Finset.sum_congr rfl fun k _ => by rw [hg k]; exact Rows.ite_map_ext0 Cert.LossSpec.wrongK f _ _ (hv k)
  have eE : ∀ k : Fin 2048, (if valid i k then ((g r k : ℝ) : EReal) else ⊥) = Rows.extB f (2048 * j + k.val) :=
    fun k => by rw [hg k]; exact Rows.ite_extB f _ _ (hv k)
  have e5 : (Finset.univ.sup fun k : Fin 2048 => if valid i k then ((g r k : ℝ) : EReal) else ⊥)
      = Finset.univ.sup fun k : Fin 2048 => Rows.extB f (2048 * j + k.val) :=
    congrArg (Finset.sup Finset.univ) (funext eE)
  have e6 : ∑ k : Fin 2048, Ideal.exp ((if valid i k then ((g r k : ℝ) : EReal) else ⊥) - new5 (F := Ideal) i x p5 (ix2 r q))
      = ∑ k : Fin 2048, Ideal.exp (Rows.extB f (2048 * j + k.val) - new5 (F := Ideal) i x p5 (ix2 r q)) :=
    Finset.sum_congr rfl fun k _ => by rw [eE k]
  refine ⟨?_, ?_, ?_, ?_⟩
  · exact (new3_apply i x g hxg p3 r q).trans
      (congrArg₂ (fun (u : EReal) (v : ℝ) => u + ((v : ℝ) : EReal)) (if_congr hc rfl rfl) e3)
  · exact (new4_apply i x g hxg p4 r q).trans
      (congrArg₂ (fun (u : EReal) (v : ℝ) => u + ((v : ℝ) : EReal)) (if_congr hc rfl rfl) e4)
  · exact (new5_apply i x g hxg p5 r q).trans (congrArg₂ max (if_congr hc rfl rfl) e5)
  · exact (new6_apply i x g hxg p5 p6 r q).trans
      (congrArg₂ (fun (u v : EReal) => u + v)
        (congrArg₂ (fun (u v : EReal) => Ideal.exp (u - new5 (F := Ideal) i x p5 (ix2 r q)) * v)
          (if_congr hc rfl rfl) (if_congr hc rfl rfl)) e6)

/-- What the accumulators hold after a point: the four step functions of the point's tile, of some previous
    contents. -/
theorem outsAt_shape (m : (ℓ : Loc nD τ sig) → Buf (Elt Ideal) ℓ) (c : Dev nD) (n : ℕ) (hn : n < cfg0.N) :
    ∃ p3 p4 p5 p6 : Vec Ideal S512x1 .f32, outsAt (F := Ideal) m c n hn =
      (new3 (grid0.coords ⟨n, hn⟩) (x0 m c ⟨n, hn⟩) p3, new4 (grid0.coords ⟨n, hn⟩) (x0 m c ⟨n, hn⟩) p4,
       new5 (grid0.coords ⟨n, hn⟩) (x0 m c ⟨n, hn⟩) p5, new6 (grid0.coords ⟨n, hn⟩) (x0 m c ⟨n, hn⟩) p5 p6) := by
  cases n with
  | zero => exact ⟨_, _, _, _, outsAt_zero m c hn⟩
  | succ n => exact ⟨_, _, _, _, outsAt_succ m c n hn⟩

/-! ## The 25 tiles of a row block -/

variable (m : (ℓ : Loc nD τ sig) → Buf (Elt Ideal) ℓ) (c : Dev nD) (xr : Fin 2048 → Fin 50257 → ℝ)
  (hx : ∀ (p : Fin 2048) (q : Fin 50257), V m c main_arg0 (ix2 p q) = ((xr p q : ℝ) : EReal))
include hx

/-- The tile j of row block a holds, on its lanes inside the array, the real entries. -/
theorem x0_tileR (a : Fin 4) (j : ℕ) (hj : j ≤ 24) (hN : 25 * a.val + j < cfg0.N) (r : Fin 512) (k : Fin 2048)
    (hv : valid (grid0.coords ⟨25 * a.val + j, hN⟩) k) :
    x0 (F := Ideal) m c ⟨25 * a.val + j, hN⟩ (ix2 r k) = ((tileR xr a j r k : ℝ) : EReal) := by
  have hq : 2048 * j + k.val < 50257 := (valid_iff a j hj hN k).1 hv
  rw [x0_inside m c a j hj hN r k (by have := a.isLt; have := r.isLt; omega) hq, hx]
  unfold tileR Rows.ext0; rw [dif_pos hq]

/-- After the tile j of row block a, row r of the four accumulators has seen the columns below 2048 (j + 1). -/
theorem rows_seen (a : Fin 4) (r : Fin 512) (q : Fin 1) (hR : 512 * a.val + r.val < 2048) :
    ∀ (j : ℕ) (hj : j ≤ 24) (hN : 25 * a.val + j < cfg0.N),
      Rows.Seen (xr ⟨512 * a.val + r.val, hR⟩) (2048 * j + 2048)
        ((outsAt (F := Ideal) m c (25 * a.val + j) hN).1 (ix2 r q))
        ((outsAt (F := Ideal) m c (25 * a.val + j) hN).2.1 (ix2 r q))
        ((outsAt (F := Ideal) m c (25 * a.val + j) hN).2.2.1 (ix2 r q))
        ((outsAt (F := Ideal) m c (25 * a.val + j) hN).2.2.2 (ix2 r q)) := by
  intro j
  induction j with
  | zero =>
    intro hj hN
    obtain ⟨p3, p4, p5, p6, e⟩ := outsAt_shape m c (25 * a.val + 0) hN
    rw [e]
    obtain ⟨t3, t4, t5, t6⟩ := tile_at (grid0.coords ⟨25 * a.val + 0, hN⟩) (x0 m c ⟨25 * a.val + 0, hN⟩)
      (tileR xr a 0) (x0_tileR m c xr hx a 0 hj hN) 0 (cond0_iff a 0 hj hN) (valid_iff a 0 hj hN)
      (xr ⟨512 * a.val + r.val, hR⟩) r (fun k => rfl) q p3 p4 p5 p6
    rw [if_pos rfl] at t3 t4 t5
    rw [if_pos rfl, if_pos rfl] at t6
    exact Rows.seen_first _ (2048 * 0) (Nat.mul_zero _) _ _ _ _ t3 t4 t5 t6
  | succ j ih =>
    intro hj hN
    have hN' : 25 * a.val + j < cfg0.N := Nat.lt_of_succ_lt hN
    have ih' := ih (by omega) hN'
    rw [show outsAt (F := Ideal) m c (25 * a.val + (j + 1)) hN = _ from outsAt_succ m c (25 * a.val + j) hN]
    obtain ⟨t3, t4, t5, t6⟩ := tile_at (grid0.coords ⟨25 * a.val + (j + 1), hN⟩) (x0 m c ⟨25 * a.val + (j + 1), hN⟩)
      (tileR xr a (j + 1)) (x0_tileR m c xr hx a (j + 1) hj hN) (j + 1) (cond0_iff a (j + 1) hj hN)
      (valid_iff a (j + 1) hj hN) (xr ⟨512 * a.val + r.val, hR⟩) r (fun k => rfl) q
      (outsAt (F := Ideal) m c (25 * a.val + j) hN').1 (outsAt (F := Ideal) m c (25 * a.val + j) hN').2.1
      (outsAt (F := Ideal) m c (25 * a.val + j) hN').2.2.1 (outsAt (F := Ideal) m c (25 * a.val + j) hN').2.2.2
    rw [if_neg (Nat.succ_ne_zero j)] at t3 t4 t5
    rw [if_neg (Nat.succ_ne_zero j), if_neg (Nat.succ_ne_zero j)] at t6
    exact Rows.seen_step _ (2048 * (j + 1)) (by omega) _ _ _ _ ih' _ _ _ _ t3 t4 t5 t6

/-- After the last tile (point 25·a + 24) of row block a, row r of the four accumulators holds the whole row's
    four quantities. -/
theorem rows_at (a : Fin 4) (r : Fin 512) (q : Fin 1) (hN : 25 * a.val + 24 < cfg0.N)
    (hR : 512 * a.val + r.val < 2048) :
    (outsAt (F := Ideal) m c (25 * a.val + 24) hN).1 (ix2 r q)
        = ((Cert.LossSpec.rowSum xr ⟨512 * a.val + r.val, hR⟩ : ℝ) : EReal)
    ∧ (outsAt (F := Ideal) m c (25 * a.val + 24) hN).2.1 (ix2 r q)
        = ((Cert.LossSpec.rowWrong xr ⟨512 * a.val + r.val, hR⟩ : ℝ) : EReal)
    ∧ (outsAt (F := Ideal) m c (25 * a.val + 24) hN).2.2.1 (ix2 r q)
        = ((Cert.LossSpec.rowMax xr ⟨512 * a.val + r.val, hR⟩ : ℝ) : EReal)
    ∧ (outsAt (F := Ideal) m c (25 * a.val + 24) hN).2.2.2 (ix2 r q)
        = ((Cert.LossSpec.rowExp xr ⟨512 * a.val + r.val, hR⟩ : ℝ) : EReal) := by
  have h := rows_seen m c xr hx a r q hR 24 le_rfl hN
  have e : 2048 * 24 + 2048 = 50257 + 943 := by norm_num
  rw [e] at h
  exact Rows.seen_all xr ⟨512 * a.val + r.val, hR⟩ _ _ _ _ h

end Cert.KernelIdeal.Hand

end
-- ==== Proof.KIArrays.lean ====
/-
  The four result arrays after the region: each row block is written back once, after its last column tile, so row
  `p` of each array holds the whole row's quantity.
-/
import proofs.«430646_j34110630265423_2_alg».proof.Proof.KIDefs
import proofs.«430646_j34110630265423_2_alg».proof.Proof.KIRows
import proofs.«430646_j34110630265423_2_alg».proof.Proof.Spec
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open scoped BigOperators

/-! ## The result windows' blocks -/

/-- A column array whose row `p` holds the real number `f p`. -/
def colOf (f : Fin 2048 → ℝ) : S2048x1.Idx → EReal := fun i => ((f (i 0) : ℝ) : EReal)

theorem colOf_ix2 (f : Fin 2048 → ℝ) (p : Fin 2048) (q : Fin 1) : colOf f (ix2 p q) = ((f p : ℝ) : EReal) := rfl

/-- The block index of each result window at a point: the point's row block, and the one column block. -/
theorem res_index : ∀ t : Fin cfg0.N,
    (win0_1.index t (0 : Fin 2) = t.val / 25 ∧ win0_1.index t (1 : Fin 2) = 0)
    ∧ (win0_2.index t (0 : Fin 2) = t.val / 25 ∧ win0_2.index t (1 : Fin 2) = 0)
    ∧ (win0_3.index t (0 : Fin 2) = t.val / 25 ∧ win0_3.index t (1 : Fin 2) = 0)
    ∧ (win0_4.index t (0 : Fin 2) = t.val / 25 ∧ win0_4.index t (1 : Fin 2) = 0) :=
  (by decide +kernel : ∀ t : Fin grid0.N, _)

/-! ## The blocks written back cover the arrays -/

/-- Every index of result 1's array lies in the block written back after the last tile of its row block. -/
theorem cover1 (i : S2048x1.Idx) :
    ∃ t : Fin cfg0.N, (cfg0.win 1).flush t = true ∧ i ∈ ((cfg0.win 1).blk t).view.set := by
  have hN : cfg0.N = 100 := N_0
  have hi0 : (i 0).val < 2048 := (i 0).isLt
  have hi1 : (i 1).val < 1 := (i 1).isLt
  obtain ⟨t, ht⟩ : ∃ t : Fin cfg0.N, t.val = 25 * ((i 0).val / 512) + 24 := ⟨⟨_, by omega⟩, rfl⟩
  obtain ⟨e0, e1⟩ := (res_index t).1
  refine ⟨t, (flush0_1 t).mpr (by omega), ?_⟩
  show i ∈ ((View.whole main_v0_0).slice (win0_1.rect t)).set
  rw [View.set_slice_whole, Rect.mem_set_unit]
  intro a
  match a with
  | ⟨0, _⟩ =>
    show win0_1.index t (0 : Fin 2) * 512 ≤ (i 0).val ∧ (i 0).val < win0_1.index t (0 : Fin 2) * 512 + 512
    rw [e0]; omega
  | ⟨1, _⟩ =>
    show win0_1.index t (1 : Fin 2) * 1 ≤ (i 1).val ∧ (i 1).val < win0_1.index t (1 : Fin 2) * 1 + 1
    rw [e1]; omega

/-- Every index of result 2's array lies in the block written back after the last tile of its row block. -/
theorem cover2 (i : S2048x1.Idx) :
    ∃ t : Fin cfg0.N, (cfg0.win 2).flush t = true ∧ i ∈ ((cfg0.win 2).blk t).view.set := by
  have hN : cfg0.N = 100 := N_0
  have hi0 : (i 0).val < 2048 := (i 0).isLt
  have hi1 : (i 1).val < 1 := (i 1).isLt
  obtain ⟨t, ht⟩ : ∃ t : Fin cfg0.N, t.val = 25 * ((i 0).val / 512) + 24 := ⟨⟨_, by omega⟩, rfl⟩
  obtain ⟨e0, e1⟩ := (res_index t).2.1
  refine ⟨t, (flush0_2 t).mpr (by omega), ?_⟩
  show i ∈ ((View.whole main_v0_1).slice (win0_2.rect t)).set
  rw [View.set_slice_whole, Rect.mem_set_unit]
  intro a
  match a with
  | ⟨0, _⟩ =>
    show win0_2.index t (0 : Fin 2) * 512 ≤ (i 0).val ∧ (i 0).val < win0_2.index t (0 : Fin 2) * 512 + 512
    rw [e0]; omega
  | ⟨1, _⟩ =>
    show win0_2.index t (1 : Fin 2) * 1 ≤ (i 1).val ∧ (i 1).val < win0_2.index t (1 : Fin 2) * 1 + 1
    rw [e1]; omega

/-- Every index of result 3's array lies in the block written back after the last tile of its row block. -/
theorem cover3 (i : S2048x1.Idx) :
    ∃ t : Fin cfg0.N, (cfg0.win 3).flush t = true ∧ i ∈ ((cfg0.win 3).blk t).view.set := by
  have hN : cfg0.N = 100 := N_0
  have hi0 : (i 0).val < 2048 := (i 0).isLt
  have hi1 : (i 1).val < 1 := (i 1).isLt
  obtain ⟨t, ht⟩ : ∃ t : Fin cfg0.N, t.val = 25 * ((i 0).val / 512) + 24 := ⟨⟨_, by omega⟩, rfl⟩
  obtain ⟨e0, e1⟩ := (res_index t).2.2.1
  refine ⟨t, (flush0_3 t).mpr (by omega), ?_⟩
  show i ∈ ((View.whole main_v0_2).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [e0]; omega
  | ⟨1, _⟩ =>
    show win0_3.index t (1 : Fin 2) * 1 ≤ (i 1).val ∧ (i 1).val < win0_3.index t (1 : Fin 2) * 1 + 1
    rw [e1]; omega

/-- Every index of result 4's array lies in the block written back after the last tile of its row block. -/
theorem cover4 (i : S2048x1.Idx) :
    ∃ t : Fin cfg0.N, (cfg0.win 4).flush t = true ∧ i ∈ ((cfg0.win 4).blk t).view.set := by
  have hN : cfg0.N = 100 := N_0
  have hi0 : (i 0).val < 2048 := (i 0).isLt
  have hi1 : (i 1).val < 1 := (i 1).isLt
  obtain ⟨t, ht⟩ : ∃ t : Fin cfg0.N, t.val = 25 * ((i 0).val / 512) + 24 := ⟨⟨_, by omega⟩, rfl⟩
  obtain ⟨e0, e1⟩ := (res_index t).2.2.2
  refine ⟨t, (flush0_4 t).mpr (by omega), ?_⟩
  show i ∈ ((View.whole main_v0_3).slice (win0_4.rect t)).set
  rw [View.set_slice_whole, Rect.mem_set_unit]
  intro a
  match a with
  | ⟨0, _⟩ =>
    show win0_4.index t (0 : Fin 2) * 512 ≤ (i 0).val ∧ (i 0).val < win0_4.index t (0 : Fin 2) * 512 + 512
    rw [e0]; omega
  | ⟨1, _⟩ =>
    show win0_4.index t (1 : Fin 2) * 1 ≤ (i 1).val ∧ (i 1).val < win0_4.index t (1 : Fin 2) * 1 + 1
    rw [e1]; omega

variable (m : (ℓ : Loc nD τ sig) → Buf (Elt Ideal) ℓ) (c : Dev nD) (xr : Fin 2048 → Fin 50257 → ℝ)
  (hx : ∀ (p : Fin 2048) (q : Fin 50257), V m c main_arg0 (ix2 p q) = ((xr p q : ℝ) : EReal))
include hx

/-- The accumulators after the last tile of the row block of a point that writes back, row by row. -/
theorem rows_flush (n : ℕ) (hn : n < cfg0.N) (hmod : n % 25 = 24) (r : Fin 512) (q : Fin 1)
    (hR : 512 * (n / 25) + r.val < 2048) :
    (outsAt (F := Ideal) m c n hn).1 (ix2 r q) = ((Cert.LossSpec.rowSum xr ⟨512 * (n / 25) + r.val, hR⟩ : ℝ) : EReal)
    ∧ (outsAt (F := Ideal) m c n hn).2.1 (ix2 r q) = ((Cert.LossSpec.rowWrong xr ⟨512 * (n / 25) + r.val, hR⟩ : ℝ) : EReal)
    ∧ (outsAt (F := Ideal) m c n hn).2.2.1 (ix2 r q) = ((Cert.LossSpec.rowMax xr ⟨512 * (n / 25) + r.val, hR⟩ : ℝ) : EReal)
    ∧ (outsAt (F := Ideal) m c n hn).2.2.2 (ix2 r q) = ((Cert.LossSpec.rowExp xr ⟨512 * (n / 25) + r.val, hR⟩ : ℝ) : EReal) := by
  have hN : cfg0.N = 100 := N_0
  obtain ⟨a, rfl⟩ : ∃ a : Fin 4, n = 25 * a.val + 24 := ⟨⟨n / 25, by omega⟩, by dsimp only; omega⟩
  have ha : (25 * a.val + 24) / 25 = a.val := by omega
  have hR' : 512 * a.val + r.val < 2048 := by omega
  have e : (⟨512 * ((25 * a.val + 24) / 25) + r.val, hR⟩ : Fin 2048) = ⟨512 * a.val + r.val, hR'⟩ := Fin.ext (by
    show 512 * ((25 * a.val + 24) / 25) + r.val = 512 * a.val + r.val
    omega)
  rw [e]
  exact rows_at m c xr hx a r q hn hR'

/-! ## Result 1: the row sums -/

/-- What a point that writes back writes through window 1: its block of the column of the row sums. -/
theorem flushed1_eq (t : Fin cfg0.N) (hf : (cfg0.win 1).flush t = true) :
    (dats (F := Ideal) m 0 c).flushed 1 t
      = ((cfg0.win 1).blk t).view.read (Elt Ideal) (colOf (Cert.LossSpec.rowSum xr)) := by
  have hN : cfg0.N = 100 := N_0
  have hmod : t.val % 25 = 24 := (flush0_1 t).mp hf
  obtain ⟨e0, e1⟩ := (res_index t).1
  funext j
  have hj0 : (j (0 : Fin 2)).val < 512 := (j 0).isLt
  have hj1 : (j (1 : Fin 2)).val < 1 := (j 1).isLt
  have hR : 512 * (t.val / 25) + (j (0 : Fin 2)).val < 2048 := by have := t.isLt; omega
  have hxi : (cfg0.win 1).xinj (grid0.coords t) j = ix2 ⟨(j (0 : Fin 2)).val, hj0⟩ ⟨(j (1 : Fin 2)).val, hj1⟩ := by
    funext d
    match d with
    | ⟨0, _⟩ => rfl
    | ⟨1, _⟩ => rfl
  show (dats (F := Ideal) m 0 c).after 1 t ((cfg0.win 1).xinj (grid0.coords t) j)
      = colOf (Cert.LossSpec.rowSum xr) (((cfg0.win 1).blk t).view.emb j)
  rw [hxi, after0_1, (rows_flush m c xr hx t.val t.isLt hmod ⟨(j (0 : Fin 2)).val, hj0⟩ ⟨(j (1 : Fin 2)).val, hj1⟩ hR).1]
  show _ = ((Cert.LossSpec.rowSum xr ((((cfg0.win 1).blk t).view.emb j) (0 : Fin 2)) : ℝ) : EReal)
  congr 2
  apply Fin.ext
  show 512 * (t.val / 25) + (j (0 : Fin 2)).val = win0_1.index t (0 : Fin 2) * 512 + 1 * (j (0 : Fin 2)).val
  rw [e0]; omega

theorem arr1 (p : Fin 2048) (q : Fin 1) :
    (dats (F := Ideal) m 0 c).arrAt 1 cfg0.N (ix2 p q) = ((Cert.LossSpec.rowSum xr p : ℝ) : EReal) := by
  rw [(dats (F := Ideal) m 0 c).arrAt_eq_of_cover 1 (colOf (Cert.LossSpec.rowSum xr)) (flushed1_eq m c xr hx) cover1]
  rfl

/-! ## Result 2: the row sums of the L1 terms -/

/-- What a point that writes back writes through window 2: its block of the column of the row sums of the L1 terms. -/
theorem flushed2_eq (t : Fin cfg0.N) (hf : (cfg0.win 2).flush t = true) :
    (dats (F := Ideal) m 0 c).flushed 2 t
      = ((cfg0.win 2).blk t).view.read (Elt Ideal) (colOf (Cert.LossSpec.rowWrong xr)) := by
  have hN : cfg0.N = 100 := N_0
  have hmod : t.val % 25 = 24 := (flush0_2 t).mp hf
  obtain ⟨e0, e1⟩ := (res_index t).2.1
  funext j
  have hj0 : (j (0 : Fin 2)).val < 512 := (j 0).isLt
  have hj1 : (j (1 : Fin 2)).val < 1 := (j 1).isLt
  have hR : 512 * (t.val / 25) + (j (0 : Fin 2)).val < 2048 := by have := t.isLt; omega
  have hxi : (cfg0.win 2).xinj (grid0.coords t) j = ix2 ⟨(j (0 : Fin 2)).val, hj0⟩ ⟨(j (1 : Fin 2)).val, hj1⟩ := by
    funext d
    match d with
    | ⟨0, _⟩ => rfl
    | ⟨1, _⟩ => rfl
  show (dats (F := Ideal) m 0 c).after 2 t ((cfg0.win 2).xinj (grid0.coords t) j)
      = colOf (Cert.LossSpec.rowWrong xr) (((cfg0.win 2).blk t).view.emb j)
  rw [hxi, after0_2, (rows_flush m c xr hx t.val t.isLt hmod ⟨(j (0 : Fin 2)).val, hj0⟩ ⟨(j (1 : Fin 2)).val, hj1⟩ hR).2.1]
  show _ = ((Cert.LossSpec.rowWrong xr ((((cfg0.win 2).blk t).view.emb j) (0 : Fin 2)) : ℝ) : EReal)
  congr 2
  apply Fin.ext
  show 512 * (t.val / 25) + (j (0 : Fin 2)).val = win0_2.index t (0 : Fin 2) * 512 + 1 * (j (0 : Fin 2)).val
  rw [e0]; omega

theorem arr2 (p : Fin 2048) (q : Fin 1) :
    (dats (F := Ideal) m 0 c).arrAt 2 cfg0.N (ix2 p q) = ((Cert.LossSpec.rowWrong xr p : ℝ) : EReal) := by
  rw [(dats (F := Ideal) m 0 c).arrAt_eq_of_cover 2 (colOf (Cert.LossSpec.rowWrong xr)) (flushed2_eq m c xr hx) cover2]
  rfl

/-! ## Result 3: the row maxima -/

/-- What a point that writes back writes through window 3: its block of the column of the row maxima. -/
theorem flushed3_eq (t : Fin cfg0.N) (hf : (cfg0.win 3).flush t = true) :
    (dats (F := Ideal) m 0 c).flushed 3 t
      = ((cfg0.win 3).blk t).view.read (Elt Ideal) (colOf (Cert.LossSpec.rowMax xr)) := by
  have hN : cfg0.N = 100 := N_0
  have hmod : t.val % 25 = 24 := (flush0_3 t).mp hf
  obtain ⟨e0, e1⟩ := (res_index t).2.2.1
  funext j
  have hj0 : (j (0 : Fin 2)).val < 512 := (j 0).isLt
  have hj1 : (j (1 : Fin 2)).val < 1 := (j 1).isLt
  have hR : 512 * (t.val / 25) + (j (0 : Fin 2)).val < 2048 := by have := t.isLt; omega
  have hxi : (cfg0.win 3).xinj (grid0.coords t) j = ix2 ⟨(j (0 : Fin 2)).val, hj0⟩ ⟨(j (1 : Fin 2)).val, hj1⟩ := by
    funext d
    match d with
    | ⟨0, _⟩ => rfl
    | ⟨1, _⟩ => rfl
  show (dats (F := Ideal) m 0 c).after 3 t ((cfg0.win 3).xinj (grid0.coords t) j)
      = colOf (Cert.LossSpec.rowMax xr) (((cfg0.win 3).blk t).view.emb j)
  rw [hxi, after0_3, (rows_flush m c xr hx t.val t.isLt hmod ⟨(j (0 : Fin 2)).val, hj0⟩ ⟨(j (1 : Fin 2)).val, hj1⟩ hR).2.2.1]
  show _ = ((Cert.LossSpec.rowMax xr ((((cfg0.win 3).blk t).view.emb j) (0 : Fin 2)) : ℝ) : EReal)
  congr 2
  apply Fin.ext
  show 512 * (t.val / 25) + (j (0 : Fin 2)).val = win0_3.index t (0 : Fin 2) * 512 + 1 * (j (0 : Fin 2)).val
  rw [e0]; omega

theorem arr3 (p : Fin 2048) (q : Fin 1) :
    (dats (F := Ideal) m 0 c).arrAt 3 cfg0.N (ix2 p q) = ((Cert.LossSpec.rowMax xr p : ℝ) : EReal) := by
  rw [(dats (F := Ideal) m 0 c).arrAt_eq_of_cover 3 (colOf (Cert.LossSpec.rowMax xr)) (flushed3_eq m c xr hx) cover3]
  rfl

/-! ## Result 4: the row sums of exponentials -/

/-- What a point that writes back writes through window 4: its block of the column of the row sums of exponentials. -/
theorem flushed4_eq (t : Fin cfg0.N) (hf : (cfg0.win 4).flush t = true) :
    (dats (F := Ideal) m 0 c).flushed 4 t
      = ((cfg0.win 4).blk t).view.read (Elt Ideal) (colOf (Cert.LossSpec.rowExp xr)) := by
  have hN : cfg0.N = 100 := N_0
  have hmod : t.val % 25 = 24 := (flush0_4 t).mp hf
  obtain ⟨e0, e1⟩ := (res_index t).2.2.2
  funext j
  have hj0 : (j (0 : Fin 2)).val < 512 := (j 0).isLt
  have hj1 : (j (1 : Fin 2)).val < 1 := (j 1).isLt
  have hR : 512 * (t.val / 25) + (j (0 : Fin 2)).val < 2048 := by have := t.isLt; omega
  have hxi : (cfg0.win 4).xinj (grid0.coords t) j = ix2 ⟨(j (0 : Fin 2)).val, hj0⟩ ⟨(j (1 : Fin 2)).val, hj1⟩ := by
    funext d
    match d with
    | ⟨0, _⟩ => rfl
    | ⟨1, _⟩ => rfl
  show (dats (F := Ideal) m 0 c).after 4 t ((cfg0.win 4).xinj (grid0.coords t) j)
      = colOf (Cert.LossSpec.rowExp xr) (((cfg0.win 4).blk t).view.emb j)
  rw [hxi, after0_4, (rows_flush m c xr hx t.val t.isLt hmod ⟨(j (0 : Fin 2)).val, hj0⟩ ⟨(j (1 : Fin 2)).val, hj1⟩ hR).2.2.2]
  show _ = ((Cert.LossSpec.rowExp xr ((((cfg0.win 4).blk t).view.emb j) (0 : Fin 2)) : ℝ) : EReal)
  congr 2
  apply Fin.ext
  show 512 * (t.val / 25) + (j (0 : Fin 2)).val = win0_4.index t (0 : Fin 2) * 512 + 1 * (j (0 : Fin 2)).val
  rw [e0]; omega

theorem arr4 (p : Fin 2048) (q : Fin 1) :
    (dats (F := Ideal) m 0 c).arrAt 4 cfg0.N (ix2 p q) = ((Cert.LossSpec.rowExp xr p : ℝ) : EReal) := by
  rw [(dats (F := Ideal) m 0 c).arrAt_eq_of_cover 4 (colOf (Cert.LossSpec.rowExp xr)) (flushed4_eq m c xr hx) cover4]
  rfl

end Cert.KernelIdeal.Hand

end
-- ==== Proof.LibPointIndex.lean ====
/-
  Point gather and point scatter-set read at an index.

  A POINT gather reads, for every row `r` of a two-column array of index words, the operand's entry at
  (row word, column word); a POINT scatter-set writes, for every row `r`, the update's entry `r` at
  (row word, column word). Both are `stablehlo.gather` / `stablehlo.scatter` with both operand axes
  collapsed / inserted, the index vector along axis 1 of the index array and slices of one element.
  When the index words are in range the gather is the operand at those coordinates
  (`gather_point_apply`); when moreover the row words are the row numbers themselves, the targets are
  pairwise distinct and the scatter-set is a row-wise overwrite of one column per row
  (`scatter_point_set_apply`).
-/
import Idealize.ShloMosaic.PureOps.ShapeOps
import Idealize.ShloMosaic.PureOps.Dims
import Idealize.ShloMosaic.Lib.ValueIdx

namespace Cert.LibPointIndex

open Idealize.ShloMosaic Idealize.ShloMosaic.ValueIdx

variable {α : Type} {w N C n : Nat}

/-! ## The point gather -/

/-- THE POINT GATHER READ AT ROW `r`: when the two index words of row `r` are in range (below the extents, and the
    extents small enough that a word below them is non-negative as a signed integer), the gather's entry `r` is the
    operand's at (row word, column word). The dimension numbers are any record with the point gather's fields. -/
theorem gather_point_apply
    (d : GatherDims ⟨2, ![N, C]⟩ ⟨2, ![n, 2]⟩ ⟨1, ![n]⟩)
    (hoff : d.offsetDims = []) (hcs : d.collapsedSliceDims = [0, 1]) (hob : d.operandBatchingDims = [])
    (hsb : d.startIndicesBatchingDims = []) (hsim : d.startIndexMap = [0, 1]) (hiv : d.indexVectorDim = 1)
    (hss : d.sliceSizes = ![1, 1])
    (hN : 2 * N ≤ 2 ^ w) (hC : 2 * C ≤ 2 ^ w)
    (x : (⟨2, ![N, C]⟩ : Shape).Idx → α) (idx : IVec ⟨2, ![n, 2]⟩ w) (r : Fin n)
    (h0 : (idx (ix2 r (0 : Fin 2))).toNat < N) (h1 : (idx (ix2 r (1 : Fin 2))).toNat < C) :
    Host.gather d x idx (ix1 r)
      = x (ix2 ⟨(idx (ix2 r (0 : Fin 2))).toNat, h0⟩ ⟨(idx (ix2 r (1 : Fin 2))).toNat, h1⟩) := by
  obtain ⟨od, cs, ob, sb, sim, iv, ss, wf⟩ := d
  simp only at hoff hcs hob hsb hsim hiv hss
  subst hoff hcs hob hsb hsim hiv hss
  unfold Host.gather
  congr 1
  funext a
  refine Fin.ext ?_
  generalize hd : (GatherDims.mk [] [0, 1] [] [] [0, 1] 1 ![1, 1] wf : GatherDims ⟨2, ![N, C]⟩ ⟨2, ![n, 2]⟩ ⟨1, ![n]⟩) = d
  show d.start (ix1 r) idx a + d.batchCoord (ix1 r) a + d.offCoord (ix1 r) a = _
  have hmem : a ∈ d.collapsedSliceDims := by
    subst hd
    match a with
    | ⟨0, _⟩ => exact List.mem_cons_self
    | ⟨1, _⟩ => exact List.mem_cons_of_mem _ List.mem_cons_self
  rw [GatherDims.batchCoord_eq_zero _ _ _ (by subst hd; exact List.not_mem_nil),
    GatherDims.offCoord_eq_zero _ _ _ (fun h => ((GatherDims.mem_sKept _ _).mp h).1 hmem)]
  simp only [Nat.add_zero]
  subst hd
  unfold GatherDims.start
  match a with
  | ⟨0, _⟩ =>
    rw [dif_pos (show (⟨0, by decide⟩ : Fin 2) ∈ ([0, 1] : List (Fin 2)) from List.mem_cons_self)]
    have hsi : (GatherDims.mk [] [0, 1] [] [] [0, 1] 1 ![1, 1] wf : GatherDims ⟨2, ![N, C]⟩ ⟨2, ![n, 2]⟩ ⟨1, ![n]⟩).siIdx (ix1 r)
        ⟨List.idxOf (⟨0, by decide⟩ : Fin 2) ([0, 1] : List (Fin 2)), List.idxOf_lt_length_iff.2 List.mem_cons_self⟩
          = ix2 r (0 : Fin 2) := by
      funext b; refine Fin.ext ?_
      match b with
      | ⟨0, _⟩ => rfl
      | ⟨1, _⟩ => rfl
    refine (congrArg (fun k => min (idx k).toInt.toNat (N - 1)) hsi).trans ?_
    show min (idx (ix2 r (0 : Fin 2))).toInt.toNat (N - 1) = (idx (ix2 r (0 : Fin 2))).toNat
    rw [BitVec.toInt_eq_toNat_of_lt (lt_of_lt_of_le (by omega) hN), Int.toNat_natCast]
    exact Nat.min_eq_left (by omega)
  | ⟨1, _⟩ =>
    rw [dif_pos (show (⟨1, by decide⟩ : Fin 2) ∈ ([0, 1] : List (Fin 2)) from List.mem_cons_of_mem _ List.mem_cons_self)]
    have hsi : (GatherDims.mk [] [0, 1] [] [] [0, 1] 1 ![1, 1] wf : GatherDims ⟨2, ![N, C]⟩ ⟨2, ![n, 2]⟩ ⟨1, ![n]⟩).siIdx (ix1 r)
        ⟨List.idxOf (⟨1, by decide⟩ : Fin 2) ([0, 1] : List (Fin 2)),
          List.idxOf_lt_length_iff.2 (List.mem_cons_of_mem _ List.mem_cons_self)⟩
          = ix2 r (1 : Fin 2) := by
      funext b; refine Fin.ext ?_
      match b with
      | ⟨0, _⟩ => rfl
      | ⟨1, _⟩ => rfl
    refine (congrArg (fun k => min (idx k).toInt.toNat (C - 1)) hsi).trans ?_
    show min (idx (ix2 r (1 : Fin 2))).toInt.toNat (C - 1) = (idx (ix2 r (1 : Fin 2))).toNat
    rw [BitVec.toInt_eq_toNat_of_lt (lt_of_lt_of_le (by omega) hC), Int.toNat_natCast]
    exact Nat.min_eq_left (by omega)

/-! ## Folds of point writes -/

section Fold

variable {ι κ β : Type}

/-- A fold whose every step leaves entry `p` alone leaves entry `p` alone. -/
theorem foldl_apply_of_untouched (step : (κ → β) → ι → κ → β) (p : κ) (l : List ι)
    (h : ∀ k ∈ l, ∀ r, step r k p = r p) (x : κ → β) : l.foldl step x p = x p := by
  induction l generalizing x with
  | nil => rfl
  | cons a l ih =>
    rw [List.foldl_cons, ih (fun k hk => h k (List.mem_cons_of_mem _ hk))]
    exact h a List.mem_cons_self x

/-- A fold over a list without repeats in which exactly one step, `k₀`, touches entry `p`, and sets it to `v`
    whatever it held, leaves `v` there. -/
theorem foldl_apply_of_hit_once (step : (κ → β) → ι → κ → β) (p : κ) (v : β) (l : List ι) (k₀ : ι)
    (hk₀ : k₀ ∈ l) (hnd : l.Nodup) (hhit : ∀ r, step r k₀ p = v)
    (hmiss : ∀ k ∈ l, k ≠ k₀ → ∀ r, step r k p = r p) (x : κ → β) : l.foldl step x p = v := by
  induction l generalizing x with
  | nil => exact absurd hk₀ List.not_mem_nil
  | cons a l ih =>
    rw [List.foldl_cons]
    have hnd' := List.nodup_cons.1 hnd
    by_cases ha : a = k₀
    · subst ha
      rw [foldl_apply_of_untouched step p l (fun k hk r =>
        hmiss k (List.mem_cons_of_mem _ hk) (fun e => hnd'.1 (e ▸ hk)) r)]
      exact hhit x
    · have hk₀' : k₀ ∈ l := by
        rcases List.mem_cons.1 hk₀ with e | e
        · exact absurd e.symm ha
        · exact e
      exact ih hk₀' hnd'.2 (fun k hk => hmiss k (List.mem_cons_of_mem _ hk)) _

end Fold

/-! ## The point scatter's target -/

/-- The point scatter's dimension numbers over an `N × C` operand, `n` index pairs and `n` updates. -/
abbrev pointScatter (N C n : Nat) (wf : ScatterDims.WF ⟨2, ![N, C]⟩ ⟨2, ![n, 2]⟩ ⟨1, ![n]⟩ [] [0, 1] [0, 1] 1) :
    ScatterDims ⟨2, ![N, C]⟩ ⟨2, ![n, 2]⟩ ⟨1, ![n]⟩ :=
  { updateWindowDims := [], insertedWindowDims := [0, 1], scatterDimsToOperandDims := [0, 1], indexVectorDim := 1, wf := wf }

/-- A record with the point scatter's fields is the point scatter. -/
theorem eq_pointScatter (d : ScatterDims ⟨2, ![N, C]⟩ ⟨2, ![n, 2]⟩ ⟨1, ![n]⟩)
    (huw : d.updateWindowDims = []) (hiw : d.insertedWindowDims = [0, 1])
    (hsd : d.scatterDimsToOperandDims = [0, 1]) (hiv : d.indexVectorDim = 1) :
    ∃ wf, d = pointScatter N C n wf := by
  obtain ⟨uw, iw, sd, iv, wf⟩ := d
  simp only at huw hiw hsd hiv
  subst huw hiw hsd hiv
  exact ⟨wf, rfl⟩

/-- Update `r`'s start plus window coordinate on each operand axis is its index word for that axis, when the words are
    in range. -/
theorem pointScatter_start_add_window (wf : ScatterDims.WF ⟨2, ![N, C]⟩ ⟨2, ![n, 2]⟩ ⟨1, ![n]⟩ [] [0, 1] [0, 1] 1)
    (hN : 2 * N ≤ 2 ^ w) (hC : 2 * C ≤ 2 ^ w) (idx : IVec ⟨2, ![n, 2]⟩ w) (r : Fin n)
    (h0 : (idx (ix2 r (0 : Fin 2))).toNat < N) (h1 : (idx (ix2 r (1 : Fin 2))).toNat < C) (a : Fin 2) :
    (pointScatter N C n wf).start (ix1 r) idx a + ((pointScatter N C n wf).window (ix1 r) a : Int)
      = (((ix2 ⟨(idx (ix2 r (0 : Fin 2))).toNat, h0⟩ ⟨(idx (ix2 r (1 : Fin 2))).toNat, h1⟩ :
          (⟨2, ![N, C]⟩ : Shape).Idx) a).val : Int) := by
  match a with
  | ⟨0, _⟩ =>
    have hw : (pointScatter N C n wf).window (ix1 r) (⟨0, Nat.zero_lt_two⟩ : Fin 2) = 0 := rfl
    rw [hw]
    unfold ScatterDims.start
    rw [dif_pos (show (⟨0, by decide⟩ : Fin 2) ∈ ([0, 1] : List (Fin 2)) from List.mem_cons_self)]
    have hsi : (pointScatter N C n wf).siIdx (ix1 r)
        ⟨List.idxOf (⟨0, by decide⟩ : Fin 2) ([0, 1] : List (Fin 2)), List.idxOf_lt_length_iff.2 List.mem_cons_self⟩
          = ix2 r (0 : Fin 2) := by
      funext b; refine Fin.ext ?_
      match b with
      | ⟨0, _⟩ => rfl
      | ⟨1, _⟩ => rfl
    refine (congrArg (fun k => (idx k).toInt + ((0 : Nat) : Int)) hsi).trans ?_
    show (idx (ix2 r (0 : Fin 2))).toInt + ((0 : Nat) : Int) = ((idx (ix2 r (0 : Fin 2))).toNat : Int)
    rw [BitVec.toInt_eq_toNat_of_lt (lt_of_lt_of_le (by omega) hN)]
    simp
  | ⟨1, _⟩ =>
    have hw : (pointScatter N C n wf).window (ix1 r) (⟨1, Nat.one_lt_two⟩ : Fin 2) = 0 := rfl
    rw [hw]
    unfold ScatterDims.start
    rw [dif_pos (show (⟨1, by decide⟩ : Fin 2) ∈ ([0, 1] : List (Fin 2)) from List.mem_cons_of_mem _ List.mem_cons_self)]
    have hsi : (pointScatter N C n wf).siIdx (ix1 r)
        ⟨List.idxOf (⟨1, by decide⟩ : Fin 2) ([0, 1] : List (Fin 2)),
          List.idxOf_lt_length_iff.2 (List.mem_cons_of_mem _ List.mem_cons_self)⟩
          = ix2 r (1 : Fin 2) := by
      funext b; refine Fin.ext ?_
      match b with
      | ⟨0, _⟩ => rfl
      | ⟨1, _⟩ => rfl
    refine (congrArg (fun k => (idx k).toInt + ((0 : Nat) : Int)) hsi).trans ?_
    show (idx (ix2 r (1 : Fin 2))).toInt + ((0 : Nat) : Int) = ((idx (ix2 r (1 : Fin 2))).toNat : Int)
    rw [BitVec.toInt_eq_toNat_of_lt (lt_of_lt_of_le (by omega) hC)]
    simp

/-- THE POINT SCATTER'S TARGET: update `r` lands at (row word, column word) when the two words are in range. -/
theorem pointScatter_resultIdx? (wf : ScatterDims.WF ⟨2, ![N, C]⟩ ⟨2, ![n, 2]⟩ ⟨1, ![n]⟩ [] [0, 1] [0, 1] 1)
    (hN : 2 * N ≤ 2 ^ w) (hC : 2 * C ≤ 2 ^ w) (idx : IVec ⟨2, ![n, 2]⟩ w) (r : Fin n)
    (h0 : (idx (ix2 r (0 : Fin 2))).toNat < N) (h1 : (idx (ix2 r (1 : Fin 2))).toNat < C) :
    (pointScatter N C n wf).resultIdx? (ix1 r) idx
      = some (ix2 ⟨(idx (ix2 r (0 : Fin 2))).toNat, h0⟩ ⟨(idx (ix2 r (1 : Fin 2))).toNat, h1⟩) := by
  have hst := pointScatter_start_add_window wf hN hC idx r h0 h1
  unfold ScatterDims.resultIdx?
  rw [dif_pos (fun a => by
    rw [hst a]
    exact ⟨Int.natCast_nonneg _, by exact_mod_cast (Fin.isLt _)⟩)]
  congr 1
  funext a
  refine Fin.ext ?_
  show ((pointScatter N C n wf).start (ix1 r) idx a + ((pointScatter N C n wf).window (ix1 r) a : Int)).toNat = _
  rw [hst a]
  exact Int.toNat_natCast _

/-! ## The point scatter-set -/

/-- THE POINT SCATTER-SET READ AT `(p, q)`: when every row's row word is the row number and its column word is in
    range, the targets are pairwise distinct, nothing is dropped, and the result is the operand with, in each row
    `p`, the entry at that row's column word replaced by the update's entry `p`. The dimension numbers are any
    record with the point scatter's fields. -/
theorem scatter_point_set_apply
    (d : ScatterDims ⟨2, ![N, C]⟩ ⟨2, ![N, 2]⟩ ⟨1, ![N]⟩)
    (huw : d.updateWindowDims = []) (hiw : d.insertedWindowDims = [0, 1])
    (hsd : d.scatterDimsToOperandDims = [0, 1]) (hiv : d.indexVectorDim = 1)
    (hN : 2 * N ≤ 2 ^ w) (hC : 2 * C ≤ 2 ^ w)
    (x : (⟨2, ![N, C]⟩ : Shape).Idx → α) (idx : IVec ⟨2, ![N, 2]⟩ w) (upd : (⟨1, ![N]⟩ : Shape).Idx → α)
    (hrow : ∀ r : Fin N, (idx (ix2 r (0 : Fin 2))).toNat = r.val)
    (hcol : ∀ r : Fin N, (idx (ix2 r (1 : Fin 2))).toNat < C)
    (p : Fin N) (q : Fin C) :
    Host.scatter d (fun _ b => b) x idx upd (ix2 p q)
      = if q.val = (idx (ix2 p (1 : Fin 2))).toNat then upd (ix1 p) else x (ix2 p q) := by
  obtain ⟨wf, rfl⟩ := eq_pointScatter d huw hiw hsd hiv
  -- every update's target: its own row, at its column word
  have htgt : ∀ r : Fin N, (pointScatter N C N wf).resultIdx? (ix1 r) idx
      = some (ix2 r (⟨(idx (ix2 r (1 : Fin 2))).toNat, hcol r⟩ : Fin C)) := by
    intro r
    have h0 : (idx (ix2 r (0 : Fin 2))).toNat < N := lt_of_eq_of_lt (hrow r) r.isLt
    rw [pointScatter_resultIdx? wf hN hC idx r h0 (hcol r)]
    exact congrArg some (congrArg (fun a => ix2 a _) (Fin.ext (hrow r)))
  -- the update numbered `k` is the update of a row
  obtain ⟨row, hrowk⟩ : ∃ row : Fin (⟨1, ![N]⟩ : Shape).numel → Fin N,
      ∀ k, (⟨1, ![N]⟩ : Shape).rowMajor.symm k = ix1 (row k) :=
    ⟨fun k => (⟨1, ![N]⟩ : Shape).rowMajor.symm k 0, fun k => eq_ix1 _⟩
  have hnum : ∀ k, k = (⟨1, ![N]⟩ : Shape).rowMajor (ix1 (row k)) := fun k => by
    rw [← hrowk k, Equiv.apply_symm_apply]
  unfold Host.scatter
  by_cases hq : q.val = (idx (ix2 p (1 : Fin 2))).toNat
  · rw [if_pos hq]
    have hp : row ((⟨1, ![N]⟩ : Shape).rowMajor (ix1 p)) = p := by
      have h := hrowk ((⟨1, ![N]⟩ : Shape).rowMajor (ix1 p))
      rw [Equiv.symm_apply_apply] at h
      exact (congrFun h 0).symm
    refine foldl_apply_of_hit_once _ (ix2 p q) _ _ ((⟨1, ![N]⟩ : Shape).rowMajor (ix1 p))
      (List.mem_finRange _) (List.nodup_finRange _) ?_ ?_ x
    · intro r
      dsimp only
      rw [hrowk, htgt, hp]
      dsimp only
      rw [if_pos]
      exact congrArg (ix2 p) (Fin.ext hq)
    · intro k _ hk r
      dsimp only
      rw [hrowk, htgt]
      dsimp only
      rw [if_neg]
      intro e
      apply hk
      have e0 : p = row k := congrFun e 0
      rw [e0]
      exact hnum k
  · rw [if_neg hq]
    refine foldl_apply_of_untouched _ (ix2 p q) _ ?_ x
    intro k _ r
    dsimp only
    rw [hrowk, htgt]
    dsimp only
    rw [if_neg]
    intro e
    apply hq
    have e0 : p = row k := congrFun e 0
    have e1 := congrArg Fin.val (congrFun e 1)
    rw [e0]
    exact e1

end Cert.LibPointIndex
-- ==== Proof.LibIndexWords.lean ====
/-
  The index words of a gather (or scatter) of one entry per row.

  Such an operation takes an array of index pairs [row, column]: the concatenation, along a new second axis, of the
  rows' own numbers (an iota) and the labels, each first passed through the wrap of negative indices (a word that is
  negative as a signed number has the axis's extent added to it). On words that are not negative the wrap is the
  identity, so row `p` of the index array holds the word of `p` and the label's word. The lemmas below read each
  piece of that construction at an index; all are stated over arbitrary operands and literal shapes.
-/
import Idealize.ShloMosaic.Lib.IdealHost
import Idealize.ShloMosaic.Lib.ValueIdx
import Idealize.ShloMosaic.Lib.Pipeline.Value

namespace Cert.LibIndexWords

open Idealize.ShloMosaic Idealize.ShloMosaic.ValueIdx

variable {α : Type}

/-- A select on the signed comparison `L < z`, at an index where `z` holds zero and `L` holds a word below 2³¹ (not
    negative as a signed number), takes `L`'s word. -/
theorem select_slt_zero_apply {s : Shape} (L z y : IVec s 32) (i : s.Idx) (hz : z i = 0#32)
    (h : (L i).toNat < 2 ^ 31) : select (cmpi .slt L z) y L i = L i := by
  show Scalar.select (IntOp.cmpi .slt (L i) (z i)) (y i) (L i) = L i
  rw [hz]
  have e : IntOp.cmpi .slt (L i) 0#32 = 0#1 := by
    unfold IntOp.cmpi
    have : (L i).slt 0#32 = false := by
      rw [BitVec.slt_zero_eq_msb, BitVec.msb_eq_false_iff_two_mul_lt]; omega
    rw [this]; rfl
  rw [e, select_zero]

/-- The wrap of negative indices, `select (L < 0) (L + K) L` with both constants broadcast from scalars, leaves a
    word below 2³¹ as it is. -/
theorem wrapIndex_apply {s : Shape} (h0 : (⟨0, ![]⟩ : Shape).BroadcastsInDim s ![]) (K : BitVec 32) (L : IVec s 32)
    (i : s.Idx) (h : (L i).toNat < 2 ^ 31) :
    select (cmpi .slt L (broadcastInDim s ![] h0 (constantI ⟨0, ![]⟩ 32 0#32)))
      (addi L (broadcastInDim s ![] h0 (constantI ⟨0, ![]⟩ 32 K))) L i = L i :=
  select_slt_zero_apply L _ _ i (by rw [broadcastInDim_scalar_apply]; rfl) h

/-- The iota along the one axis of a vector of at most 2³² entries holds at `p` the word whose value is `p`. -/
theorem iotaInDim_vec_toNat {n : Nat} (hn : n ≤ 2 ^ 32) (p : Fin n) :
    (iotaInDim (⟨1, ![n]⟩ : Shape) 32 0 (ix1 p)).toNat = p.val := by
  rw [iotaInDim_apply]
  show (BitVec.ofNat 32 p.val).toNat = p.val
  rw [BitVec.toNat_ofNat]
  exact Nat.mod_eq_of_lt (lt_of_lt_of_le p.isLt hn)

/-- Two one-column arrays laid side by side: column 0 of the result is the first array. -/
theorem concatenate_cols_left {n : Nat} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (0 : Fin 2)) = a (ix2 p (0 : Fin 1)) := by
  refine concatenate_pair_apply_left (1 : Fin 2) a b h (ix2 p (0 : Fin 2)) rfl (ix2 p (0 : Fin 1)) ?_
  intro c
  match c with
  | ⟨0, _⟩ => rfl
  | ⟨1, _⟩ => rfl

/-- Two one-column arrays laid side by side: column 1 of the result is the second array. -/
theorem concatenate_cols_right {n : Nat} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (1 : Fin 2)) = b (ix2 p (0 : Fin 1)) := by
  refine concatenate_pair_apply_right (1 : Fin 2) a b h (ix2 p (1 : Fin 2)) rfl rfl (ix2 p (0 : Fin 1)) ?_ ?_
  · intro c hc
    match c with
    | ⟨0, _⟩ => rfl
    | ⟨1, _⟩ => exact absurd rfl hc
  · rfl

/-- A vector broadcast along a new trailing unit axis reads, at row `p`, the vector at `p`. -/
theorem broadcastInDim_col_apply {n : Nat} (hb : (⟨1, ![n]⟩ : Shape).BroadcastsInDim ⟨2, ![n, 1]⟩ ![0])
    (v : (⟨1, ![n]⟩ : Shape).Idx → α) (p : Fin n) (q : Fin 1) :
    broadcastInDim ⟨2, ![n, 1]⟩ ![0] hb v (ix2 p q) = v (ix1 p) := by
  refine broadcastInDim_apply ![0] hb v (ix2 p q) (ix1 p) ?_
  intro a
  match a with
  | ⟨0, _⟩ =>
    show p.val = if n = 1 then 0 else p.val
    split
    · omega
    · rfl

/-- A one-column array read as a vector holds, at `p`, the array's entry of row `p`. -/
theorem shapeCast_col_apply {n : Nat} (v : (⟨2, ![n, 1]⟩ : Shape).Idx → α)
    (h : (⟨2, ![n, 1]⟩ : Shape).ShapeCasts ⟨1, ![n]⟩) (p : Fin n) :
    shapeCast ⟨1, ![n]⟩ v h (ix1 p) = v (ix2 p (0 : Fin 1)) := by
  refine shapeCast_apply v h (ix1 p) (ix2 p (0 : Fin 1)) ?_
  rw [Shape.rowMajor_val_two, Shape.rowMajor_val_one]
  show p.val * 1 + 0 = p.val
  omega

end Cert.LibIndexWords
-- ==== Proof.KITail.lean ====
/-
  The host lines after the region, as a function of the buffers they read: from the four result arrays at the rows'
  quantities, the logits and the labels, the last line's result is the loss in its one-pass arrangement.
-/
import proofs.«430646_j34110630265423_2_alg».proof.Proof.KIDefs
import proofs.«430646_j34110630265423_2_alg».proof.Proof.Spec
import proofs.«430646_j34110630265423_2_alg».proof.Proof.LibIdealReal
import proofs.«430646_j34110630265423_2_alg».proof.Proof.LibPointIndex
import proofs.«430646_j34110630265423_2_alg».proof.Proof.LibIndexWords
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.IdealHost

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
open Idealize.ShloMosaic.StableHlo
open scoped BigOperators
open Cert.LibIndexWords Cert.LibIdealReal

/-! ## The host lines as functions of what they read -/

section Stages

/-- The rows' means: the row sums over the row length. -/
def tMean (s0 : FVec Ideal S2048x1 .f32) : FVec Ideal S2048 .f32 :=
  shapeCast S2048 (Host.divf s0 (broadcastInDim S2048x1 ![] bcast_S_S2048x1 (constant (F := Ideal) S_ .f32 0x47445100#32)))
    shapeCasts_S2048x1_S2048

/-- The total of the rows' sums of L1 terms. -/
def tWrong (s1 : FVec Ideal S2048x1 .f32) : FVec Ideal S_ .f32 :=
  Host.reduceAdd s1 (constant (F := Ideal) S_ .f32 0x00000000#32) reducesTo_S2048x1_S_d0_1 h_S_

/-- The rows' log-sum-exp: the maximum plus the logarithm of the sum of exponentials. -/
def tLse (s2 s3 : FVec Ideal S2048x1 .f32) : FVec Ideal S2048 .f32 :=
  addf (shapeCast S2048 s2 shapeCasts_S2048x1_S2048) (Host.log (shapeCast S2048 s3 shapeCasts_S2048x1_S2048))

/-- The wrap of negative indices by the extent `K`. -/
def tWrap (K : BitVec 32) (L : IVec S2048 32) : IVec S2048 32 :=
  select (cmpi .slt L (broadcastInDim S2048 ![] bcast_S_S2048 (constantI S_ 32 0#32)))
    (addi L (broadcastInDim S2048 ![] bcast_S_S2048 (constantI S_ 32 K))) L

/-- The index pairs [row, label]. -/
def tIdx (L : IVec S2048 32) : IVec S2048x2 32 :=
  concatenate S2048x2 1
    [⟨S2048x1, broadcastInDim S2048x1 ![0] bcast_S2048_S2048x1_0 (tWrap 2048#32 (iotaInDim S2048 32 0))⟩,
     ⟨S2048x1, broadcastInDim S2048x1 ![0] bcast_S2048_S2048x1_0 (tWrap 50257#32 L)⟩]
    concatenates_S2048x1_S2048x1_S2048x2_d1

/-- The rows' entries at their labels. -/
def tGath (X : FVec Ideal S2048x50257 .f32) (L : IVec S2048 32) : FVec Ideal S2048 .f32 :=
  Host.gather gather_S2048x50257_S2048x2_S2048_n_01_n_n_01_1_11 X (tIdx L)

/-- The target at the label: ten times the larger of |mean| and |entry|. -/
def tVal (mean g : FVec Ideal S2048 .f32) : FVec Ideal S2048 .f32 :=
  mulf (maximumf (Host.absf mean) (Host.absf g))
    (broadcastInDim S2048 ![] bcast_S_S2048 (constant (F := Ideal) S_ .f32 0x41200000#32))

/-- Whether the entry at the label is positive. -/
def tPos (g : FVec Ideal S2048 .f32) : IVec S2048 1 :=
  cmpf .ogt g (broadcastInDim S2048 ![] bcast_S_S2048 (constant (F := Ideal) S_ .f32 0x00000000#32))

/-- The entry at the label times −10. -/
def tScaled (g : FVec Ideal S2048 .f32) : FVec Ideal S2048 .f32 :=
  mulf g (broadcastInDim S2048 ![] bcast_S_S2048 (constant (F := Ideal) S_ .f32 0xC1200000#32))

/-- The zero vector. -/
def tZero : FVec Ideal S2048 .f32 :=
  broadcastInDim S2048 ![] bcast_S_S2048 (constant (F := Ideal) S_ .f32 0x00000000#32)

/-- The correction at the label: the term against the target less the term against −10. -/
def tCorr (f val : FVec Ideal S2048 .f32) : FVec Ideal S2048 .f32 :=
  subf (Host.absf (subf f val))
    (Host.absf (subf f (broadcastInDim S2048 ![] bcast_S_S2048 (constant (F := Ideal) S_ .f32 0xC1200000#32))))

/-- The L1 part: the total of the terms against −10 plus the corrections, over the number of entries. -/
def tL1 (wrong : FVec Ideal S_ .f32) (corr : FVec Ideal S2048 .f32) : FVec Ideal S_ .f32 :=
  Host.divf (addf wrong (Host.reduceAdd corr (constant (F := Ideal) S_ .f32 0x00000000#32) reducesTo_S2048_S_d0 h_S_))
    (constant (F := Ideal) S_ .f32 0x4CC45100#32)

/-- The cross-entropy part: minus the mean over the rows of the log-softmax at the label. -/
def tCe (g lse : FVec Ideal S2048 .f32) : FVec Ideal S_ .f32 :=
  Host.negf (Host.divf (Host.reduceAdd (subf g lse) (constant (F := Ideal) S_ .f32 0x00000000#32) reducesTo_S2048_S_d0 h_S_)
    (constant (F := Ideal) S_ .f32 0x45000000#32))

/-- The loss: half of each part. -/
def tLoss (l1 ce : FVec Ideal S_ .f32) : FVec Ideal S_ .f32 :=
  addf (mulf (constant (F := Ideal) S_ .f32 0x3F000000#32) l1) (mulf (constant (F := Ideal) S_ .f32 0x3F000000#32) ce)

/-! ## The host lines in four stretches

  The first stretch is cut after the gather (its twenty-ninth line), so that the lines which use the gathered entries
  read them from the valuation instead of carrying the gather's whole term. -/

/-- The first stretch up to and including the gather. -/
abbrev opsA : List (HloOp τ sig (Elt Ideal)) := (hostOps1 (F := Ideal)).take 29
/-- The rest of the first stretch. -/
abbrev opsB : List (HloOp τ sig (Elt Ideal)) := (hostOps1 (F := Ideal)).drop 29

theorem tailOps_split (W : Valuation τ sig (Elt Ideal)) :
    StableHlo.after (tailOps (F := Ideal)).flatten W
      = StableHlo.after hostOps1_2 (StableHlo.after hostOps1_1 (StableHlo.after opsB (StableHlo.after opsA W))) := by
  have e : (tailOps (F := Ideal)).flatten = (opsA ++ opsB) ++ (hostOps1_1 ++ hostOps1_2) := by
    rw [List.take_append_drop]
    simp only [tailOps, List.flatten_cons, List.flatten_nil, List.append_nil]
  rw [e, StableHlo.after_append, StableHlo.after_append, StableHlo.after_append]

set_option maxHeartbeats 4000000 in
theorem stageA_v3 (V : Valuation τ sig (Elt Ideal)) :
    (StableHlo.after opsA V (Proc.devRef .tc main_v3) : S2048.Idx → EReal) = tMean (V (Proc.devRef .tc main_v0_0)) := by
  simp only [opsA, hostOps1, List.take_succ_cons, List.take_zero]
  after_results_simp
  rfl

set_option maxHeartbeats 4000000 in
theorem stageA_v4 (V : Valuation τ sig (Elt Ideal)) :
    (StableHlo.after opsA V (Proc.devRef .tc main_v4) : S_.Idx → EReal) = tWrong (V (Proc.devRef .tc main_v0_1)) := by
  simp only [opsA, hostOps1, List.take_succ_cons, List.take_zero]
  after_results_simp
  rfl

set_option maxHeartbeats 4000000 in
theorem stageA_v8 (V : Valuation τ sig (Elt Ideal)) :
    (StableHlo.after opsA V (Proc.devRef .tc main_v8) : S2048.Idx → EReal)
      = tLse (V (Proc.devRef .tc main_v0_2)) (V (Proc.devRef .tc main_v0_3)) := by
  simp only [opsA, hostOps1, List.take_succ_cons, List.take_zero]
  after_results_simp
  rfl

set_option maxHeartbeats 4000000 in
theorem stageA_v23 (V : Valuation τ sig (Elt Ideal)) :
    (StableHlo.after opsA V (Proc.devRef .tc main_v23) : S2048.Idx → EReal)
      = tGath (V (Proc.devRef .tc main_arg0)) (V (Proc.devRef .tc main_arg1)) := by
  simp only [opsA, hostOps1, List.take_succ_cons, List.take_zero]
  after_results
  rfl

set_option maxHeartbeats 4000000 in
theorem stageB_v28 (V : Valuation τ sig (Elt Ideal)) :
    (StableHlo.after opsB V (Proc.devRef .tc main_v28) : S2048.Idx → EReal)
      = tVal (V (Proc.devRef .tc main_v3)) (V (Proc.devRef .tc main_v23)) := by
  simp only [opsB, hostOps1, List.drop_succ_cons, List.drop_zero]
  after_results_simp
  rfl

set_option maxHeartbeats 4000000 in
theorem stageB_v30 (V : Valuation τ sig (Elt Ideal)) :
    (StableHlo.after opsB V (Proc.devRef .tc main_v30) : S2048.Idx → BitVec 1) = tPos (V (Proc.devRef .tc main_v23)) := by
  simp only [opsB, hostOps1, List.drop_succ_cons, List.drop_zero]
  after_results_simp
  rfl

set_option maxHeartbeats 4000000 in
theorem stageB_v32 (V : Valuation τ sig (Elt Ideal)) :
    (StableHlo.after opsB V (Proc.devRef .tc main_v32) : S2048.Idx → EReal) = tScaled (V (Proc.devRef .tc main_v23)) := by
  simp only [opsB, hostOps1, List.drop_succ_cons, List.drop_zero]
  after_results_simp
  rfl

set_option maxHeartbeats 4000000 in
theorem stageB_v33 (V : Valuation τ sig (Elt Ideal)) :
    (StableHlo.after opsB V (Proc.devRef .tc main_v33) : S2048.Idx → EReal) = tZero := by
  simp only [opsB, hostOps1, List.drop_succ_cons, List.drop_zero]
  after_results_simp
  rfl

set_option maxHeartbeats 4000000 in
/-- The second part of the first stretch leaves the earlier results as they are. -/
theorem stageB_keep (V : Valuation τ sig (Elt Ideal)) :
    StableHlo.after opsB V (Proc.devRef .tc main_v4) = V (Proc.devRef .tc main_v4)
    ∧ StableHlo.after opsB V (Proc.devRef .tc main_v8) = V (Proc.devRef .tc main_v8)
    ∧ StableHlo.after opsB V (Proc.devRef .tc main_v23) = V (Proc.devRef .tc main_v23) := by
  simp only [opsB, hostOps1, List.drop_succ_cons, List.drop_zero]
  refine ⟨?_, ?_, ?_⟩ <;> after_results_simp

set_option maxHeartbeats 4000000 in
theorem stage2_v34 (V : Valuation τ sig (Elt Ideal)) :
    (StableHlo.after (hostOps1_1 (F := Ideal)) V (Proc.devRef .tc main_v34) : S2048.Idx → EReal)
      = select (V (Proc.devRef .tc main_v30) : S2048.Idx → BitVec 1) (V (Proc.devRef .tc main_v32) : S2048.Idx → EReal)
          (V (Proc.devRef .tc main_v33) : S2048.Idx → EReal) := by
  after_results_simp
  rfl

set_option maxHeartbeats 4000000 in
theorem stage2_keep (V : Valuation τ sig (Elt Ideal)) :
    StableHlo.after (hostOps1_1 (F := Ideal)) V (Proc.devRef .tc main_v4) = V (Proc.devRef .tc main_v4)
    ∧ StableHlo.after (hostOps1_1 (F := Ideal)) V (Proc.devRef .tc main_v8) = V (Proc.devRef .tc main_v8)
    ∧ StableHlo.after (hostOps1_1 (F := Ideal)) V (Proc.devRef .tc main_v23) = V (Proc.devRef .tc main_v23)
    ∧ StableHlo.after (hostOps1_1 (F := Ideal)) V (Proc.devRef .tc main_v28) = V (Proc.devRef .tc main_v28) := by
  refine ⟨?_, ?_, ?_, ?_⟩ <;> after_results_simp

set_option maxHeartbeats 4000000 in
theorem stage3_v50 (V : Valuation τ sig (Elt Ideal)) :
    (StableHlo.after (hostOps1_2 (F := Ideal)) V (Proc.devRef .tc main_v50) : S_.Idx → EReal)
      = tLoss (tL1 (V (Proc.devRef .tc main_v4)) (tCorr (V (Proc.devRef .tc main_v34)) (V (Proc.devRef .tc main_v28))))
          (tCe (V (Proc.devRef .tc main_v23)) (V (Proc.devRef .tc main_v8))) := by
  after_results_simp
  rfl

/-! ## The stages on real data -/

open Cert.LossSpec

theorem hostAbsf_apply {s : Shape} {φ : FTy} (a : FVec Ideal s φ) (i : s.Idx) : Host.absf a i = max (a i) (-(a i)) := rfl
theorem hostNegf_apply {s : Shape} {φ : FTy} (a : FVec Ideal s φ) (i : s.Idx) : Host.negf a i = -(a i) := rfl
theorem hostLog_apply {s : Shape} {φ : FTy} (a : FVec Ideal s φ) (i : s.Idx) : Host.log a i = Ideal.log (a i) := rfl

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, fun a => ix1 a, fun i => (eq_ix1 i).symm, fun _ => rfl⟩
  rw [← Equiv.sum_comp e.symm f]
  rfl

theorem tMean_apply (s0 : FVec Ideal S2048x1 .f32) (m : Fin 2048 → ℝ)
    (h : ∀ (p : Fin 2048) (q : Fin 1), s0 (ix2 p q) = ((m p : ℝ) : EReal)) (p : Fin 2048) :
    tMean s0 (ix1 p) = ((m p / 50257 : ℝ) : EReal) := by
  unfold tMean
  refine (shapeCast_col_apply _ _ p).trans ?_
  rw [hostDivf_apply, h, broadcastInDim_scalar_apply, constant_apply, ofBits_50257_f32,
    div_coe_coe _ (by norm_num : (50257 : ℝ) ≠ 0)]

theorem tWrong_apply (s1 : FVec Ideal S2048x1 .f32) (w : Fin 2048 → ℝ)
    (h : ∀ (p : Fin 2048) (q : Fin 1), s1 (ix2 p q) = ((w p : ℝ) : EReal)) (j : S_.Idx) :
    tWrong s1 j = ((∑ p, w p : ℝ) : EReal) := by
  unfold tWrong
  rw [hostReduceAdd_apply, Ideal.hostReduceAdd_total _ (fun b => b.elim0), constant_apply, ofBits_zero_f32_coe, sum_idx2,
    sum_eq_coe_of_eq Finset.univ (fun a : Fin 2048 => ∑ b : Fin 1, s1 (ix2 a b)) w
      (fun a _ => by rw [Fin.sum_univ_one]; exact h a 0),
    coe_add_coe, zero_add]

theorem tLse_apply (s2 s3 : FVec Ideal S2048x1 .f32) (M E : Fin 2048 → ℝ)
    (h2 : ∀ (p : Fin 2048) (q : Fin 1), s2 (ix2 p q) = ((M p : ℝ) : EReal))
    (h3 : ∀ (p : Fin 2048) (q : Fin 1), s3 (ix2 p q) = ((E p : ℝ) : EReal)) (hE : ∀ p, 0 < E p) (p : Fin 2048) :
    tLse s2 s3 (ix1 p) = ((M p + Real.log (E p) : ℝ) : EReal) := by
  unfold tLse
  rw [addf_apply, hostLog_apply, shapeCast_col_apply s2 _ p, shapeCast_col_apply s3 _ p, h2, h3, log_coe_of_pos (hE p),
    coe_add_coe]

theorem tIdx_row (L : IVec S2048 32) (p : Fin 2048) : (tIdx L (ix2 p (0 : Fin 2))).toNat = p.val := by
  have e : (iotaInDim S2048 32 0 (ix1 p)).toNat = p.val := iotaInDim_vec_toNat (by norm_num) p
  unfold tIdx
  rw [concatenate_cols_left, broadcastInDim_col_apply]
  unfold tWrap
  rw [wrapIndex_apply _ _ _ _ (by rw [e]; have := p.isLt; omega)]
  exact e

theorem tIdx_col (L : IVec S2048 32) (p : Fin 2048) (h : (L (ix1 p)).toNat < 2 ^ 31) :
    tIdx L (ix2 p (1 : Fin 2)) = L (ix1 p) := by
  unfold tIdx
  rw [concatenate_cols_right, broadcastInDim_col_apply]
  exact wrapIndex_apply _ _ _ _ h

theorem tGath_apply (X : FVec Ideal S2048x50257 .f32) (L : IVec S2048 32) (lab : Fin 2048 → Fin 50257)
    (hl : ∀ p : Fin 2048, (L (ix1 p)).toNat = (lab p).val) (p : Fin 2048) :
    tGath X L (ix1 p) = X (ix2 p (lab p)) := by
  have hrow := tIdx_row L p
  have hcol : (tIdx L (ix2 p (1 : Fin 2))).toNat = (lab p).val := by
    rw [tIdx_col L p (by rw [hl]; have := (lab p).isLt; omega), hl]
  have h0' : (tIdx L (ix2 p (0 : Fin 2))).toNat < 2048 := by rw [hrow]; exact p.isLt
  have h1' : (tIdx L (ix2 p (1 : Fin 2))).toNat < 50257 := by rw [hcol]; exact (lab p).isLt
  unfold tGath
  refine (Cert.LibPointIndex.gather_point_apply (w := 32) gather_S2048x50257_S2048x2_S2048_n_01_n_n_01_1_11
    rfl rfl rfl rfl rfl rfl rfl (by norm_num) (by norm_num) X (tIdx L) p h0' h1').trans ?_
  have e0 : (⟨(tIdx L (ix2 p (0 : Fin 2))).toNat, h0'⟩ : Fin 2048) = p := Fin.ext hrow
  have e1 : (⟨(tIdx L (ix2 p (1 : Fin 2))).toNat, h1'⟩ : Fin 50257) = lab p := Fin.ext hcol
  rw [e0, e1]

theorem tVal_apply (mean g : FVec Ideal S2048 .f32) (a b : ℝ) (i : S2048.Idx) (hm : mean i = ((a : ℝ) : EReal))
    (hg : g i = ((b : ℝ) : EReal)) : tVal mean g i = ((max |a| |b| * 10 : ℝ) : EReal) := by
  unfold tVal
  rw [mulf_apply, maximumf_apply, hostAbsf_apply, hostAbsf_apply, hm, hg, max_neg_coe, max_neg_coe, max_coe_coe,
    broadcastInDim_scalar_apply, constant_apply, ofBits_ten_f32, coe_mul_coe]

theorem tF_apply (g : FVec Ideal S2048 .f32) (b : ℝ) (i : S2048.Idx) (hg : g i = ((b : ℝ) : EReal)) :
    select (tPos g) (tScaled g) tZero i = ((fneg b : ℝ) : EReal) := by
  rw [select_apply]
  unfold tPos tScaled tZero
  rw [cmpf_apply, mulf_apply, Ideal.cmpf_def, broadcastInDim_scalar_apply, broadcastInDim_scalar_apply, constant_apply,
    constant_apply, hg, ofBits_zero_f32_coe, ofBits_neg_ten_f32, select_cmp_ogt_coe, coe_mul_coe, ite_coe]
  rfl

theorem tCorr_apply (f val : FVec Ideal S2048 .f32) (a v : ℝ) (i : S2048.Idx) (hf : f i = ((a : ℝ) : EReal))
    (hv : val i = ((v : ℝ) : EReal)) : tCorr f val i = ((|a - v| - |a - (-10)| : ℝ) : EReal) := by
  unfold tCorr
  rw [subf_apply, hostAbsf_apply, hostAbsf_apply, subf_apply, subf_apply, hf, hv, broadcastInDim_scalar_apply,
    constant_apply, ofBits_neg_ten_f32, coe_sub_coe, coe_sub_coe, max_neg_coe, max_neg_coe, coe_sub_coe]

theorem tL1_apply (wrong : FVec Ideal S_ .f32) (corr : FVec Ideal S2048 .f32) (a : ℝ) (c : Fin 2048 → ℝ)
    (hw : ∀ j, wrong j = ((a : ℝ) : EReal)) (hc : ∀ p : Fin 2048, corr (ix1 p) = ((c p : ℝ) : EReal)) (j : S_.Idx) :
    tL1 wrong corr j = (((a + ∑ p, c p) / 102926336 : ℝ) : EReal) := by
  unfold tL1
  rw [hostDivf_apply, addf_apply, hw, hostReduceAdd_apply, Ideal.hostReduceAdd_total _ (fun b => b.elim0),
    constant_apply, constant_apply, ofBits_zero_f32_coe, ofBits_102926336_f32, sum_idx1,
    sum_eq_coe_of_eq Finset.univ (fun p : Fin 2048 => corr (ix1 p)) c (fun p _ => hc p),
    coe_add_coe, zero_add, coe_add_coe, div_coe_coe _ (by norm_num : (102926336 : ℝ) ≠ 0)]

theorem tCe_apply (g lse : FVec Ideal S2048 .f32) (a b : Fin 2048 → ℝ)
    (hg : ∀ p : Fin 2048, g (ix1 p) = ((a p : ℝ) : EReal)) (hl : ∀ p : Fin 2048, lse (ix1 p) = ((b p : ℝ) : EReal))
    (j : S_.Idx) : tCe g lse j = ((-((∑ p, (a p - b p)) / 2048) : ℝ) : EReal) := by
  unfold tCe
  rw [hostNegf_apply, hostDivf_apply, hostReduceAdd_apply, Ideal.hostReduceAdd_total _ (fun b => b.elim0),
    constant_apply, constant_apply, ofBits_zero_f32_coe, ofBits_2048_f32, sum_idx1,
    sum_eq_coe_of_eq Finset.univ (fun p : Fin 2048 => subf g lse (ix1 p)) (fun p => a p - b p)
      (fun p _ => by rw [subf_apply, hg, hl, coe_sub_coe]),
    coe_add_coe, zero_add, div_coe_coe _ (by norm_num : (2048 : ℝ) ≠ 0), neg_coe]

theorem tLoss_apply (l1 ce : FVec Ideal S_ .f32) (a b : ℝ) (j : S_.Idx) (h1 : l1 j = ((a : ℝ) : EReal))
    (h2 : ce j = ((b : ℝ) : EReal)) : tLoss l1 ce j = (((1 / 2) * a + (1 / 2) * b : ℝ) : EReal) := by
  unfold tLoss
  rw [addf_apply, mulf_apply, mulf_apply, constant_apply, ofBits_half_f32, h1, h2, coe_mul_coe, coe_mul_coe, coe_add_coe]

/-- The last result as the composition of the stages over what the lines read. -/
theorem tail_eq (W : Valuation τ sig (Elt Ideal)) :
    (StableHlo.after (tailOps (F := Ideal)).flatten W (Proc.devRef .tc main_v50) : S_.Idx → EReal)
      = tLoss
          (tL1 (tWrong (W (Proc.devRef .tc main_v0_1)))
            (tCorr
              (select (tPos (tGath (W (Proc.devRef .tc main_arg0)) (W (Proc.devRef .tc main_arg1))))
                (tScaled (tGath (W (Proc.devRef .tc main_arg0)) (W (Proc.devRef .tc main_arg1)))) tZero)
              (tVal (tMean (W (Proc.devRef .tc main_v0_0)))
                (tGath (W (Proc.devRef .tc main_arg0)) (W (Proc.devRef .tc main_arg1))))))
          (tCe (tGath (W (Proc.devRef .tc main_arg0)) (W (Proc.devRef .tc main_arg1)))
            (tLse (W (Proc.devRef .tc main_v0_2)) (W (Proc.devRef .tc main_v0_3)))) := by
  rw [tailOps_split, stage3_v50, stage2_v34, (stage2_keep _).1, (stage2_keep _).2.1, (stage2_keep _).2.2.1,
    (stage2_keep _).2.2.2, stageB_v28, stageB_v30, stageB_v32, stageB_v33, (stageB_keep _).1, (stageB_keep _).2.1,
    (stageB_keep _).2.2, stageA_v3, stageA_v4, stageA_v8, stageA_v23]

/-- From any buffer contents `W` whose four result arrays hold the rows' sums, sums of L1 terms, maxima and sums of
    exponentials of the real matrix `xr`, whose first argument holds `xr` and whose second holds the labels `lab`, the
    host lines leave in their last result the one-pass loss. -/
theorem tail_value (W : Valuation τ sig (Elt Ideal)) (xr : Fin 2048 → Fin 50257 → ℝ) (lab : Fin 2048 → Fin 50257)
    (h0 : ∀ (p : Fin 2048) (q : Fin 50257), (W (Proc.devRef .tc main_arg0) : S2048x50257.Idx → EReal) (ix2 p q) = ((xr p q : ℝ) : EReal))
    (hl : ∀ p : Fin 2048, ((W (Proc.devRef .tc main_arg1) : S2048.Idx → BitVec 32) (ix1 p)).toNat = (lab p).val)
    (h1 : ∀ (p : Fin 2048) (q : Fin 1), (W (Proc.devRef .tc main_v0_0) : S2048x1.Idx → EReal) (ix2 p q) = ((Cert.LossSpec.rowSum xr p : ℝ) : EReal))
    (h2 : ∀ (p : Fin 2048) (q : Fin 1), (W (Proc.devRef .tc main_v0_1) : S2048x1.Idx → EReal) (ix2 p q) = ((Cert.LossSpec.rowWrong xr p : ℝ) : EReal))
    (h3 : ∀ (p : Fin 2048) (q : Fin 1), (W (Proc.devRef .tc main_v0_2) : S2048x1.Idx → EReal) (ix2 p q) = ((Cert.LossSpec.rowMax xr p : ℝ) : EReal))
    (h4 : ∀ (p : Fin 2048) (q : Fin 1), (W (Proc.devRef .tc main_v0_3) : S2048x1.Idx → EReal) (ix2 p q) = ((Cert.LossSpec.rowExp xr p : ℝ) : EReal)) :
    (StableHlo.after (tailOps (F := Ideal)).flatten W (Proc.devRef .tc main_v50) : S_.Idx → EReal)
      = fun _ => ((Cert.LossSpec.lossK xr lab : ℝ) : EReal) := by
  have hE : ∀ p, 0 < rowExp xr p := fun p =>
    Finset.sum_pos (fun c _ => Real.exp_pos _) Finset.univ_nonempty
  have hg : ∀ p : Fin 2048, tGath (W (Proc.devRef .tc main_arg0)) (W (Proc.devRef .tc main_arg1)) (ix1 p)
      = ((gath xr lab p : ℝ) : EReal) := fun p =>
    (tGath_apply _ _ lab hl p).trans (h0 p (lab p))
  have hmean : ∀ p : Fin 2048, tMean (W (Proc.devRef .tc main_v0_0)) (ix1 p) = ((rowSum xr p / 50257 : ℝ) : EReal) :=
    tMean_apply _ _ h1
  have hval : ∀ p : Fin 2048,
      tVal (tMean (W (Proc.devRef .tc main_v0_0)))
        (tGath (W (Proc.devRef .tc main_arg0)) (W (Proc.devRef .tc main_arg1))) (ix1 p)
        = ((rowVal xr lab p : ℝ) : EReal) := fun p =>
    tVal_apply _ _ _ _ _ (hmean p) (hg p)
  have hf : ∀ p : Fin 2048,
      select (tPos (tGath (W (Proc.devRef .tc main_arg0)) (W (Proc.devRef .tc main_arg1))))
        (tScaled (tGath (W (Proc.devRef .tc main_arg0)) (W (Proc.devRef .tc main_arg1)))) tZero (ix1 p)
        = ((fneg (gath xr lab p) : ℝ) : EReal) := fun p =>
    tF_apply _ _ _ (hg p)
  have hlse : ∀ p : Fin 2048, tLse (W (Proc.devRef .tc main_v0_2)) (W (Proc.devRef .tc main_v0_3)) (ix1 p)
      = ((rowMax xr p + Real.log (rowExp xr p) : ℝ) : EReal) :=
    tLse_apply _ _ _ _ h3 h4 hE
  rw [tail_eq]
  funext j
  rw [tLoss_apply _ _ _ _ j
    (tL1_apply _ _ _ _ (tWrong_apply _ _ h2) (fun p => tCorr_apply _ _ _ _ _ (hf p) (hval p)) j)
    (tCe_apply _ _ _ _ hg hlse j)]
  rfl

end Stages

end Cert.KernelIdeal.Hand
end
-- ==== Proof.KIValue.lean ====
/-
  The idealized kernel's run with its result named: from real logits and labels in range, the last host line's
  buffer ends at the loss in its one-pass arrangement, and the two arguments end as they began.
-/
import proofs.«430646_j34110630265423_2_alg».proof.Proof.KIDefs
import proofs.«430646_j34110630265423_2_alg».proof.Proof.KIKit
import proofs.«430646_j34110630265423_2_alg».proof.Proof.KIFrame
import proofs.«430646_j34110630265423_2_alg».proof.Proof.KIArrays
import proofs.«430646_j34110630265423_2_alg».proof.Proof.KITail
import proofs.«430646_j34110630265423_2_alg».proof.Proof.Spec

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open scoped BigOperators

variable (m : (ℓ : Loc nD τ sig) → Buf (Elt Ideal) ℓ) (ρ : Dev nD → PrngReg)

/-- What the region and the host lines after it leave, read at the five arrays and at the labels: the first argument
    as it was, the four results at the rows' quantities (the arrays' closed forms), the labels untouched; the host
    lines then compute the one-pass loss from them. -/
theorem kernel_value (xr : Dev nD → Fin 2048 → Fin 50257 → ℝ) (lab : Dev nD → Fin 2048 → Fin 50257)
    (hx : ∀ c (p : Fin 2048) (q : Fin 50257), V m c main_arg0 (ix2 p q) = ((xr c p q : ℝ) : EReal))
    (hl : ∀ c (p : Fin 2048), (V m c main_arg1 (ix1 p)).toNat = (lab c p).val) :
    θ_run defs (onTc (τ := τ) (main (F := Ideal))) ⟨m, fun _ => 0, ρ⟩ (fun r => ∀ c : Dev nD,
      r.2.mem ((c.tc : Thread nD τ).loc main_v50) = (fun _ => ((Cert.LossSpec.lossK (xr c) (lab c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨?_, ?_, ?_⟩) (run_main (F := Ideal) m ρ)
  · refine ((h c).2 main_v50 (Pipeline.mem_restRefs_of main_v50 rfl (by decide))).trans ?_
    refine tail_value (Pipeline.withArrays spec0 c (V0 m c) fun w => (dats (F := Ideal) m 0 c).arrAt w cfg0.N)
      (xr c) (lab c) ?_ ?_ ?_ ?_ ?_ ?_
    · intro p q
      refine (congrFun (Pipeline.withArrays_arr spec0 launch0.win.arr_inj c (V0 m c) _ (0 : Fin 5)) (ix2 p q)).trans ?_
      refine (congrFun (((dats (F := Ideal) m 0 c).arrAt_in 0 rfl _).trans (A_eq m c 0)) (ix2 p q)).trans ?_
      exact hx c p q
    · intro p
      refine (congrArg BitVec.toNat (congrFun (Pipeline.withArrays_of_ne spec0 c (V0 m c) _ main_arg1 (by decide)) (ix1 p))).trans ?_
      exact hl c p
    · intro p q
      exact (congrFun (Pipeline.withArrays_arr spec0 launch0.win.arr_inj c (V0 m c) _ (1 : Fin 5)) (ix2 p q)).trans
        (arr1 m c (xr c) (hx c) p q)
    · intro p q
      exact (congrFun (Pipeline.withArrays_arr spec0 launch0.win.arr_inj c (V0 m c) _ (2 : Fin 5)) (ix2 p q)).trans
        (arr2 m c (xr c) (hx c) p q)
    · intro p q
      exact (congrFun (Pipeline.withArrays_arr spec0 launch0.win.arr_inj c (V0 m c) _ (3 : Fin 5)) (ix2 p q)).trans
        (arr3 m c (xr c) (hx c) p q)
    · intro p q
      exact (congrFun (Pipeline.withArrays_arr spec0 launch0.win.arr_inj c (V0 m c) _ (4 : Fin 5)) (ix2 p q)).trans
        (arr4 m c (xr c) (hx c) p q)
  · exact ((h c).1 0).trans (((dats (F := Ideal) m 0 c).arrAt_in 0 rfl _).trans ((A_eq m c 0).trans (V_main_arg0 m c)))
  · exact ((h c).2 main_arg1 (Pipeline.mem_restRefs_of main_arg1 rfl (by decide))).trans
      ((StableHlo.after_of_forall_not_mem _ _ (fun op hop => by
          obtain ⟨ops, hops, hop'⟩ := List.mem_flatten.mp hop
          exact tail_keeps ops hops op hop' main_arg1 (by decide))).trans
        ((Pipeline.withArrays_of_ne _ c (V0 m c) _ main_arg1 (by decide)).trans (V_main_arg1 m c)))

end Cert.KernelIdeal.Hand

end
-- ==== Proof.RefRun.lean ====
/-
  The reference program's run: every weakly fair execution terminates, the last line's buffer holding the program's
  operations composed stage by stage over the two arguments, and the arguments unchanged.

  The program is a straight line of 108 operations (the two functions it calls stand inlined at their calls). The line
  is cut into eight stretches, with a cut before each concatenate; for each stretch, from any buffer contents in which
  the arguments and the earlier stages still to be read hold their stage functions, the contents after the stretch hold
  the stage functions of the stages read later. Chaining the eight statements gives the last line's result as the last
  stage function of the two arguments.
-/
import proofs.«430646_j34110630265423_2_alg».proof.Proof.RefReadP

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 108 operations, in order (a called function's operations stand in its call's place, spelt `TRef.…`). -/
abbrev ops : List (HloOp τ sig (Elt F)) :=
  [ nullary main_v0 (iotaInDim S2048 32 0),
    nullary main_cst (constant S_ .f32 0x00000000#32),
    unary main_cst main_v1 (broadcastInDim S2048x50257 ![] bcast_S_S2048x50257 : (⟨S_, .f32⟩ : BufTy).Contents (Elt F) → (⟨S2048x50257, .f32⟩ : BufTy).Contents (Elt F)),
    binary main_arg0 main_v1 main_v2 (cmpf .ogt : (⟨S2048x50257, .f32⟩ : BufTy).Contents (Elt F) → (⟨S2048x50257, .f32⟩ : BufTy).Contents (Elt F) → (⟨S2048x50257, .i1⟩ : BufTy).Contents (Elt F)),
    nullary main_cst_0 (constant S_ .f32 0xC1200000#32),
    unary main_cst_0 main_v3 (broadcastInDim S2048x50257 ![] bcast_S_S2048x50257 : (⟨S_, .f32⟩ : BufTy).Contents (Elt F) → (⟨S2048x50257, .f32⟩ : BufTy).Contents (Elt F)),
    binary main_arg0 main_v3 main_v4 (mulf : (⟨S2048x50257, .f32⟩ : BufTy).Contents (Elt F) → (⟨S2048x50257, .f32⟩ : BufTy).Contents (Elt F) → (⟨S2048x50257, .f32⟩ : BufTy).Contents (Elt F)),
    nullary main_cst_1 (constant S_ .f32 0x00000000#32),
    unary main_cst_1 main_v5 (broadcastInDim S2048x50257 ![] bcast_S_S2048x50257 : (⟨S_, .f32⟩ : BufTy).Contents (Elt F) → (⟨S2048x50257, .f32⟩ : BufTy).Contents (Elt F)),
    TRef.ternary (TRef.of (T := ⟨S2048x50257, .i1⟩) main_v2) (TRef.of (T := ⟨S2048x50257, .f32⟩) main_v4) (TRef.of (T := ⟨S2048x50257, .f32⟩) main_v5) (TRef.of (T := ⟨S2048x50257, .f32⟩) main_v6) select,
    nullary main_c (constantI S_ 32 0#32),
    unary main_c main_v7 (broadcastInDim S2048 ![] bcast_S_S2048 : (⟨S_, .i32⟩ : BufTy).Contents (Elt F) → (⟨S2048, .i32⟩ : BufTy).Contents (Elt F)),
    binary main_v0 main_v7 main_v8 (cmpi .slt : (⟨S2048, .i32⟩ : BufTy).Contents (Elt F) → (⟨S2048, .i32⟩ : BufTy).Contents (Elt F) → (⟨S2048, .i1⟩ : BufTy).Contents (Elt F)),
    nullary main_c_2 (constantI S_ 32 2048#32),
    unary main_c_2 main_v9 (broadcastInDim S2048 ![] bcast_S_S2048 : (⟨S_, .i32⟩ : BufTy).Contents (Elt F) → (⟨S2048, .i32⟩ : BufTy).Contents (Elt F)),
    binary main_v0 main_v9 main_v10 (addi : (⟨S2048, .i32⟩ : BufTy).Contents (Elt F) → (⟨S2048, .i32⟩ : BufTy).Contents (Elt F) → (⟨S2048, .i32⟩ : BufTy).Contents (Elt F)),
    ternary main_v8 main_v10 main_v0 main_v11 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_3 (constantI S_ 32 0#32),
    unary main_c_3 main_v12 (broadcastInDim S2048 ![] bcast_S_S2048 : (⟨S_, .i32⟩ : BufTy).Contents (Elt F) → (⟨S2048, .i32⟩ : BufTy).Contents (Elt F)),
    binary main_arg1 main_v12 main_v13 (cmpi .slt : (⟨S2048, .i32⟩ : BufTy).Contents (Elt F) → (⟨S2048, .i32⟩ : BufTy).Contents (Elt F) → (⟨S2048, .i1⟩ : BufTy).Contents (Elt F)),
    nullary main_c_4 (constantI S_ 32 50257#32),
    unary main_c_4 main_v14 (broadcastInDim S2048 ![] bcast_S_S2048 : (⟨S_, .i32⟩ : BufTy).Contents (Elt F) → (⟨S2048, .i32⟩ : BufTy).Contents (Elt F)),
    binary main_arg1 main_v14 main_v15 (addi : (⟨S2048, .i32⟩ : BufTy).Contents (Elt F) → (⟨S2048, .i32⟩ : BufTy).Contents (Elt F) → (⟨S2048, .i32⟩ : BufTy).Contents (Elt F)),
    ternary main_v13 main_v15 main_arg1 main_v16 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v11 main_v17 (broadcastInDim S2048x1 ![0] bcast_S2048_S2048x1_0 : (⟨S2048, .i32⟩ : BufTy).Contents (Elt F) → (⟨S2048x1, .i32⟩ : BufTy).Contents (Elt F)),
    unary main_v16 main_v18 (broadcastInDim S2048x1 ![0] bcast_S2048_S2048x1_0 : (⟨S2048, .i32⟩ : BufTy).Contents (Elt F) → (⟨S2048x1, .i32⟩ : BufTy).Contents (Elt F)),
    binary main_v17 main_v18 main_v19 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    binary main_arg0 main_v19 main_v20 ((fun x i => Host.gather gather_S2048x50257_S2048x2_S2048_n_01_n_n_01_1_11 x i) : (⟨S2048x50257, .f32⟩ : BufTy).Contents (Elt F) → (⟨S2048x2, .i32⟩ : BufTy).Contents (Elt F) → (⟨S2048, .f32⟩ : BufTy).Contents (Elt F)),
    nullary main_cst_5 (constant S_ .f32 0x00000000#32),
    binary main_arg0 main_cst_5 main_v21 ((fun x v => Host.reduceAdd x v reducesTo_S2048x50257_S2048_d1 h_S_) : (⟨S2048x50257, .f32⟩ : BufTy).Contents (Elt F) → (⟨S_, .f32⟩ : BufTy).Contents (Elt F) → (⟨S2048, .f32⟩ : BufTy).Contents (Elt F)),
    nullary main_cst_6 (constant S_ .f32 0x47445100#32),
    unary main_cst_6 main_v22 (broadcastInDim S2048 ![] bcast_S_S2048 : (⟨S_, .f32⟩ : BufTy).Contents (Elt F) → (⟨S2048, .f32⟩ : BufTy).Contents (Elt F)),
    binary main_v21 main_v22 main_v23 (Host.divf : (⟨S2048, .f32⟩ : BufTy).Contents (Elt F) → (⟨S2048, .f32⟩ : BufTy).Contents (Elt F) → (⟨S2048, .f32⟩ : BufTy).Contents (Elt F)),
    unary main_v23 main_v24 (Host.absf : (⟨S2048, .f32⟩ : BufTy).Contents (Elt F) → (⟨S2048, .f32⟩ : BufTy).Contents (Elt F)),
    unary main_v20 main_v25 (Host.absf : (⟨S2048, .f32⟩ : BufTy).Contents (Elt F) → (⟨S2048, .f32⟩ : BufTy).Contents (Elt F)),
    binary main_v24 main_v25 main_v26 (maximumf : (⟨S2048, .f32⟩ : BufTy).Contents (Elt F) → (⟨S2048, .f32⟩ : BufTy).Contents (Elt F) → (⟨S2048, .f32⟩ : BufTy).Contents (Elt F)),
    nullary main_cst_7 (constant S_ .f32 0x41200000#32),
    unary main_cst_7 main_v27 (broadcastInDim S2048 ![] bcast_S_S2048 : (⟨S_, .f32⟩ : BufTy).Contents (Elt F) → (⟨S2048, .f32⟩ : BufTy).Contents (Elt F)),
    binary main_v26 main_v27 main_v28 (mulf : (⟨S2048, .f32⟩ : BufTy).Contents (Elt F) → (⟨S2048, .f32⟩ : BufTy).Contents (Elt F) → (⟨S2048, .f32⟩ : BufTy).Contents (Elt F)),
    nullary main_cst_8 (constant S_ .f32 0xC1200000#32),
    unary main_cst_8 main_v29 (broadcastInDim S2048x50257 ![] bcast_S_S2048x50257 : (⟨S_, .f32⟩ : BufTy).Contents (Elt F) → (⟨S2048x50257, .f32⟩ : BufTy).Contents (Elt F)),
    nullary main_c_9 (constantI S_ 32 0#32),
    unary main_c_9 main_v30 (broadcastInDim S2048 ![] bcast_S_S2048 : (⟨S_, .i32⟩ : BufTy).Contents (Elt F) → (⟨S2048, .i32⟩ : BufTy).Contents (Elt F)),
    binary main_v0 main_v30 main_v31 (cmpi .slt : (⟨S2048, .i32⟩ : BufTy).Contents (Elt F) → (⟨S2048, .i32⟩ : BufTy).Contents (Elt F) → (⟨S2048, .i1⟩ : BufTy).Contents (Elt F)),
    nullary main_c_10 (constantI S_ 32 2048#32),
    unary main_c_10 main_v32 (broadcastInDim S2048 ![] bcast_S_S2048 : (⟨S_, .i32⟩ : BufTy).Contents (Elt F) → (⟨S2048, .i32⟩ : BufTy).Contents (Elt F)),
    binary main_v0 main_v32 main_v33 (addi : (⟨S2048, .i32⟩ : BufTy).Contents (Elt F) → (⟨S2048, .i32⟩ : BufTy).Contents (Elt F) → (⟨S2048, .i32⟩ : BufTy).Contents (Elt F)),
    ternary main_v31 main_v33 main_v0 main_v34 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_11 (constantI S_ 32 0#32),
    unary main_c_11 main_v35 (broadcastInDim S2048 ![] bcast_S_S2048 : (⟨S_, .i32⟩ : BufTy).Contents (Elt F) → (⟨S2048, .i32⟩ : BufTy).Contents (Elt F)),
    binary main_arg1 main_v35 main_v36 (cmpi .slt : (⟨S2048, .i32⟩ : BufTy).Contents (Elt F) → (⟨S2048, .i32⟩ : BufTy).Contents (Elt F) → (⟨S2048, .i1⟩ : BufTy).Contents (Elt F)),
    nullary main_c_12 (constantI S_ 32 50257#32),
    unary main_c_12 main_v37 (broadcastInDim S2048 ![] bcast_S_S2048 : (⟨S_, .i32⟩ : BufTy).Contents (Elt F) → (⟨S2048, .i32⟩ : BufTy).Contents (Elt F)),
    binary main_arg1 main_v37 main_v38 (addi : (⟨S2048, .i32⟩ : BufTy).Contents (Elt F) → (⟨S2048, .i32⟩ : BufTy).Contents (Elt F) → (⟨S2048, .i32⟩ : BufTy).Contents (Elt F)),
    ternary main_v36 main_v38 main_arg1 main_v39 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v34 main_v40 (broadcastInDim S2048x1 ![0] bcast_S2048_S2048x1_0 : (⟨S2048, .i32⟩ : BufTy).Contents (Elt F) → (⟨S2048x1, .i32⟩ : BufTy).Contents (Elt F)),
    unary main_v39 main_v41 (broadcastInDim S2048x1 ![0] bcast_S2048_S2048x1_0 : (⟨S2048, .i32⟩ : BufTy).Contents (Elt F) → (⟨S2048x1, .i32⟩ : BufTy).Contents (Elt F)),
    binary main_v40 main_v41 main_v42 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    ternary main_v29 main_v42 main_v28 main_v43 ((fun x i u => Host.scatter scatter_S2048x50257_S2048x2_S2048_n_01_01_1 (fun _ b => b) x i u) : (⟨S2048x50257, .f32⟩ : BufTy).Contents (Elt F) → (⟨S2048x2, .i32⟩ : BufTy).Contents (Elt F) → (⟨S2048, .f32⟩ : BufTy).Contents (Elt F) → (⟨S2048x50257, .f32⟩ : BufTy).Contents (Elt F)),
    binary main_v6 main_v43 main_v44 (subf : (⟨S2048x50257, .f32⟩ : BufTy).Contents (Elt F) → (⟨S2048x50257, .f32⟩ : BufTy).Contents (Elt F) → (⟨S2048x50257, .f32⟩ : BufTy).Contents (Elt F)),
    unary main_v44 main_v45 (Host.absf : (⟨S2048x50257, .f32⟩ : BufTy).Contents (Elt F) → (⟨S2048x50257, .f32⟩ : BufTy).Contents (Elt F)),
    nullary main_cst_13 (constant S_ .f32 0x00000000#32),
    binary main_v45 main_cst_13 main_v46 ((fun x v => Host.reduceAdd x v reducesTo_S2048x50257_S_d0_1 h_S_) : (⟨S2048x50257, .f32⟩ : BufTy).Contents (Elt F) → (⟨S_, .f32⟩ : BufTy).Contents (Elt F) → (⟨S_, .f32⟩ : BufTy).Contents (Elt F)),
    nullary main_cst_14 (constant S_ .f32 0x4CC45100#32),
    binary main_v46 main_cst_14 main_v47 (Host.divf : (⟨S_, .f32⟩ : BufTy).Contents (Elt F) → (⟨S_, .f32⟩ : BufTy).Contents (Elt F) → (⟨S_, .f32⟩ : BufTy).Contents (Elt F)),
    TRef.nullary (TRef.of (T := ⟨S_, .f32⟩) main_call1_cst) (constant S_ .f32 0xFF800000#32),
    TRef.binary (TRef.of (T := ⟨S2048x50257, .f32⟩) main_arg0) (TRef.of (T := ⟨S_, .f32⟩) main_call1_cst) (TRef.of (T := ⟨S2048, .f32⟩) main_call1_v0) (fun x v => Host.reduce FloatOps.maximumf x v reducesTo_S2048x50257_S2048_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S2048, .f32⟩) main_call1_v1) (broadcastInDim S2048 ![] bcast_S_S2048),
    TRef.binary (TRef.of (T := ⟨S2048, .f32⟩) main_call1_v1) (TRef.of (T := ⟨S2048, .f32⟩) main_call1_v0) (TRef.of (T := ⟨S2048, .f32⟩) main_call1_v2) maximumf,
    TRef.unary (TRef.of (T := ⟨S2048, .f32⟩) main_call1_v2) (TRef.of (T := ⟨S2048x1, .f32⟩) main_call1_v3) (broadcastInDim S2048x1 ![0] bcast_S2048_S2048x1_0),
    TRef.unary (TRef.of (T := ⟨S2048x1, .f32⟩) main_call1_v3) (TRef.of (T := ⟨S2048x50257, .f32⟩) main_call1_v4) (broadcastInDim S2048x50257 ![0, 1] bcast_S2048x1_S2048x50257_0_1),
    TRef.binary (TRef.of (T := ⟨S2048x50257, .f32⟩) main_arg0) (TRef.of (T := ⟨S2048x50257, .f32⟩) main_call1_v4) (TRef.of (T := ⟨S2048x50257, .f32⟩) main_call1_v5) subf,
    TRef.unary (TRef.of (T := ⟨S2048x50257, .f32⟩) main_call1_v5) (TRef.of (T := ⟨S2048x50257, .f32⟩) main_call1_v6) Host.exp,
    TRef.nullary (TRef.of (T := ⟨S_, .f32⟩) main_call1_cst_1) (constant S_ .f32 0x00000000#32),
    TRef.binary (TRef.of (T := ⟨S2048x50257, .f32⟩) main_call1_v6) (TRef.of (T := ⟨S_, .f32⟩) main_call1_cst_1) (TRef.of (T := ⟨S2048, .f32⟩) main_call1_v7) (fun x v => Host.reduceAdd x v reducesTo_S2048x50257_S2048_d1 h_S_),
    TRef.unary (TRef.of (T := ⟨S2048, .f32⟩) main_call1_v7) (TRef.of (T := ⟨S2048x1, .f32⟩) main_call1_v8) (broadcastInDim S2048x1 ![0] bcast_S2048_S2048x1_0),
    TRef.unary (TRef.of (T := ⟨S2048x1, .f32⟩) main_call1_v8) (TRef.of (T := ⟨S2048x1, .f32⟩) main_call1_v9) Host.log,
    TRef.unary (TRef.of (T := ⟨S2048x1, .f32⟩) main_call1_v9) (TRef.of (T := ⟨S2048x50257, .f32⟩) main_call1_v10) (broadcastInDim S2048x50257 ![0, 1] bcast_S2048x1_S2048x50257_0_1),
    TRef.binary (TRef.of (T := ⟨S2048x50257, .f32⟩) main_call1_v5) (TRef.of (T := ⟨S2048x50257, .f32⟩) main_call1_v10) (TRef.of (T := ⟨S2048x50257, .f32⟩) main_v48) subf,
    nullary main_c_15 (constantI S_ 32 0#32),
    unary main_c_15 main_v49 (broadcastInDim S2048 ![] bcast_S_S2048 : (⟨S_, .i32⟩ : BufTy).Contents (Elt F) → (⟨S2048, .i32⟩ : BufTy).Contents (Elt F)),
    binary main_v0 main_v49 main_v50 (cmpi .slt : (⟨S2048, .i32⟩ : BufTy).Contents (Elt F) → (⟨S2048, .i32⟩ : BufTy).Contents (Elt F) → (⟨S2048, .i1⟩ : BufTy).Contents (Elt F)),
    nullary main_c_16 (constantI S_ 32 2048#32),
    unary main_c_16 main_v51 (broadcastInDim S2048 ![] bcast_S_S2048 : (⟨S_, .i32⟩ : BufTy).Contents (Elt F) → (⟨S2048, .i32⟩ : BufTy).Contents (Elt F)),
    binary main_v0 main_v51 main_v52 (addi : (⟨S2048, .i32⟩ : BufTy).Contents (Elt F) → (⟨S2048, .i32⟩ : BufTy).Contents (Elt F) → (⟨S2048, .i32⟩ : BufTy).Contents (Elt F)),
    ternary main_v50 main_v52 main_v0 main_v53 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_17 (constantI S_ 32 0#32),
    unary main_c_17 main_v54 (broadcastInDim S2048 ![] bcast_S_S2048 : (⟨S_, .i32⟩ : BufTy).Contents (Elt F) → (⟨S2048, .i32⟩ : BufTy).Contents (Elt F)),
    binary main_arg1 main_v54 main_v55 (cmpi .slt : (⟨S2048, .i32⟩ : BufTy).Contents (Elt F) → (⟨S2048, .i32⟩ : BufTy).Contents (Elt F) → (⟨S2048, .i1⟩ : BufTy).Contents (Elt F)),
    nullary main_c_18 (constantI S_ 32 50257#32),
    unary main_c_18 main_v56 (broadcastInDim S2048 ![] bcast_S_S2048 : (⟨S_, .i32⟩ : BufTy).Contents (Elt F) → (⟨S2048, .i32⟩ : BufTy).Contents (Elt F)),
    binary main_arg1 main_v56 main_v57 (addi : (⟨S2048, .i32⟩ : BufTy).Contents (Elt F) → (⟨S2048, .i32⟩ : BufTy).Contents (Elt F) → (⟨S2048, .i32⟩ : BufTy).Contents (Elt F)),
    ternary main_v55 main_v57 main_arg1 main_v58 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v53 main_v59 (broadcastInDim S2048x1 ![0] bcast_S2048_S2048x1_0 : (⟨S2048, .i32⟩ : BufTy).Contents (Elt F) → (⟨S2048x1, .i32⟩ : BufTy).Contents (Elt F)),
    unary main_v58 main_v60 (broadcastInDim S2048x1 ![0] bcast_S2048_S2048x1_0 : (⟨S2048, .i32⟩ : BufTy).Contents (Elt F) → (⟨S2048x1, .i32⟩ : BufTy).Contents (Elt F)),
    binary main_v59 main_v60 main_v61 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    binary main_v48 main_v61 main_v62 ((fun x i => Host.gather gather_S2048x50257_S2048x2_S2048_n_01_n_n_01_1_11 x i) : (⟨S2048x50257, .f32⟩ : BufTy).Contents (Elt F) → (⟨S2048x2, .i32⟩ : BufTy).Contents (Elt F) → (⟨S2048, .f32⟩ : BufTy).Contents (Elt F)),
    nullary main_cst_19 (constant S_ .f32 0x00000000#32),
    binary main_v62 main_cst_19 main_v63 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_20 (constant S_ .f32 0x45000000#32),
    binary main_v63 main_cst_20 main_v64 (Host.divf : (⟨S_, .f32⟩ : BufTy).Contents (Elt F) → (⟨S_, .f32⟩ : BufTy).Contents (Elt F) → (⟨S_, .f32⟩ : BufTy).Contents (Elt F)),
    unary main_v64 main_v65 (Host.negf : (⟨S_, .f32⟩ : BufTy).Contents (Elt F) → (⟨S_, .f32⟩ : BufTy).Contents (Elt F)),
    nullary main_cst_21 (constant S_ .f32 0x3F000000#32),
    binary main_cst_21 main_v47 main_v66 (mulf : (⟨S_, .f32⟩ : BufTy).Contents (Elt F) → (⟨S_, .f32⟩ : BufTy).Contents (Elt F) → (⟨S_, .f32⟩ : BufTy).Contents (Elt F)),
    nullary main_cst_22 (constant S_ .f32 0x3F000000#32),
    binary main_cst_22 main_v65 main_v67 (mulf : (⟨S_, .f32⟩ : BufTy).Contents (Elt F) → (⟨S_, .f32⟩ : BufTy).Contents (Elt F) → (⟨S_, .f32⟩ : BufTy).Contents (Elt F)),
    binary main_v66 main_v67 main_v68 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., binary_bufs_sub .., unary_bufs_sub .., nullary_bufs_sub .., binary_bufs_sub .., nullary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., nullary_bufs_sub .., binary_bufs_sub .., unary_bufs_sub .., nullary_bufs_sub .., binary_bufs_sub .., nullary_bufs_sub .., binary_bufs_sub .., binary_bufs_sub ..⟩

/-- Every operation of the line determines its results. -/
theorem ops_fresh : (ops : List (HloOp τ sig (Elt F))).Forall fun op => op.fresh = ∅ := by
  simp only [List.forall_cons, List.Forall]
  repeat' constructor

/-! ## The eight stretches

Each stretch lists its operations at the buffers themselves: an operation of an inlined function is the same operation
at its typed references' buffers, the transport along a literal reference's type being the identity. -/

/-- Operations 1 to 10 of @main. -/
abbrev c1 : List (HloOp τ sig (Elt F)) :=
  [ nullary main_v0 (iotaInDim S2048 32 0),
    nullary main_cst (constant S_ .f32 0x00000000#32),
    unary main_cst main_v1 (broadcastInDim S2048x50257 ![] bcast_S_S2048x50257 : (⟨S_, .f32⟩ : BufTy).Contents (Elt F) → (⟨S2048x50257, .f32⟩ : BufTy).Contents (Elt F)),
    binary main_arg0 main_v1 main_v2 (cmpf .ogt : (⟨S2048x50257, .f32⟩ : BufTy).Contents (Elt F) → (⟨S2048x50257, .f32⟩ : BufTy).Contents (Elt F) → (⟨S2048x50257, .i1⟩ : BufTy).Contents (Elt F)),
    nullary main_cst_0 (constant S_ .f32 0xC1200000#32),
    unary main_cst_0 main_v3 (broadcastInDim S2048x50257 ![] bcast_S_S2048x50257 : (⟨S_, .f32⟩ : BufTy).Contents (Elt F) → (⟨S2048x50257, .f32⟩ : BufTy).Contents (Elt F)),
    binary main_arg0 main_v3 main_v4 (mulf : (⟨S2048x50257, .f32⟩ : BufTy).Contents (Elt F) → (⟨S2048x50257, .f32⟩ : BufTy).Contents (Elt F) → (⟨S2048x50257, .f32⟩ : BufTy).Contents (Elt F)),
    nullary main_cst_1 (constant S_ .f32 0x00000000#32),
    unary main_cst_1 main_v5 (broadcastInDim S2048x50257 ![] bcast_S_S2048x50257 : (⟨S_, .f32⟩ : BufTy).Contents (Elt F) → (⟨S2048x50257, .f32⟩ : BufTy).Contents (Elt F)),
    ternary main_v2 main_v4 main_v5 main_v6 (select : (⟨S2048x50257, .i1⟩ : BufTy).Contents (Elt F) → (⟨S2048x50257, .f32⟩ : BufTy).Contents (Elt F) → (⟨S2048x50257, .f32⟩ : BufTy).Contents (Elt F) → (⟨S2048x50257, .f32⟩ : BufTy).Contents (Elt F)) ]

/-- From contents holding the two arguments and the earlier stages that are still read, operations 1 to 10 leave the
    arguments as they were and every stage read later at its stage function of the arguments. -/
theorem c1_spec (V : Valuation τ sig (Elt F)) (x0 : (⟨S2048x50257, .f32⟩ : BufTy).Contents (Elt F)) (x1 : (⟨S2048, .i32⟩ : BufTy).Contents (Elt F))
    (h_main_arg0 : V (Proc.devRef (τ := τ) .tc main_arg0) = x0)
    (h_main_arg1 : V (Proc.devRef (τ := τ) .tc main_arg1) = x1) :
    after c1 V (Proc.devRef (τ := τ) .tc main_arg0) = x0
    ∧ after c1 V (Proc.devRef (τ := τ) .tc main_arg1) = x1
    ∧ after c1 V (Proc.devRef (τ := τ) .tc main_v0) = Cert.ReferenceIdeal.ReadP.val_main_v0 (F := F)
    ∧ after c1 V (Proc.devRef (τ := τ) .tc main_v6) = Cert.ReferenceIdeal.ReadP.val_main_v6 (F := F) x0 := by
  refine ⟨?_, ?_, ?_, ?_⟩
  · after_results_simp <;> exact h_main_arg0
  · after_results_simp <;> exact h_main_arg1
  · after_results_simp <;> (try simp only [h_main_arg0]) <;> (try rw [h_main_arg0]) <;> rfl
  · after_results_simp <;> (try simp only [h_main_arg0]) <;> (try rw [h_main_arg0]) <;> rfl

/-- Operations 11 to 26 of @main. -/
abbrev c2 : List (HloOp τ sig (Elt F)) :=
  [ nullary main_c (constantI S_ 32 0#32),
    unary main_c main_v7 (broadcastInDim S2048 ![] bcast_S_S2048 : (⟨S_, .i32⟩ : BufTy).Contents (Elt F) → (⟨S2048, .i32⟩ : BufTy).Contents (Elt F)),
    binary main_v0 main_v7 main_v8 (cmpi .slt : (⟨S2048, .i32⟩ : BufTy).Contents (Elt F) → (⟨S2048, .i32⟩ : BufTy).Contents (Elt F) → (⟨S2048, .i1⟩ : BufTy).Contents (Elt F)),
    nullary main_c_2 (constantI S_ 32 2048#32),
    unary main_c_2 main_v9 (broadcastInDim S2048 ![] bcast_S_S2048 : (⟨S_, .i32⟩ : BufTy).Contents (Elt F) → (⟨S2048, .i32⟩ : BufTy).Contents (Elt F)),
    binary main_v0 main_v9 main_v10 (addi : (⟨S2048, .i32⟩ : BufTy).Contents (Elt F) → (⟨S2048, .i32⟩ : BufTy).Contents (Elt F) → (⟨S2048, .i32⟩ : BufTy).Contents (Elt F)),
    ternary main_v8 main_v10 main_v0 main_v11 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_3 (constantI S_ 32 0#32),
    unary main_c_3 main_v12 (broadcastInDim S2048 ![] bcast_S_S2048 : (⟨S_, .i32⟩ : BufTy).Contents (Elt F) → (⟨S2048, .i32⟩ : BufTy).Contents (Elt F)),
    binary main_arg1 main_v12 main_v13 (cmpi .slt : (⟨S2048, .i32⟩ : BufTy).Contents (Elt F) → (⟨S2048, .i32⟩ : BufTy).Contents (Elt F) → (⟨S2048, .i1⟩ : BufTy).Contents (Elt F)),
    nullary main_c_4 (constantI S_ 32 50257#32),
    unary main_c_4 main_v14 (broadcastInDim S2048 ![] bcast_S_S2048 : (⟨S_, .i32⟩ : BufTy).Contents (Elt F) → (⟨S2048, .i32⟩ : BufTy).Contents (Elt F)),
    binary main_arg1 main_v14 main_v15 (addi : (⟨S2048, .i32⟩ : BufTy).Contents (Elt F) → (⟨S2048, .i32⟩ : BufTy).Contents (Elt F) → (⟨S2048, .i32⟩ : BufTy).Contents (Elt F)),
    ternary main_v13 main_v15 main_arg1 main_v16 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v11 main_v17 (broadcastInDim S2048x1 ![0] bcast_S2048_S2048x1_0 : (⟨S2048, .i32⟩ : BufTy).Contents (Elt F) → (⟨S2048x1, .i32⟩ : BufTy).Contents (Elt F)),
    unary main_v16 main_v18 (broadcastInDim S2048x1 ![0] bcast_S2048_S2048x1_0 : (⟨S2048, .i32⟩ : BufTy).Contents (Elt F) → (⟨S2048x1, .i32⟩ : BufTy).Contents (Elt F)) ]

/-- From contents holding the two arguments and the earlier stages that are still read, operations 11 to 26 leave the
    arguments as they were and every stage read later at its stage function of the arguments. -/
theorem c2_spec (V : Valuation τ sig (Elt F)) (x0 : (⟨S2048x50257, .f32⟩ : BufTy).Contents (Elt F)) (x1 : (⟨S2048, .i32⟩ : BufTy).Contents (Elt F))
    (h_main_arg0 : V (Proc.devRef (τ := τ) .tc main_arg0) = x0)
    (h_main_arg1 : V (Proc.devRef (τ := τ) .tc main_arg1) = x1)
    (h_main_v0 : V (Proc.devRef (τ := τ) .tc main_v0) = Cert.ReferenceIdeal.ReadP.val_main_v0 (F := F))
    (h_main_v6 : V (Proc.devRef (τ := τ) .tc main_v6) = Cert.ReferenceIdeal.ReadP.val_main_v6 (F := F) x0) :
    after c2 V (Proc.devRef (τ := τ) .tc main_arg0) = x0
    ∧ after c2 V (Proc.devRef (τ := τ) .tc main_arg1) = x1
    ∧ after c2 V (Proc.devRef (τ := τ) .tc main_v0) = Cert.ReferenceIdeal.ReadP.val_main_v0 (F := F)
    ∧ after c2 V (Proc.devRef (τ := τ) .tc main_v6) = Cert.ReferenceIdeal.ReadP.val_main_v6 (F := F) x0
    ∧ after c2 V (Proc.devRef (τ := τ) .tc main_v17) = Cert.ReferenceIdeal.ReadP.val_main_v17 (F := F)
    ∧ after c2 V (Proc.devRef (τ := τ) .tc main_v18) = Cert.ReferenceIdeal.ReadP.val_main_v18 (F := F) x1 := by
  refine ⟨?_, ?_, ?_, ?_, ?_, ?_⟩
  · after_results_simp <;> exact h_main_arg0
  · after_results_simp <;> exact h_main_arg1
  · after_results_simp <;> exact h_main_v0
  · after_results_simp <;> exact h_main_v6
  · after_results_simp <;> (try simp only [h_main_arg1, h_main_v0]) <;> (try rw [h_main_arg1]) <;> (try rw [h_main_v0]) <;> rfl
  · after_results_simp <;> (try simp only [h_main_arg1, h_main_v0]) <;> (try rw [h_main_arg1]) <;> (try rw [h_main_v0]) <;> rfl

/-- Operations 27 to 39 of @main. -/
abbrev c3 : List (HloOp τ sig (Elt F)) :=
  [ binary main_v17 main_v18 main_v19 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    binary main_arg0 main_v19 main_v20 ((fun x i => Host.gather gather_S2048x50257_S2048x2_S2048_n_01_n_n_01_1_11 x i) : (⟨S2048x50257, .f32⟩ : BufTy).Contents (Elt F) → (⟨S2048x2, .i32⟩ : BufTy).Contents (Elt F) → (⟨S2048, .f32⟩ : BufTy).Contents (Elt F)),
    nullary main_cst_5 (constant S_ .f32 0x00000000#32),
    binary main_arg0 main_cst_5 main_v21 ((fun x v => Host.reduceAdd x v reducesTo_S2048x50257_S2048_d1 h_S_) : (⟨S2048x50257, .f32⟩ : BufTy).Contents (Elt F) → (⟨S_, .f32⟩ : BufTy).Contents (Elt F) → (⟨S2048, .f32⟩ : BufTy).Contents (Elt F)),
    nullary main_cst_6 (constant S_ .f32 0x47445100#32),
    unary main_cst_6 main_v22 (broadcastInDim S2048 ![] bcast_S_S2048 : (⟨S_, .f32⟩ : BufTy).Contents (Elt F) → (⟨S2048, .f32⟩ : BufTy).Contents (Elt F)),
    binary main_v21 main_v22 main_v23 (Host.divf : (⟨S2048, .f32⟩ : BufTy).Contents (Elt F) → (⟨S2048, .f32⟩ : BufTy).Contents (Elt F) → (⟨S2048, .f32⟩ : BufTy).Contents (Elt F)),
    unary main_v23 main_v24 (Host.absf : (⟨S2048, .f32⟩ : BufTy).Contents (Elt F) → (⟨S2048, .f32⟩ : BufTy).Contents (Elt F)),
    unary main_v20 main_v25 (Host.absf : (⟨S2048, .f32⟩ : BufTy).Contents (Elt F) → (⟨S2048, .f32⟩ : BufTy).Contents (Elt F)),
    binary main_v24 main_v25 main_v26 (maximumf : (⟨S2048, .f32⟩ : BufTy).Contents (Elt F) → (⟨S2048, .f32⟩ : BufTy).Contents (Elt F) → (⟨S2048, .f32⟩ : BufTy).Contents (Elt F)),
    nullary main_cst_7 (constant S_ .f32 0x41200000#32),
    unary main_cst_7 main_v27 (broadcastInDim S2048 ![] bcast_S_S2048 : (⟨S_, .f32⟩ : BufTy).Contents (Elt F) → (⟨S2048, .f32⟩ : BufTy).Contents (Elt F)),
    binary main_v26 main_v27 main_v28 (mulf : (⟨S2048, .f32⟩ : BufTy).Contents (Elt F) → (⟨S2048, .f32⟩ : BufTy).Contents (Elt F) → (⟨S2048, .f32⟩ : BufTy).Contents (Elt F)) ]

/-- From contents holding the two arguments and the earlier stages that are still read, operations 27 to 39 leave the
    arguments as they were and every stage read later at its stage function of the arguments. -/
theorem c3_spec (V : Valuation τ sig (Elt F)) (x0 : (⟨S2048x50257, .f32⟩ : BufTy).Contents (Elt F)) (x1 : (⟨S2048, .i32⟩ : BufTy).Contents (Elt F))
    (h_main_arg0 : V (Proc.devRef (τ := τ) .tc main_arg0) = x0)
    (h_main_arg1 : V (Proc.devRef (τ := τ) .tc main_arg1) = x1)
    (h_main_v0 : V (Proc.devRef (τ := τ) .tc main_v0) = Cert.ReferenceIdeal.ReadP.val_main_v0 (F := F))
    (h_main_v6 : V (Proc.devRef (τ := τ) .tc main_v6) = Cert.ReferenceIdeal.ReadP.val_main_v6 (F := F) x0)
    (h_main_v17 : V (Proc.devRef (τ := τ) .tc main_v17) = Cert.ReferenceIdeal.ReadP.val_main_v17 (F := F))
    (h_main_v18 : V (Proc.devRef (τ := τ) .tc main_v18) = Cert.ReferenceIdeal.ReadP.val_main_v18 (F := F) x1) :
    after c3 V (Proc.devRef (τ := τ) .tc main_arg0) = x0
    ∧ after c3 V (Proc.devRef (τ := τ) .tc main_arg1) = x1
    ∧ after c3 V (Proc.devRef (τ := τ) .tc main_v0) = Cert.ReferenceIdeal.ReadP.val_main_v0 (F := F)
    ∧ after c3 V (Proc.devRef (τ := τ) .tc main_v6) = Cert.ReferenceIdeal.ReadP.val_main_v6 (F := F) x0
    ∧ after c3 V (Proc.devRef (τ := τ) .tc main_v28) = Cert.ReferenceIdeal.ReadP.val_main_v28 (F := F) x0 x1 := by
  refine ⟨?_, ?_, ?_, ?_, ?_⟩
  · after_results_simp <;> exact h_main_arg0
  · after_results_simp <;> exact h_main_arg1
  · after_results_simp <;> exact h_main_v0
  · after_results_simp <;> exact h_main_v6
  · after_results_simp <;> (try simp only [h_main_arg0, h_main_v17, h_main_v18]) <;> (try rw [h_main_arg0]) <;> (try rw [h_main_v17]) <;> (try rw [h_main_v18]) <;> rfl

/-- Operations 40 to 57 of @main. -/
abbrev c4 : List (HloOp τ sig (Elt F)) :=
  [ nullary main_cst_8 (constant S_ .f32 0xC1200000#32),
    unary main_cst_8 main_v29 (broadcastInDim S2048x50257 ![] bcast_S_S2048x50257 : (⟨S_, .f32⟩ : BufTy).Contents (Elt F) → (⟨S2048x50257, .f32⟩ : BufTy).Contents (Elt F)),
    nullary main_c_9 (constantI S_ 32 0#32),
    unary main_c_9 main_v30 (broadcastInDim S2048 ![] bcast_S_S2048 : (⟨S_, .i32⟩ : BufTy).Contents (Elt F) → (⟨S2048, .i32⟩ : BufTy).Contents (Elt F)),
    binary main_v0 main_v30 main_v31 (cmpi .slt : (⟨S2048, .i32⟩ : BufTy).Contents (Elt F) → (⟨S2048, .i32⟩ : BufTy).Contents (Elt F) → (⟨S2048, .i1⟩ : BufTy).Contents (Elt F)),
    nullary main_c_10 (constantI S_ 32 2048#32),
    unary main_c_10 main_v32 (broadcastInDim S2048 ![] bcast_S_S2048 : (⟨S_, .i32⟩ : BufTy).Contents (Elt F) → (⟨S2048, .i32⟩ : BufTy).Contents (Elt F)),
    binary main_v0 main_v32 main_v33 (addi : (⟨S2048, .i32⟩ : BufTy).Contents (Elt F) → (⟨S2048, .i32⟩ : BufTy).Contents (Elt F) → (⟨S2048, .i32⟩ : BufTy).Contents (Elt F)),
    ternary main_v31 main_v33 main_v0 main_v34 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_11 (constantI S_ 32 0#32),
    unary main_c_11 main_v35 (broadcastInDim S2048 ![] bcast_S_S2048 : (⟨S_, .i32⟩ : BufTy).Contents (Elt F) → (⟨S2048, .i32⟩ : BufTy).Contents (Elt F)),
    binary main_arg1 main_v35 main_v36 (cmpi .slt : (⟨S2048, .i32⟩ : BufTy).Contents (Elt F) → (⟨S2048, .i32⟩ : BufTy).Contents (Elt F) → (⟨S2048, .i1⟩ : BufTy).Contents (Elt F)),
    nullary main_c_12 (constantI S_ 32 50257#32),
    unary main_c_12 main_v37 (broadcastInDim S2048 ![] bcast_S_S2048 : (⟨S_, .i32⟩ : BufTy).Contents (Elt F) → (⟨S2048, .i32⟩ : BufTy).Contents (Elt F)),
    binary main_arg1 main_v37 main_v38 (addi : (⟨S2048, .i32⟩ : BufTy).Contents (Elt F) → (⟨S2048, .i32⟩ : BufTy).Contents (Elt F) → (⟨S2048, .i32⟩ : BufTy).Contents (Elt F)),
    ternary main_v36 main_v38 main_arg1 main_v39 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v34 main_v40 (broadcastInDim S2048x1 ![0] bcast_S2048_S2048x1_0 : (⟨S2048, .i32⟩ : BufTy).Contents (Elt F) → (⟨S2048x1, .i32⟩ : BufTy).Contents (Elt F)),
    unary main_v39 main_v41 (broadcastInDim S2048x1 ![0] bcast_S2048_S2048x1_0 : (⟨S2048, .i32⟩ : BufTy).Contents (Elt F) → (⟨S2048x1, .i32⟩ : BufTy).Contents (Elt F)) ]

/-- From contents holding the two arguments and the earlier stages that are still read, operations 40 to 57 leave the
    arguments as they were and every stage read later at its stage function of the arguments. -/
theorem c4_spec (V : Valuation τ sig (Elt F)) (x0 : (⟨S2048x50257, .f32⟩ : BufTy).Contents (Elt F)) (x1 : (⟨S2048, .i32⟩ : BufTy).Contents (Elt F))
    (h_main_arg0 : V (Proc.devRef (τ := τ) .tc main_arg0) = x0)
    (h_main_arg1 : V (Proc.devRef (τ := τ) .tc main_arg1) = x1)
    (h_main_v0 : V (Proc.devRef (τ := τ) .tc main_v0) = Cert.ReferenceIdeal.ReadP.val_main_v0 (F := F))
    (h_main_v6 : V (Proc.devRef (τ := τ) .tc main_v6) = Cert.ReferenceIdeal.ReadP.val_main_v6 (F := F) x0)
    (h_main_v28 : V (Proc.devRef (τ := τ) .tc main_v28) = Cert.ReferenceIdeal.ReadP.val_main_v28 (F := F) x0 x1) :
    after c4 V (Proc.devRef (τ := τ) .tc main_arg0) = x0
    ∧ after c4 V (Proc.devRef (τ := τ) .tc main_arg1) = x1
    ∧ after c4 V (Proc.devRef (τ := τ) .tc main_v0) = Cert.ReferenceIdeal.ReadP.val_main_v0 (F := F)
    ∧ after c4 V (Proc.devRef (τ := τ) .tc main_v6) = Cert.ReferenceIdeal.ReadP.val_main_v6 (F := F) x0
    ∧ after c4 V (Proc.devRef (τ := τ) .tc main_v28) = Cert.ReferenceIdeal.ReadP.val_main_v28 (F := F) x0 x1
    ∧ after c4 V (Proc.devRef (τ := τ) .tc main_v29) = Cert.ReferenceIdeal.ReadP.val_main_v29 (F := F)
    ∧ after c4 V (Proc.devRef (τ := τ) .tc main_v40) = Cert.ReferenceIdeal.ReadP.val_main_v40 (F := F)
    ∧ after c4 V (Proc.devRef (τ := τ) .tc main_v41) = Cert.ReferenceIdeal.ReadP.val_main_v41 (F := F) x1 := by
  refine ⟨?_, ?_, ?_, ?_, ?_, ?_, ?_, ?_⟩
  · after_results_simp <;> exact h_main_arg0
  · after_results_simp <;> exact h_main_arg1
  · after_results_simp <;> exact h_main_v0
  · after_results_simp <;> exact h_main_v6
  · after_results_simp <;> exact h_main_v28
  · after_results_simp <;> (try simp only [h_main_arg1, h_main_v0]) <;> (try rw [h_main_arg1]) <;> (try rw [h_main_v0]) <;> rfl
  · after_results_simp <;> (try simp only [h_main_arg1, h_main_v0]) <;> (try rw [h_main_arg1]) <;> (try rw [h_main_v0]) <;> rfl
  · after_results_simp <;> (try simp only [h_main_arg1, h_main_v0]) <;> (try rw [h_main_arg1]) <;> (try rw [h_main_v0]) <;> rfl

/-- Operations 58 to 65 of @main. -/
abbrev c5 : List (HloOp τ sig (Elt F)) :=
  [ binary main_v40 main_v41 main_v42 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    ternary main_v29 main_v42 main_v28 main_v43 ((fun x i u => Host.scatter scatter_S2048x50257_S2048x2_S2048_n_01_01_1 (fun _ b => b) x i u) : (⟨S2048x50257, .f32⟩ : BufTy).Contents (Elt F) → (⟨S2048x2, .i32⟩ : BufTy).Contents (Elt F) → (⟨S2048, .f32⟩ : BufTy).Contents (Elt F) → (⟨S2048x50257, .f32⟩ : BufTy).Contents (Elt F)),
    binary main_v6 main_v43 main_v44 (subf : (⟨S2048x50257, .f32⟩ : BufTy).Contents (Elt F) → (⟨S2048x50257, .f32⟩ : BufTy).Contents (Elt F) → (⟨S2048x50257, .f32⟩ : BufTy).Contents (Elt F)),
    unary main_v44 main_v45 (Host.absf : (⟨S2048x50257, .f32⟩ : BufTy).Contents (Elt F) → (⟨S2048x50257, .f32⟩ : BufTy).Contents (Elt F)),
    nullary main_cst_13 (constant S_ .f32 0x00000000#32),
    binary main_v45 main_cst_13 main_v46 ((fun x v => Host.reduceAdd x v reducesTo_S2048x50257_S_d0_1 h_S_) : (⟨S2048x50257, .f32⟩ : BufTy).Contents (Elt F) → (⟨S_, .f32⟩ : BufTy).Contents (Elt F) → (⟨S_, .f32⟩ : BufTy).Contents (Elt F)),
    nullary main_cst_14 (constant S_ .f32 0x4CC45100#32),
    binary main_v46 main_cst_14 main_v47 (Host.divf : (⟨S_, .f32⟩ : BufTy).Contents (Elt F) → (⟨S_, .f32⟩ : BufTy).Contents (Elt F) → (⟨S_, .f32⟩ : BufTy).Contents (Elt F)) ]

/-- From contents holding the two arguments and the earlier stages that are still read, operations 58 to 65 leave the
    arguments as they were and every stage read later at its stage function of the arguments. -/
theorem c5_spec (V : Valuation τ sig (Elt F)) (x0 : (⟨S2048x50257, .f32⟩ : BufTy).Contents (Elt F)) (x1 : (⟨S2048, .i32⟩ : BufTy).Contents (Elt F))
    (h_main_arg0 : V (Proc.devRef (τ := τ) .tc main_arg0) = x0)
    (h_main_arg1 : V (Proc.devRef (τ := τ) .tc main_arg1) = x1)
    (h_main_v0 : V (Proc.devRef (τ := τ) .tc main_v0) = Cert.ReferenceIdeal.ReadP.val_main_v0 (F := F))
    (h_main_v6 : V (Proc.devRef (τ := τ) .tc main_v6) = Cert.ReferenceIdeal.ReadP.val_main_v6 (F := F) x0)
    (h_main_v28 : V (Proc.devRef (τ := τ) .tc main_v28) = Cert.ReferenceIdeal.ReadP.val_main_v28 (F := F) x0 x1)
    (h_main_v29 : V (Proc.devRef (τ := τ) .tc main_v29) = Cert.ReferenceIdeal.ReadP.val_main_v29 (F := F))
    (h_main_v40 : V (Proc.devRef (τ := τ) .tc main_v40) = Cert.ReferenceIdeal.ReadP.val_main_v40 (F := F))
    (h_main_v41 : V (Proc.devRef (τ := τ) .tc main_v41) = Cert.ReferenceIdeal.ReadP.val_main_v41 (F := F) x1) :
    after c5 V (Proc.devRef (τ := τ) .tc main_arg0) = x0
    ∧ after c5 V (Proc.devRef (τ := τ) .tc main_arg1) = x1
    ∧ after c5 V (Proc.devRef (τ := τ) .tc main_v0) = Cert.ReferenceIdeal.ReadP.val_main_v0 (F := F)
    ∧ after c5 V (Proc.devRef (τ := τ) .tc main_v47) = Cert.ReferenceIdeal.ReadP.val_main_v47 (F := F) x0 x1 := by
  refine ⟨?_, ?_, ?_, ?_⟩
  · after_results_simp <;> exact h_main_arg0
  · after_results_simp <;> exact h_main_arg1
  · after_results_simp <;> exact h_main_v0
  · after_results_simp <;> (try simp only [h_main_v6, h_main_v28, h_main_v29, h_main_v40, h_main_v41]) <;> (try rw [h_main_v6]) <;> (try rw [h_main_v28]) <;> (try rw [h_main_v29]) <;> (try rw [h_main_v40]) <;> (try rw [h_main_v41]) <;> rfl

/-- Operations 66 to 80 of @main. -/
abbrev c6 : List (HloOp τ sig (Elt F)) :=
  [ nullary main_call1_cst (constant S_ .f32 0xFF800000#32),
    binary main_arg0 main_call1_cst main_call1_v0 ((fun x v => Host.reduce FloatOps.maximumf x v reducesTo_S2048x50257_S2048_d1 h_S_) : (⟨S2048x50257, .f32⟩ : BufTy).Contents (Elt F) → (⟨S_, .f32⟩ : BufTy).Contents (Elt F) → (⟨S2048, .f32⟩ : BufTy).Contents (Elt F)),
    nullary main_call1_cst_0 (constant S_ .f32 0xFF800000#32),
    unary main_call1_cst_0 main_call1_v1 ((broadcastInDim S2048 ![] bcast_S_S2048) : (⟨S_, .f32⟩ : BufTy).Contents (Elt F) → (⟨S2048, .f32⟩ : BufTy).Contents (Elt F)),
    binary main_call1_v1 main_call1_v0 main_call1_v2 (maximumf : (⟨S2048, .f32⟩ : BufTy).Contents (Elt F) → (⟨S2048, .f32⟩ : BufTy).Contents (Elt F) → (⟨S2048, .f32⟩ : BufTy).Contents (Elt F)),
    unary main_call1_v2 main_call1_v3 ((broadcastInDim S2048x1 ![0] bcast_S2048_S2048x1_0) : (⟨S2048, .f32⟩ : BufTy).Contents (Elt F) → (⟨S2048x1, .f32⟩ : BufTy).Contents (Elt F)),
    unary main_call1_v3 main_call1_v4 ((broadcastInDim S2048x50257 ![0, 1] bcast_S2048x1_S2048x50257_0_1) : (⟨S2048x1, .f32⟩ : BufTy).Contents (Elt F) → (⟨S2048x50257, .f32⟩ : BufTy).Contents (Elt F)),
    binary main_arg0 main_call1_v4 main_call1_v5 (subf : (⟨S2048x50257, .f32⟩ : BufTy).Contents (Elt F) → (⟨S2048x50257, .f32⟩ : BufTy).Contents (Elt F) → (⟨S2048x50257, .f32⟩ : BufTy).Contents (Elt F)),
    unary main_call1_v5 main_call1_v6 (Host.exp : (⟨S2048x50257, .f32⟩ : BufTy).Contents (Elt F) → (⟨S2048x50257, .f32⟩ : BufTy).Contents (Elt F)),
    nullary main_call1_cst_1 (constant S_ .f32 0x00000000#32),
    binary main_call1_v6 main_call1_cst_1 main_call1_v7 ((fun x v => Host.reduceAdd x v reducesTo_S2048x50257_S2048_d1 h_S_) : (⟨S2048x50257, .f32⟩ : BufTy).Contents (Elt F) → (⟨S_, .f32⟩ : BufTy).Contents (Elt F) → (⟨S2048, .f32⟩ : BufTy).Contents (Elt F)),
    unary main_call1_v7 main_call1_v8 ((broadcastInDim S2048x1 ![0] bcast_S2048_S2048x1_0) : (⟨S2048, .f32⟩ : BufTy).Contents (Elt F) → (⟨S2048x1, .f32⟩ : BufTy).Contents (Elt F)),
    unary main_call1_v8 main_call1_v9 (Host.log : (⟨S2048x1, .f32⟩ : BufTy).Contents (Elt F) → (⟨S2048x1, .f32⟩ : BufTy).Contents (Elt F)),
    unary main_call1_v9 main_call1_v10 ((broadcastInDim S2048x50257 ![0, 1] bcast_S2048x1_S2048x50257_0_1) : (⟨S2048x1, .f32⟩ : BufTy).Contents (Elt F) → (⟨S2048x50257, .f32⟩ : BufTy).Contents (Elt F)),
    binary main_call1_v5 main_call1_v10 main_v48 (subf : (⟨S2048x50257, .f32⟩ : BufTy).Contents (Elt F) → (⟨S2048x50257, .f32⟩ : BufTy).Contents (Elt F) → (⟨S2048x50257, .f32⟩ : BufTy).Contents (Elt F)) ]

/-- From contents holding the two arguments and the earlier stages that are still read, operations 66 to 80 leave the
    arguments as they were and every stage read later at its stage function of the arguments. -/
theorem c6_spec (V : Valuation τ sig (Elt F)) (x0 : (⟨S2048x50257, .f32⟩ : BufTy).Contents (Elt F)) (x1 : (⟨S2048, .i32⟩ : BufTy).Contents (Elt F))
    (h_main_arg0 : V (Proc.devRef (τ := τ) .tc main_arg0) = x0)
    (h_main_arg1 : V (Proc.devRef (τ := τ) .tc main_arg1) = x1)
    (h_main_v0 : V (Proc.devRef (τ := τ) .tc main_v0) = Cert.ReferenceIdeal.ReadP.val_main_v0 (F := F))
    (h_main_v47 : V (Proc.devRef (τ := τ) .tc main_v47) = Cert.ReferenceIdeal.ReadP.val_main_v47 (F := F) x0 x1) :
    after c6 V (Proc.devRef (τ := τ) .tc main_arg0) = x0
    ∧ after c6 V (Proc.devRef (τ := τ) .tc main_arg1) = x1
    ∧ after c6 V (Proc.devRef (τ := τ) .tc main_v0) = Cert.ReferenceIdeal.ReadP.val_main_v0 (F := F)
    ∧ after c6 V (Proc.devRef (τ := τ) .tc main_v47) = Cert.ReferenceIdeal.ReadP.val_main_v47 (F := F) x0 x1
    ∧ after c6 V (Proc.devRef (τ := τ) .tc main_v48) = Cert.ReferenceIdeal.ReadP.val_main_v48 (F := F) x0 := by
  refine ⟨?_, ?_, ?_, ?_, ?_⟩
  · after_results_simp <;> exact h_main_arg0
  · after_results_simp <;> exact h_main_arg1
  · after_results_simp <;> exact h_main_v0
  · after_results_simp <;> exact h_main_v47
  · after_results_simp <;> (try simp only [h_main_arg0]) <;> (try rw [h_main_arg0]) <;> rfl

/-- Operations 81 to 96 of @main. -/
abbrev c7 : List (HloOp τ sig (Elt F)) :=
  [ nullary main_c_15 (constantI S_ 32 0#32),
    unary main_c_15 main_v49 (broadcastInDim S2048 ![] bcast_S_S2048 : (⟨S_, .i32⟩ : BufTy).Contents (Elt F) → (⟨S2048, .i32⟩ : BufTy).Contents (Elt F)),
    binary main_v0 main_v49 main_v50 (cmpi .slt : (⟨S2048, .i32⟩ : BufTy).Contents (Elt F) → (⟨S2048, .i32⟩ : BufTy).Contents (Elt F) → (⟨S2048, .i1⟩ : BufTy).Contents (Elt F)),
    nullary main_c_16 (constantI S_ 32 2048#32),
    unary main_c_16 main_v51 (broadcastInDim S2048 ![] bcast_S_S2048 : (⟨S_, .i32⟩ : BufTy).Contents (Elt F) → (⟨S2048, .i32⟩ : BufTy).Contents (Elt F)),
    binary main_v0 main_v51 main_v52 (addi : (⟨S2048, .i32⟩ : BufTy).Contents (Elt F) → (⟨S2048, .i32⟩ : BufTy).Contents (Elt F) → (⟨S2048, .i32⟩ : BufTy).Contents (Elt F)),
    ternary main_v50 main_v52 main_v0 main_v53 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_17 (constantI S_ 32 0#32),
    unary main_c_17 main_v54 (broadcastInDim S2048 ![] bcast_S_S2048 : (⟨S_, .i32⟩ : BufTy).Contents (Elt F) → (⟨S2048, .i32⟩ : BufTy).Contents (Elt F)),
    binary main_arg1 main_v54 main_v55 (cmpi .slt : (⟨S2048, .i32⟩ : BufTy).Contents (Elt F) → (⟨S2048, .i32⟩ : BufTy).Contents (Elt F) → (⟨S2048, .i1⟩ : BufTy).Contents (Elt F)),
    nullary main_c_18 (constantI S_ 32 50257#32),
    unary main_c_18 main_v56 (broadcastInDim S2048 ![] bcast_S_S2048 : (⟨S_, .i32⟩ : BufTy).Contents (Elt F) → (⟨S2048, .i32⟩ : BufTy).Contents (Elt F)),
    binary main_arg1 main_v56 main_v57 (addi : (⟨S2048, .i32⟩ : BufTy).Contents (Elt F) → (⟨S2048, .i32⟩ : BufTy).Contents (Elt F) → (⟨S2048, .i32⟩ : BufTy).Contents (Elt F)),
    ternary main_v55 main_v57 main_arg1 main_v58 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v53 main_v59 (broadcastInDim S2048x1 ![0] bcast_S2048_S2048x1_0 : (⟨S2048, .i32⟩ : BufTy).Contents (Elt F) → (⟨S2048x1, .i32⟩ : BufTy).Contents (Elt F)),
    unary main_v58 main_v60 (broadcastInDim S2048x1 ![0] bcast_S2048_S2048x1_0 : (⟨S2048, .i32⟩ : BufTy).Contents (Elt F) → (⟨S2048x1, .i32⟩ : BufTy).Contents (Elt F)) ]

/-- From contents holding the two arguments and the earlier stages that are still read, operations 81 to 96 leave the
    arguments as they were and every stage read later at its stage function of the arguments. -/
theorem c7_spec (V : Valuation τ sig (Elt F)) (x0 : (⟨S2048x50257, .f32⟩ : BufTy).Contents (Elt F)) (x1 : (⟨S2048, .i32⟩ : BufTy).Contents (Elt F))
    (h_main_arg0 : V (Proc.devRef (τ := τ) .tc main_arg0) = x0)
    (h_main_arg1 : V (Proc.devRef (τ := τ) .tc main_arg1) = x1)
    (h_main_v0 : V (Proc.devRef (τ := τ) .tc main_v0) = Cert.ReferenceIdeal.ReadP.val_main_v0 (F := F))
    (h_main_v47 : V (Proc.devRef (τ := τ) .tc main_v47) = Cert.ReferenceIdeal.ReadP.val_main_v47 (F := F) x0 x1)
    (h_main_v48 : V (Proc.devRef (τ := τ) .tc main_v48) = Cert.ReferenceIdeal.ReadP.val_main_v48 (F := F) x0) :
    after c7 V (Proc.devRef (τ := τ) .tc main_arg0) = x0
    ∧ after c7 V (Proc.devRef (τ := τ) .tc main_arg1) = x1
    ∧ after c7 V (Proc.devRef (τ := τ) .tc main_v47) = Cert.ReferenceIdeal.ReadP.val_main_v47 (F := F) x0 x1
    ∧ after c7 V (Proc.devRef (τ := τ) .tc main_v48) = Cert.ReferenceIdeal.ReadP.val_main_v48 (F := F) x0
    ∧ after c7 V (Proc.devRef (τ := τ) .tc main_v59) = Cert.ReferenceIdeal.ReadP.val_main_v59 (F := F)
    ∧ after c7 V (Proc.devRef (τ := τ) .tc main_v60) = Cert.ReferenceIdeal.ReadP.val_main_v60 (F := F) x1 := by
  refine ⟨?_, ?_, ?_, ?_, ?_, ?_⟩
  · after_results_simp <;> exact h_main_arg0
  · after_results_simp <;> exact h_main_arg1
  · after_results_simp <;> exact h_main_v47
  · after_results_simp <;> exact h_main_v48
  · after_results_simp <;> (try simp only [h_main_arg1, h_main_v0]) <;> (try rw [h_main_arg1]) <;> (try rw [h_main_v0]) <;> rfl
  · after_results_simp <;> (try simp only [h_main_arg1, h_main_v0]) <;> (try rw [h_main_arg1]) <;> (try rw [h_main_v0]) <;> rfl

/-- Operations 97 to 108 of @main. -/
abbrev c8 : List (HloOp τ sig (Elt F)) :=
  [ binary main_v59 main_v60 main_v61 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    binary main_v48 main_v61 main_v62 ((fun x i => Host.gather gather_S2048x50257_S2048x2_S2048_n_01_n_n_01_1_11 x i) : (⟨S2048x50257, .f32⟩ : BufTy).Contents (Elt F) → (⟨S2048x2, .i32⟩ : BufTy).Contents (Elt F) → (⟨S2048, .f32⟩ : BufTy).Contents (Elt F)),
    nullary main_cst_19 (constant S_ .f32 0x00000000#32),
    binary main_v62 main_cst_19 main_v63 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_20 (constant S_ .f32 0x45000000#32),
    binary main_v63 main_cst_20 main_v64 (Host.divf : (⟨S_, .f32⟩ : BufTy).Contents (Elt F) → (⟨S_, .f32⟩ : BufTy).Contents (Elt F) → (⟨S_, .f32⟩ : BufTy).Contents (Elt F)),
    unary main_v64 main_v65 (Host.negf : (⟨S_, .f32⟩ : BufTy).Contents (Elt F) → (⟨S_, .f32⟩ : BufTy).Contents (Elt F)),
    nullary main_cst_21 (constant S_ .f32 0x3F000000#32),
    binary main_cst_21 main_v47 main_v66 (mulf : (⟨S_, .f32⟩ : BufTy).Contents (Elt F) → (⟨S_, .f32⟩ : BufTy).Contents (Elt F) → (⟨S_, .f32⟩ : BufTy).Contents (Elt F)),
    nullary main_cst_22 (constant S_ .f32 0x3F000000#32),
    binary main_cst_22 main_v65 main_v67 (mulf : (⟨S_, .f32⟩ : BufTy).Contents (Elt F) → (⟨S_, .f32⟩ : BufTy).Contents (Elt F) → (⟨S_, .f32⟩ : BufTy).Contents (Elt F)),
    binary main_v66 main_v67 main_v68 (addf : (⟨S_, .f32⟩ : BufTy).Contents (Elt F) → (⟨S_, .f32⟩ : BufTy).Contents (Elt F) → (⟨S_, .f32⟩ : BufTy).Contents (Elt F)) ]

/-- From contents holding the two arguments and the earlier stages that are still read, operations 97 to 108 leave the
    arguments as they were and every stage read later at its stage function of the arguments. -/
theorem c8_spec (V : Valuation τ sig (Elt F)) (x0 : (⟨S2048x50257, .f32⟩ : BufTy).Contents (Elt F)) (x1 : (⟨S2048, .i32⟩ : BufTy).Contents (Elt F))
    (h_main_arg0 : V (Proc.devRef (τ := τ) .tc main_arg0) = x0)
    (h_main_arg1 : V (Proc.devRef (τ := τ) .tc main_arg1) = x1)
    (h_main_v47 : V (Proc.devRef (τ := τ) .tc main_v47) = Cert.ReferenceIdeal.ReadP.val_main_v47 (F := F) x0 x1)
    (h_main_v48 : V (Proc.devRef (τ := τ) .tc main_v48) = Cert.ReferenceIdeal.ReadP.val_main_v48 (F := F) x0)
    (h_main_v59 : V (Proc.devRef (τ := τ) .tc main_v59) = Cert.ReferenceIdeal.ReadP.val_main_v59 (F := F))
    (h_main_v60 : V (Proc.devRef (τ := τ) .tc main_v60) = Cert.ReferenceIdeal.ReadP.val_main_v60 (F := F) x1) :
    after c8 V (Proc.devRef (τ := τ) .tc main_arg0) = x0
    ∧ after c8 V (Proc.devRef (τ := τ) .tc main_arg1) = x1
    ∧ after c8 V (Proc.devRef (τ := τ) .tc main_v68) = Cert.ReferenceIdeal.ReadP.val_main_v68 (F := F) x0 x1 := by
  refine ⟨?_, ?_, ?_⟩
  · after_results_simp <;> exact h_main_arg0
  · after_results_simp <;> exact h_main_arg1
  · after_results_simp <;> (try simp only [h_main_v47, h_main_v48, h_main_v59, h_main_v60]) <;> (try rw [h_main_v47]) <;> (try rw [h_main_v48]) <;> (try rw [h_main_v59]) <;> (try rw [h_main_v60]) <;> rfl

-- the row maximum is kept folded: the comparison of an inlined function's operation with the same operation at the
-- buffers never looks inside it
attribute [local irreducible] Host.reduce in
/-- The line is its eight stretches in a row. -/
theorem ops_eq : (ops : List (HloOp τ sig (Elt F))) = c1 ++ (c2 ++ (c3 ++ (c4 ++ (c5 ++ (c6 ++ (c7 ++ (c8))))))) := rfl

/-- The contents after the whole line, from any contents: the last line's buffer holds the last stage function of the two
    arguments' contents, and the arguments' buffers are as they were. -/
theorem value (V : Valuation τ sig (Elt F)) :
    after ops V (Proc.devRef (τ := τ) .tc main_v68)
        = Cert.ReferenceIdeal.ReadP.val_main_v68 (F := F) (V (Proc.devRef (τ := τ) .tc main_arg0)) (V (Proc.devRef (τ := τ) .tc main_arg1))
      ∧ after ops V (Proc.devRef (τ := τ) .tc main_arg0) = V (Proc.devRef (τ := τ) .tc main_arg0)
      ∧ after ops V (Proc.devRef (τ := τ) .tc main_arg1) = V (Proc.devRef (τ := τ) .tc main_arg1) := by
  rw [ops_eq]
  simp only [after_append]
  obtain ⟨h1_main_arg0, h1_main_arg1, h1_main_v0, h1_main_v6⟩ :=
    c1_spec V (V (Proc.devRef (τ := τ) .tc main_arg0)) (V (Proc.devRef (τ := τ) .tc main_arg1)) rfl rfl
  obtain ⟨h2_main_arg0, h2_main_arg1, h2_main_v0, h2_main_v6, h2_main_v17, h2_main_v18⟩ :=
    c2_spec (after c1 V) (V (Proc.devRef (τ := τ) .tc main_arg0)) (V (Proc.devRef (τ := τ) .tc main_arg1)) h1_main_arg0 h1_main_arg1 h1_main_v0 h1_main_v6
  obtain ⟨h3_main_arg0, h3_main_arg1, h3_main_v0, h3_main_v6, h3_main_v28⟩ :=
    c3_spec (after c2 (after c1 V)) (V (Proc.devRef (τ := τ) .tc main_arg0)) (V (Proc.devRef (τ := τ) .tc main_arg1)) h2_main_arg0 h2_main_arg1 h2_main_v0 h2_main_v6 h2_main_v17 h2_main_v18
  obtain ⟨h4_main_arg0, h4_main_arg1, h4_main_v0, h4_main_v6, h4_main_v28, h4_main_v29, h4_main_v40, h4_main_v41⟩ :=
    c4_spec (after c3 (after c2 (after c1 V))) (V (Proc.devRef (τ := τ) .tc main_arg0)) (V (Proc.devRef (τ := τ) .tc main_arg1)) h3_main_arg0 h3_main_arg1 h3_main_v0 h3_main_v6 h3_main_v28
  obtain ⟨h5_main_arg0, h5_main_arg1, h5_main_v0, h5_main_v47⟩ :=
    c5_spec (after c4 (after c3 (after c2 (after c1 V)))) (V (Proc.devRef (τ := τ) .tc main_arg0)) (V (Proc.devRef (τ := τ) .tc main_arg1)) h4_main_arg0 h4_main_arg1 h4_main_v0 h4_main_v6 h4_main_v28 h4_main_v29 h4_main_v40 h4_main_v41
  obtain ⟨h6_main_arg0, h6_main_arg1, h6_main_v0, h6_main_v47, h6_main_v48⟩ :=
    c6_spec (after c5 (after c4 (after c3 (after c2 (after c1 V))))) (V (Proc.devRef (τ := τ) .tc main_arg0)) (V (Proc.devRef (τ := τ) .tc main_arg1)) h5_main_arg0 h5_main_arg1 h5_main_v0 h5_main_v47
  obtain ⟨h7_main_arg0, h7_main_arg1, h7_main_v47, h7_main_v48, h7_main_v59, h7_main_v60⟩ :=
    c7_spec (after c6 (after c5 (after c4 (after c3 (after c2 (after c1 V)))))) (V (Proc.devRef (τ := τ) .tc main_arg0)) (V (Proc.devRef (τ := τ) .tc main_arg1)) h6_main_arg0 h6_main_arg1 h6_main_v0 h6_main_v47 h6_main_v48
  obtain ⟨h8_main_arg0, h8_main_arg1, h8_main_v68⟩ :=
    c8_spec (after c7 (after c6 (after c5 (after c4 (after c3 (after c2 (after c1 V))))))) (V (Proc.devRef (τ := τ) .tc main_arg0)) (V (Proc.devRef (τ := τ) .tc main_arg1)) h7_main_arg0 h7_main_arg1 h7_main_v47 h7_main_v48 h7_main_v59 h7_main_v60
  exact ⟨h8_main_v68, h8_main_arg0, h8_main_arg1⟩

/-- On every device, for any float values, from any memory with zero counters: every weakly fair execution of @main
    terminates with the last line's buffer at the last stage function of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68)
          = Cert.ReferenceIdeal.ReadP.val_main_v68 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v68).trans (value (launchContents m c)).1,
      (h c main_arg0).trans (value (launchContents m c)).2.1,
      (h c main_arg1).trans (value (launchContents m c)).2.2⟩)
    (run_seq scopedRefs_eq scopedSems_eq defs main (fun _ => ops) main_eq (fun _ => ops_sub) m ρ
      (fun _ => List.forall_iff_forall_mem.1 ops_fresh))

end Cert.RefRun

end
-- ==== Proof.RefValue.lean ====
/-
  The reference's result as a function of its arguments, read one operation at a time: from real logits and labels in
  range, the last stage is the loss read literally.

  The stages, on a real matrix `xr` (2048 rows, 50257 columns) and one label per row:
  * the three index arrays hold, in row `p`, the words `p` and `lab p` (a word below 2^31 is not negative, so the
    wrap of negative indices leaves it);
  * the L1 half: the scaled positive logits, the entry at the label, the row's sum and mean, the target's value at the
    label, the target matrix, the absolute differences, their sum over all entries and its mean;
  * the cross-entropy half: the row's maximum (a fold of maxima from −∞), the shifted entries, their exponentials and
    the row's sum of them (positive, so its logarithm is a real), the log-softmax, its value at the label, the mean
    over the rows, negated;
  * the two halves, each halved, added.
-/
import proofs.«430646_j34110630265423_2_alg».proof.Proof.RefReadP
import proofs.«430646_j34110630265423_2_alg».proof.Proof.Spec
import proofs.«430646_j34110630265423_2_alg».proof.Proof.LibIdealReal
import proofs.«430646_j34110630265423_2_alg».proof.Proof.LibPointIndex
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Idealize.ShloMosaic Idealize.ShloMosaic.TcCoe Idealize.ShloMosaic.ValueIdx
open Cert.ReferenceIdeal.ReadP Cert.LibIdealReal Cert.LibPointIndex
open scoped BigOperators

/-! ## The index arrays: row numbers and labels, each after the wrap of a negative index -/

/-- A word below 2^31 is not negative, so the wrap of negative indices leaves it. -/
theorem wrap_id (w c : BitVec 32) (h : w.toNat < 2147483648) :
    Scalar.select (IntOp.cmpi .slt w 0#32) (IntOp.addi w c) w = w := by
  have h0 : w.slt 0#32 = false := by
    rw [BitVec.slt_zero_eq_msb, BitVec.msb_eq_decide]
    simp only [decide_eq_false_iff_not, not_le]
    exact h
  simp only [IntOp.cmpi, h0]
  rfl

/-- The pair of columns at column 0 is the first column. -/
theorem cat_left (h : Shape.Concatenates [S2048x1, S2048x1] S2048x2 1) (a b : S2048x1.Idx → BitVec 32) (p : Fin 2048) :
    concatenate S2048x2 1 [⟨S2048x1, a⟩, ⟨S2048x1, b⟩] h (ix2 p (0 : Fin 2)) = a (ix2 p (0 : Fin 1)) := by
  refine concatenate_pair_apply_left (1 : Fin S2048x2.rank) a b h _ rfl _ ?_
  intro c
  match c with
  | ⟨0, _⟩ => rfl
  | ⟨1, _⟩ => rfl

/-- The pair of columns at column 1 is the second column. -/
theorem cat_right (h : Shape.Concatenates [S2048x1, S2048x1] S2048x2 1) (a b : S2048x1.Idx → BitVec 32) (p : Fin 2048) :
    concatenate S2048x2 1 [⟨S2048x1, a⟩, ⟨S2048x1, b⟩] h (ix2 p (1 : Fin 2)) = b (ix2 p (0 : Fin 1)) := by
  refine concatenate_pair_apply_right (1 : Fin S2048x2.rank) a b h _ rfl rfl _ ?_ ?_
  · intro c hc
    match c, hc with
    | ⟨0, _⟩, _ => rfl
    | ⟨1, _⟩, hc => exact absurd rfl hc
  · rfl

/-- A column cast [2048] → [2048, 1] read at row `p`. -/
theorem col_idx (p : Fin 2048) : idx_main_v17 (ix2 p (0 : Fin 1)) = ix1 p := by
  funext a
  match a with
  | ⟨0, _⟩ => rfl

section Words
variable (l : (⟨S2048, .i32⟩ : BufTy).Contents (Elt Ideal)) (lab : Fin 2048 → Fin 50257)
  (hl : ∀ p : Fin 2048, ((l : S2048.Idx → BitVec 32) (ix1 p)).toNat = (lab p).val)

/-- The row-number word of row `p`, as a natural number. -/
theorem ofNat_row_toNat (p : Fin 2048) : (BitVec.ofNat 32 p.val).toNat = p.val := by
  rw [BitVec.toNat_ofNat]
  exact Nat.mod_eq_of_lt (by have := p.isLt; omega)

include hl in
/-- A label in range is below 2^31. -/
theorem label_small (p : Fin 2048) : ((l : S2048.Idx → BitVec 32) (ix1 p)).toNat < 2147483648 := by
  rw [hl p]
  have := (lab p).isLt
  omega

/-- %19 at column 0: the row's number. -/
theorem v19_row (p : Fin 2048) : (val_main_v19 (F := Ideal) l (ix2 p (0 : Fin 2))).toNat = p.val := by
  unfold val_main_v19
  rw [cat_left, val_main_v17_apply, col_idx, val_main_v11_apply, val_main_v8_apply, val_main_v10_apply,
    val_main_v0_apply, val_main_v7_apply, val_main_c_apply]
  show (Scalar.select (IntOp.cmpi .slt (BitVec.ofNat 32 p.val) 0#32) _ (BitVec.ofNat 32 p.val)).toNat = _
  rw [wrap_id _ _ (by rw [ofNat_row_toNat]; have := p.isLt; omega), ofNat_row_toNat]

include hl in
/-- %19 at column 1: the row's label. -/
theorem v19_col (p : Fin 2048) : (val_main_v19 (F := Ideal) l (ix2 p (1 : Fin 2))).toNat = (lab p).val := by
  unfold val_main_v19
  rw [cat_right, val_main_v18_apply]
  show (val_main_v16 (F := Ideal) l (idx_main_v17 (ix2 p (0 : Fin 1)))).toNat = _
  rw [col_idx, val_main_v16_apply, val_main_v13_apply, val_main_v15_apply, val_main_v12_apply, val_main_c_3_apply,
    wrap_id _ _ (label_small l lab hl p), hl p]

/-- %42 at column 0: the row's number. -/
theorem v42_row (p : Fin 2048) : (val_main_v42 (F := Ideal) l (ix2 p (0 : Fin 2))).toNat = p.val := by
  unfold val_main_v42
  rw [cat_left, val_main_v40_apply]
  show (val_main_v34 (F := Ideal) (idx_main_v17 (ix2 p (0 : Fin 1)))).toNat = _
  rw [col_idx, val_main_v34_apply, val_main_v31_apply, val_main_v33_apply,
    val_main_v0_apply, val_main_v30_apply, val_main_c_9_apply]
  show (Scalar.select (IntOp.cmpi .slt (BitVec.ofNat 32 p.val) 0#32) _ (BitVec.ofNat 32 p.val)).toNat = _
  rw [wrap_id _ _ (by rw [ofNat_row_toNat]; have := p.isLt; omega), ofNat_row_toNat]

include hl in
/-- %42 at column 1: the row's label. -/
theorem v42_col (p : Fin 2048) : (val_main_v42 (F := Ideal) l (ix2 p (1 : Fin 2))).toNat = (lab p).val := by
  unfold val_main_v42
  rw [cat_right, val_main_v41_apply]
  show (val_main_v39 (F := Ideal) l (idx_main_v17 (ix2 p (0 : Fin 1)))).toNat = _
  rw [col_idx, val_main_v39_apply, val_main_v36_apply, val_main_v38_apply, val_main_v35_apply, val_main_c_11_apply,
    wrap_id _ _ (label_small l lab hl p), hl p]

/-- %61 at column 0: the row's number. -/
theorem v61_row (p : Fin 2048) : (val_main_v61 (F := Ideal) l (ix2 p (0 : Fin 2))).toNat = p.val := by
  unfold val_main_v61
  rw [cat_left, val_main_v59_apply]
  show (val_main_v53 (F := Ideal) (idx_main_v17 (ix2 p (0 : Fin 1)))).toNat = _
  rw [col_idx, val_main_v53_apply, val_main_v50_apply, val_main_v52_apply,
    val_main_v0_apply, val_main_v49_apply, val_main_c_15_apply]
  show (Scalar.select (IntOp.cmpi .slt (BitVec.ofNat 32 p.val) 0#32) _ (BitVec.ofNat 32 p.val)).toNat = _
  rw [wrap_id _ _ (by rw [ofNat_row_toNat]; have := p.isLt; omega), ofNat_row_toNat]

include hl in
/-- %61 at column 1: the row's label. -/
theorem v61_col (p : Fin 2048) : (val_main_v61 (F := Ideal) l (ix2 p (1 : Fin 2))).toNat = (lab p).val := by
  unfold val_main_v61
  rw [cat_right, val_main_v60_apply]
  show (val_main_v58 (F := Ideal) l (idx_main_v17 (ix2 p (0 : Fin 1)))).toNat = _
  rw [col_idx, val_main_v58_apply, val_main_v55_apply, val_main_v57_apply, val_main_v54_apply, val_main_c_17_apply,
    wrap_id _ _ (label_small l lab hl p), hl p]

end Words

/-! ## The L1 half on real data -/

/-- The point gather at an index array whose row `p` holds the words `p` and `lab p`. -/
theorem gather_at (y : S2048x50257.Idx → EReal) (idx : IVec S2048x2 32) (lab : Fin 2048 → Fin 50257) (p : Fin 2048)
    (hr : (idx (ix2 p (0 : Fin 2))).toNat = p.val) (hc : (idx (ix2 p (1 : Fin 2))).toNat = (lab p).val) :
    Host.gather gather_S2048x50257_S2048x2_S2048_n_01_n_n_01_1_11 y idx (ix1 p) = y (ix2 p (lab p)) := by
  have h0 : (idx (ix2 p (0 : Fin 2))).toNat < 2048 := by rw [hr]; exact p.isLt
  have h1 : (idx (ix2 p (1 : Fin 2))).toNat < 50257 := by rw [hc]; exact (lab p).isLt
  rw [gather_point_apply _ rfl rfl rfl rfl rfl rfl rfl (by norm_num) (by norm_num) y idx p h0 h1]
  have e0 : (⟨(idx (ix2 p (0 : Fin 2))).toNat, h0⟩ : Fin 2048) = p := Fin.ext hr
  have e1 : (⟨(idx (ix2 p (1 : Fin 2))).toNat, h1⟩ : Fin 50257) = lab p := Fin.ext hc
  rw [e0, e1]

/-- A row sum's operand index. -/
theorem row_idx (p : Fin 2048) (k : Fin 50257) : idx_main_v21 (ix1 p) k = ix2 p k := by
  funext a
  match a with
  | ⟨0, _⟩ => rfl
  | ⟨1, _⟩ => rfl

section Values
variable (x : (⟨S2048x50257, .f32⟩ : BufTy).Contents (Elt Ideal)) (l : (⟨S2048, .i32⟩ : BufTy).Contents (Elt Ideal))
  (xr : Fin 2048 → Fin 50257 → ℝ) (lab : Fin 2048 → Fin 50257)
  (hx : ∀ (p : Fin 2048) (q : Fin 50257), (x : S2048x50257.Idx → EReal) (ix2 p q) = ((xr p q : ℝ) : EReal))
  (hl : ∀ p : Fin 2048, ((l : S2048.Idx → BitVec 32) (ix1 p)).toNat = (lab p).val)

open Cert.LossSpec

include hx in
/-- %6: a positive logit scaled by −10, else 0. -/
theorem v6_at (p : Fin 2048) (q : Fin 50257) :
    val_main_v6 (F := Ideal) x (ix2 p q) = ((fneg (xr p q) : ℝ) : EReal) := by
  rw [val_main_v6_apply, val_main_v2_apply, val_main_v4_apply, val_main_v1_apply, val_main_v3_apply, val_main_v5_apply,
    val_main_cst_apply, val_main_cst_0_apply, val_main_cst_1_apply, hx p q]
  simp only [Ideal.ofBits_def, Ideal.cmpf_def, Ideal.mulf_def, ofBits_zero_f32_coe, ofBits_neg_ten_f32,
    select_cmp_ogt_coe, coe_mul_coe, ite_coe]
  rfl

include hx hl in
/-- %20: the row's entry at its label. -/
theorem v20_at (p : Fin 2048) : val_main_v20 (F := Ideal) x l (ix1 p) = ((gath xr lab p : ℝ) : EReal) := by
  unfold val_main_v20
  rw [gather_at x _ lab p (v19_row l p) (v19_col l lab hl p), hx]
  rfl

include hx in
/-- %21: the row's sum. -/
theorem v21_at (p : Fin 2048) : val_main_v21 (F := Ideal) x (ix1 p) = ((rowSum xr p : ℝ) : EReal) := by
  rw [val_main_v21_apply, val_main_cst_5_apply]
  simp only [row_idx, hx, Ideal.ofBits_def, ofBits_zero_f32_coe, sum_coe, coe_add_coe, zero_add]
  rfl

include hx hl in
/-- %28: ten times the larger of |the row's mean| and |the label's entry|. -/
theorem v28_at (p : Fin 2048) : val_main_v28 (F := Ideal) x l (ix1 p) = ((rowVal xr lab p : ℝ) : EReal) := by
  rw [val_main_v28_apply, val_main_v26_apply, val_main_v24_apply, val_main_v25_apply, val_main_v23_apply,
    v21_at x xr hx p, v20_at x l xr lab hx hl p, val_main_v22_apply, val_main_v27_apply, val_main_cst_6_apply,
    val_main_cst_7_apply]
  simp only [Ideal.ofBits_def, Ideal.hostDivf_def, Ideal.hostAbsf_def, Ideal.maximumf_def, Ideal.mulf_def,
    ofBits_50257_f32, ofBits_ten_f32]
  rw [div_coe_coe _ (by norm_num), absf_coe, absf_coe, max_coe_coe, coe_mul_coe]
  rfl

include hx hl in
/-- %43: the target matrix. -/
theorem v43_at (p : Fin 2048) (q : Fin 50257) :
    val_main_v43 (F := Ideal) x l (ix2 p q) = ((tgt xr lab p q : ℝ) : EReal) := by
  unfold val_main_v43
  rw [scatter_point_set_apply _ rfl rfl rfl rfl (by norm_num) (by norm_num) _ _ _ (v42_row l)
    (fun r => by rw [v42_col l lab hl r]; exact (lab r).isLt) p q]
  rw [v42_col l lab hl p, v28_at x l xr lab hx hl p, val_main_v29_apply, val_main_cst_8_apply]
  simp only [Ideal.ofBits_def, ofBits_neg_ten_f32]
  unfold tgt
  by_cases h : q = lab p
  · rw [if_pos (congrArg Fin.val h), if_pos h]
  · rw [if_neg (fun e => h (Fin.ext e)), if_neg h]

include hx hl in
/-- %45: the entry's L1 term. -/
theorem v45_at (p : Fin 2048) (q : Fin 50257) :
    val_main_v45 (F := Ideal) x l (ix2 p q) = ((|fneg (xr p q) - tgt xr lab p q| : ℝ) : EReal) := by
  rw [val_main_v45_apply, val_main_v44_apply, v6_at x xr hx p q, v43_at x l xr lab hx hl p q]
  simp only [Ideal.subf_def, Ideal.hostAbsf_def, coe_sub_coe, absf_coe]

include hx hl in
/-- %47: the mean of the L1 terms over all entries. -/
theorem v47_at (i : S_.Idx) : val_main_v47 (F := Ideal) x l i
    = (((∑ r, ∑ c, |fneg (xr r c) - tgt xr lab r c|) / 102926336 : ℝ) : EReal) := by
  rw [val_main_v47_apply, val_main_v46_apply, val_main_cst_13_apply, val_main_cst_14_apply, sum_idx2,
    sum_eq_coe_of_eq Finset.univ _ (fun r => ∑ c, |fneg (xr r c) - tgt xr lab r c|)
      (fun r _ => sum_eq_coe_of_eq Finset.univ _ _ (fun c _ => v45_at x l xr lab hx hl r c))]
  simp only [Ideal.ofBits_def, Ideal.hostDivf_def, ofBits_zero_f32_coe, ofBits_102926336_f32, coe_add_coe, zero_add]
  rw [div_coe_coe _ (by norm_num)]

end Values

/-! ## The cross-entropy half on real data -/

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    ⟨fun i => i 0, fun a => ix1 a, fun i => (eq_ix1 i).symm, fun _ => rfl⟩
  rw [← Equiv.sum_comp e.symm f]
  rfl

/-- The row maximum, broadcast back over the columns, is read at the row. -/
theorem max_bc_idx (p : Fin 2048) (q : Fin 50257) : idx_main_call1_v3 (idx_main_call1_v4 (ix2 p q)) = ix1 p := by
  funext a
  match a with
  | ⟨0, _⟩ => rfl

/-- The sum of exponentials' operand index. -/
theorem exp_idx (p : Fin 2048) (k : Fin 50257) : idx_main_call1_v7 (ix1 p) k = ix2 p k := by
  funext a
  match a with
  | ⟨0, _⟩ => rfl
  | ⟨1, _⟩ => rfl

/-- The logarithm of the row's sum, broadcast back over the columns, is read at the row. -/
theorem log_bc_idx (p : Fin 2048) (q : Fin 50257) : idx_main_call1_v8 (idx_main_call1_v10 (ix2 p q)) = ix1 p := by
  funext a
  match a with
  | ⟨0, _⟩ => rfl

section Values2
variable (x : (⟨S2048x50257, .f32⟩ : BufTy).Contents (Elt Ideal)) (l : (⟨S2048, .i32⟩ : BufTy).Contents (Elt Ideal))
  (xr : Fin 2048 → Fin 50257 → ℝ) (lab : Fin 2048 → Fin 50257)
  (hx : ∀ (p : Fin 2048) (q : Fin 50257), (x : S2048x50257.Idx → EReal) (ix2 p q) = ((xr p q : ℝ) : EReal))
  (hl : ∀ p : Fin 2048, ((l : S2048.Idx → BitVec 32) (ix1 p)).toNat = (lab p).val)

open Cert.LossSpec

include hx in
/-- The max-reduce from −∞ over a row of reals is the row's maximum. -/
theorem rowmax_at (p : Fin 2048) : val_main_call1_v0 (F := Ideal) x (ix1 p) = ((rowMax xr p : ℝ) : EReal) := by
  unfold val_main_call1_v0
  refine (Host.reduce_eq_fold_single (FloatOps.maximumf (F := Ideal) (φ := .f32)) x (val_main_call1_cst (F := Ideal))
    reducesTo_S2048x50257_S2048_d1 (by decide) h_S_ (ix1 p)).trans ?_
  rw [fold_maximumf_eq_fold_max, val_main_call1_cst_apply, Ideal.ofBits_def, ofBits_neg_inf_f32]
  refine fold_max_bot_eq_coe_of_eq Finset.univ Finset.univ_nonempty _ (fun c : Fin 50257 => xr p c) (fun k _ => ?_)
  rw [← hx p k]
  exact congrArg x (funext fun a => Fin.ext (by match a with | ⟨0, _⟩ => rfl | ⟨1, _⟩ => rfl))

include hx in
/-- The larger of −∞ and the row's maximum is the row's maximum. -/
theorem rowmax2_at (p : Fin 2048) : val_main_call1_v2 (F := Ideal) x (ix1 p) = ((rowMax xr p : ℝ) : EReal) := by
  rw [val_main_call1_v2_apply, rowmax_at x xr hx p, val_main_call1_v1_apply, val_main_call1_cst_0_apply]
  simp only [Ideal.ofBits_def, Ideal.maximumf_def, ofBits_neg_inf_f32, max_bot_left']

include hx in
/-- The entry less its row's maximum. -/
theorem shifted_at (p : Fin 2048) (q : Fin 50257) :
    val_main_call1_v5 (F := Ideal) x (ix2 p q) = ((xr p q - rowMax xr p : ℝ) : EReal) := by
  rw [val_main_call1_v5_apply, val_main_call1_v4_apply, val_main_call1_v3_apply, max_bc_idx, rowmax2_at x xr hx p,
    hx p q]
  simp only [Ideal.subf_def, coe_sub_coe]

include hx in
/-- The row's sum of exponentials. -/
theorem rowexp_at (p : Fin 2048) : val_main_call1_v7 (F := Ideal) x (ix1 p) = ((rowExp xr p : ℝ) : EReal) := by
  rw [val_main_call1_v7_apply, val_main_call1_cst_1_apply]
  simp only [exp_idx, val_main_call1_v6_apply, shifted_at x xr hx, Ideal.hostUnary_exp_def, Ideal.exp_coe,
    Ideal.ofBits_def, ofBits_zero_f32_coe, sum_coe, coe_add_coe, zero_add]
  rfl

/-- A sum of exponentials is positive. -/
theorem rowExp_pos (p : Fin 2048) : 0 < rowExp xr p :=
  Finset.sum_pos (fun c _ => Real.exp_pos _) Finset.univ_nonempty

include hx in
/-- %48: the log-softmax of the entry. -/
theorem logsoftmax_at (p : Fin 2048) (q : Fin 50257) :
    val_main_v48 (F := Ideal) x (ix2 p q) = (((xr p q - rowMax xr p) - Real.log (rowExp xr p) : ℝ) : EReal) := by
  rw [val_main_v48_apply, shifted_at x xr hx p q, val_main_call1_v10_apply, val_main_call1_v9_apply,
    val_main_call1_v8_apply, log_bc_idx, rowexp_at x xr hx p]
  simp only [Ideal.hostUnary_log_def, Ideal.subf_def]
  rw [log_coe_of_pos (rowExp_pos xr p), coe_sub_coe]

include hx hl in
/-- %62: the log-softmax at the row's label. -/
theorem v62_at (p : Fin 2048) : val_main_v62 (F := Ideal) x l (ix1 p)
    = (((xr p (lab p) - rowMax xr p) - Real.log (rowExp xr p) : ℝ) : EReal) := by
  unfold val_main_v62
  rw [gather_at _ _ lab p (v61_row l p) (v61_col l lab hl p), logsoftmax_at x xr hx p (lab p)]

end Values2

/-- On real logits and labels in range the reference's result is the loss read literally. -/
theorem ref_value (x : (⟨S2048x50257, .f32⟩ : BufTy).Contents (Elt Ideal)) (l : (⟨S2048, .i32⟩ : BufTy).Contents (Elt Ideal))
    (xr : Fin 2048 → Fin 50257 → ℝ) (lab : Fin 2048 → Fin 50257)
    (hx : ∀ (p : Fin 2048) (q : Fin 50257), (x : S2048x50257.Idx → EReal) (ix2 p q) = ((xr p q : ℝ) : EReal))
    (hl : ∀ p : Fin 2048, ((l : S2048.Idx → BitVec 32) (ix1 p)).toNat = (lab p).val) :
    (Cert.ReferenceIdeal.ReadP.val_main_v68 (F := Ideal) x l : S_.Idx → EReal)
      = fun _ => ((Cert.LossSpec.lossR xr lab : ℝ) : EReal) := by
  funext i
  rw [val_main_v68_apply, val_main_v66_apply, val_main_v67_apply, val_main_v65_apply, val_main_v64_apply,
    val_main_v63_apply, v47_at x l xr lab hx hl i, val_main_cst_21_apply, val_main_cst_22_apply, val_main_cst_19_apply,
    val_main_cst_20_apply, sum_idx1,
    sum_eq_coe_of_eq Finset.univ _
      (fun r => (xr r (lab r) - Cert.LossSpec.rowMax xr r) - Real.log (Cert.LossSpec.rowExp xr r))
      (fun r _ => v62_at x l xr lab hx hl r)]
  simp only [Ideal.ofBits_def, Ideal.addf_def, Ideal.mulf_def, Ideal.hostDivf_def, Ideal.hostNegf_def, Ideal.negf_def,
    ofBits_zero_f32_coe, ofBits_half_f32, ofBits_2048_f32, coe_add_coe, zero_add]
  rw [div_coe_coe _ (by norm_num), neg_coe, coe_mul_coe, coe_mul_coe, coe_add_coe]
  rfl

end Cert.RefValue

end
-- ==== Proof.PreFacts.lean ====
/-
  The precondition "finite inputs" read back at the extended reals. The printed predicate is the conjunction of three
  all-reductions: |x| < +∞ at every entry of the [2048 × 50257] array, 0 ≤ l (signed) and l < 50257 (signed) at every
  entry of the label vector. When it is all ones, every entry of x is a real number (an extended real whose absolute value
  is below +∞ is neither infinity), and every label, read unsigned, is below 50257 (a non-negative signed 32-bit word is
  its unsigned value).
-/
import proofs.«430646_j34110630265423_2_alg».proof.Pre_finite_inputs
import Idealize.ShloMosaic.PureOps.Ideal
import Idealize.ShloMosaic.Lib.ValueIdx
import Idealize.ShloMosaic.Lib.ReduceAll

noncomputable section

namespace Cert.PreFacts

open Idealize.ShloMosaic Cert.Pre_finite_inputs

/-- The scalar shape has one index. -/
instance subsingleton_S_ : Subsingleton S_.Idx := ⟨fun a b => funext fun d => d.elim0⟩

/-- The pattern 0x7F800000 is +∞. -/
theorem inf_bits : Ideal.ofBits .f32 0x7F800000#32 = (⊤ : EReal) := by simp [Ideal.ofBits, Ideal.ieee]

/-- An extended real whose absolute value max x (−x) is below +∞ is a real. -/
theorem real_of_abs_lt_top (x : EReal) (h : max x (-x) < (⊤ : EReal)) : ∃ y : ℝ, x = ((y : ℝ) : EReal) := by
  induction x using EReal.rec with
  | bot => simp at h
  | coe r => exact ⟨r, rfl⟩
  | top => simp at h

theorem ofBool_eq_one (b : Bool) : BitVec.ofBool b = 1#1 ↔ b = true := by cases b <;> decide

/-- A 32-bit word in [0, n) signed, n below 2³¹, is below n unsigned. -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  unfold IntOp.cmpi at h0 h1
  rw [ofBool_eq_one] at h0 h1
  simp only [BitVec.slt, BitVec.sle, decide_eq_true_eq] at h0 h1
  have h32 := w.isLt
  have hn' : (BitVec.ofNat 32 n).toInt = n := by
    rw [BitVec.toInt_eq_msb_cond, BitVec.msb_eq_false_iff_two_mul_lt.mpr (by simp [BitVec.toNat_ofNat]; omega)]
    simp [BitVec.toNat_ofNat]; omega
  have hz : (0#32 : BitVec 32).toInt = 0 := by decide
  rw [hn'] at h1
  rw [hz] at h0
  rw [BitVec.toInt_eq_toNat_cond] at h0 h1
  split at h1 <;> omega

/-- The three all-reductions of the precondition, each read at an element. -/
theorem split_pre [Facts] (x : FVec Ideal S2048x50257 .f32) (l : IVec S2048 32)
    (h : fn (F := Ideal) x l = fun _ => 1#1) :
    (∀ i, Ideal.cmp .olt (max (x i) (-(x i))) (Ideal.ofBits .f32 0x7F800000#32) = 1#1)
      ∧ (∀ r, IntOp.cmpi .sge (l r) 0#32 = 1#1) ∧ (∀ r, IntOp.cmpi .slt (l r) 50257#32 = 1#1) := by
  have e := congrFun h ValueIdx.ix0
  dsimp only [fn] at e
  obtain ⟨e12, e3⟩ := IntOp.andi_eq_one.1 e
  obtain ⟨e1, e2⟩ := IntOp.andi_eq_one.1 e12
  exact ⟨fun i => Host.reduce_andi_all _ _ _ _ _ e1 i, fun r => Host.reduce_andi_all _ _ _ _ _ e2 r,
    fun r => Host.reduce_andi_all _ _ _ _ _ e3 r⟩

/-- Under the precondition every entry of the array is a real number. -/
theorem finite_of_pre [Cert.Pre_finite_inputs.Facts] (x : FVec Ideal Cert.Pre_finite_inputs.S2048x50257 .f32)
    (l : IVec Cert.Pre_finite_inputs.S2048 32)
    (h : Cert.Pre_finite_inputs.fn (F := Ideal) x l = fun _ => 1#1) : ∀ i, ∃ y : ℝ, x i = ((y : ℝ) : EReal) := by
  intro i
  have hi := (split_pre x l h).1 i
  rw [inf_bits] at hi
  unfold Ideal.cmp at hi
  rw [ofBool_eq_one] at hi
  exact real_of_abs_lt_top (x i) (of_decide_eq_true hi)

/-- Under the precondition every label, read unsigned, is below 50257. -/
theorem labels_of_pre [Cert.Pre_finite_inputs.Facts] (x : FVec Ideal Cert.Pre_finite_inputs.S2048x50257 .f32)
    (l : IVec Cert.Pre_finite_inputs.S2048 32)
    (h : Cert.Pre_finite_inputs.fn (F := Ideal) x l = fun _ => 1#1) : ∀ r, (l r).toNat < 50257 := by
  intro r
  obtain ⟨-, h0, h1⟩ := split_pre x l h
  exact toNat_lt_of_signed (l r) 50257 (by norm_num) (h0 r) (h1 r)

end Cert.PreFacts

end
-- ==== Proof.lean ====
/-
  A fused loss over logits `x` (2048 × 50257) and one label per row: half an L1 term that compares the positive
  logits scaled by −10 with a target that is −10 everywhere but at each row's label, plus half the cross entropy of
  the rows' softmax at their labels.

  The kernel makes one pass over `x` in 512 × 2048 tiles, 25 per row block, the last one overhanging the array by 943
  columns that a mask of the column index keeps out of every sum and maximum; per row it accumulates the row's sum,
  the sum of its entries' L1 terms against the constant target −10 (in the simplified form `10 · (if 0 < y then
  |y − 1| else 1)`), a running maximum and a running sum of exponentials rescaled to it. The host lines after it gather
  each row's label entry, correct the L1 total at the label, and finish the mean, the logarithm and the two halves.
  The reference computes the same loss literally: a scatter of the per-row target into a constant matrix, a full
  absolute difference, a full log-softmax and a gather.

  The kernel's finite stand-in for −∞ — the running maximum's first value and the fill of the masked columns — is
  read as −∞ (the named constant `neg_big`): with it a masked column contributes `exp (−∞) = 0` to the sum of
  exponentials, as the reference's absent columns do, and the first maximum is the first tile's own. Labels are in
  `[0, 50257)`, where the reference's gather and scatter address the matrix.

  Under these, over the extended reals, both programs end at the same number: the rows' four accumulators are the
  rows' sum, L1 sum, maximum and sum of exponentials (by induction over the column tiles), the host lines turn them
  into the one-pass arrangement `lossK` of the loss, the reference's stages are its literal arrangement `lossR`, and
  the two arrangements agree by splitting each row's L1 sum at its label and by `g − (M + L) = (g − M) − L`.
-/
import proofs.«430646_j34110630265423_2_alg».proof.Defs
import proofs.«430646_j34110630265423_2_alg».proof.Proof.Gen.Kernel
import proofs.«430646_j34110630265423_2_alg».proof.Proof.Gen.KernelIdeal
import proofs.«430646_j34110630265423_2_alg».proof.Proof.Gen.ReferenceIdeal
import proofs.«430646_j34110630265423_2_alg».proof.Proof.Gen.Pre_finite_inputs
import proofs.«430646_j34110630265423_2_alg».proof.Proof.KBFrame
import proofs.«430646_j34110630265423_2_alg».proof.Proof.KIFrame
import proofs.«430646_j34110630265423_2_alg».proof.Proof.KIValue
import proofs.«430646_j34110630265423_2_alg».proof.Proof.RefRun
import proofs.«430646_j34110630265423_2_alg».proof.Proof.RefValue
import proofs.«430646_j34110630265423_2_alg».proof.Proof.PreFacts
import proofs.«430646_j34110630265423_2_alg».proof.Proof.Spec
import Idealize.ShloMosaic.PureOps.IdealRules
import Idealize.ShloMosaic.Lib.ValueIdx

noncomputable section

namespace Cert.Proof

open Idealize.ShloMosaic Idealize.SL.Sem Idealize.ShloMosaic.ValueIdx

/-- The word-level kernel runs to the end and leaves its two arguments as they were. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- So does the reference: its run, the result dropped. -/
theorem frame_ri : Cert.frame_ReferenceIdeal := fun m ρ _ =>
  (θ_run Cert.ReferenceIdeal.defs _ _).mono (fun _ h c => (h c).2) (Cert.RefRun.run (F := Ideal) m ρ)

/-- The idealization named one constant, at its two sites: the pattern of −1e30 read as the bottom element. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

/-- From memories that agree on finite logits and on labels in range, both idealized programs end at the loss: the
    kernel at its one-pass arrangement, the reference at the literal one, and the two are one number. -/
theorem algebraic : Cert.algebraic_KernelIdeal_ReferenceIdeal := by
  intro m ρ m' ρ' hpre hagree
  have hfin := fun c => Cert.PreFacts.finite_of_pre _ _ (hpre c)
  have hlab := fun c => Cert.PreFacts.labels_of_pre _ _ (hpre c)
  -- the logits as reals and the labels as column numbers, device by device
  let xr : Dev Cert.KernelIdeal.nD → Fin 2048 → Fin 50257 → ℝ := fun c p q => Classical.choose (hfin c (ix2 p q))
  have hxr : ∀ (c : Dev Cert.KernelIdeal.nD) (p : Fin 2048) (q : Fin 50257),
      m ((c.tc : Thread Cert.KernelIdeal.nD Cert.KernelIdeal.τ).loc Cert.KernelIdeal.main_arg0) (ix2 p q) = ((xr c p q : ℝ) : EReal) :=
    fun c p q => Classical.choose_spec (hfin c (ix2 p q))
  let lab : Dev Cert.KernelIdeal.nD → Fin 2048 → Fin 50257 := fun c p =>
    ⟨(m ((c.tc : Thread Cert.KernelIdeal.nD Cert.KernelIdeal.τ).loc Cert.KernelIdeal.main_arg1) (ix1 p)).toNat, hlab c (ix1 p)⟩
  refine ⟨fun c => fun _ => ((Cert.LossSpec.lossK (xr c) (lab c) : ℝ) : EReal), ?_, ?_⟩
  · exact Cert.KernelIdeal.Hand.kernel_value m ρ xr lab hxr (fun _ _ => rfl)
  · refine (θ_run Cert.ReferenceIdeal.defs _ _).mono (fun r h c => ⟨(h c).1.trans ?_, (h c).2.1, (h c).2.2⟩)
      (Cert.RefRun.run (F := Ideal) m' ρ')
    rw [(hagree c).1, (hagree c).2]
    exact (Cert.RefValue.ref_value _ _ (xr c) (lab c) (hxr c) (fun _ => rfl)).trans
      (by simp only [Cert.LossSpec.lossK_eq_lossR]; rfl)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
